-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S4096x4 : Shape := ⟨2, ![4096, 4]⟩
abbrev S32x2048x1408 : Shape := ⟨3, ![32, 2048, 1408]⟩
abbrev S32x1408x2048 : Shape := ⟨3, ![32, 1408, 2048]⟩
abbrev S2048x2816 : Shape := ⟨2, ![2048, 2816]⟩
abbrev S2816x2048 : Shape := ⟨2, ![2816, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S4096x4 : S_.BroadcastsInDim S4096x4 (![] : Fin 0 → Fin S4096x4.rank)
  reducesTo_S4096x4_S_d0_1 : S4096x4.ReducesTo [0, 1] S_
  bcast_S_S32x2048x1408 : S_.BroadcastsInDim S32x2048x1408 (![] : Fin 0 → Fin S32x2048x1408.rank)
  reducesTo_S32x2048x1408_S_d0_1_2 : S32x2048x1408.ReducesTo [0, 1, 2] S_
  bcast_S_S32x1408x2048 : S_.BroadcastsInDim S32x1408x2048 (![] : Fin 0 → Fin S32x1408x2048.rank)
  reducesTo_S32x1408x2048_S_d0_1_2 : S32x1408x2048.ReducesTo [0, 1, 2] S_
  bcast_S_S2048x2816 : S_.BroadcastsInDim S2048x2816 (![] : Fin 0 → Fin S2048x2816.rank)
  reducesTo_S2048x2816_S_d0_1 : S2048x2816.ReducesTo [0, 1] S_
  bcast_S_S2816x2048 : S_.BroadcastsInDim S2816x2048 (![] : Fin 0 → Fin S2816x2048.rank)
  reducesTo_S2816x2048_S_d0_1 : S2816x2048.ReducesTo [0, 1] S_

variable [Facts]

def fn_part2 {F : FTy → Type} [FloatOps F] (main_arg8 : FVec F S2816x2048 .f32) (main_v33 : IVec S_ 1) : IVec S_ 1 :=
  let main_v34 : FVec F S2816x2048 .f32 := Host.absf main_arg8
  let main_cst_12 : FVec F S_ .f32 := constant S_ .f32 0x7F800000#32
  let main_v35 : FVec F S2816x2048 .f32 := broadcastInDim S2816x2048 ![] bcast_S_S2816x2048 main_cst_12
  let main_v36 : IVec S2816x2048 1 := cmpf .olt main_v34 main_v35
  let main_c_13 : IVec S_ 1 := constantI S_ 1 1#1
  let main_v37 : IVec S_ 1 := (fun x v => Host.reduce IntOp.andi x v reducesTo_S2816x2048_S_d0_1 h_S_) main_v36 main_c_13
  let main_v38 : IVec S_ 1 := andi main_v33 main_v37
  main_v38

def fn_part1 {F : FTy → Type} [FloatOps F] (main_arg5 : FVec F S32x1408x2048 .f32) (main_arg6 : FVec F S2048x2816 .f32) (main_arg7 : FVec F S2048x2816 .f32) (main_arg8 : FVec F S2816x2048 .f32) (main_v13 : IVec S_ 1) (main_v16 : IVec S32x2048x1408 1) : IVec S_ 1 :=
  let main_c_5 : IVec S_ 1 := constantI S_ 1 1#1
  let main_v17 : IVec S_ 1 := (fun x v => Host.reduce IntOp.andi x v reducesTo_S32x2048x1408_S_d0_1_2 h_S_) main_v16 main_c_5
  let main_v18 : IVec S_ 1 := andi main_v13 main_v17
  let main_v19 : FVec F S32x1408x2048 .f32 := Host.absf main_arg5
  let main_cst_6 : FVec F S_ .f32 := constant S_ .f32 0x7F800000#32
  let main_v20 : FVec F S32x1408x2048 .f32 := broadcastInDim S32x1408x2048 ![] bcast_S_S32x1408x2048 main_cst_6
  let main_v21 : IVec S32x1408x2048 1 := cmpf .olt main_v19 main_v20
  let main_c_7 : IVec S_ 1 := constantI S_ 1 1#1
  let main_v22 : IVec S_ 1 := (fun x v => Host.reduce IntOp.andi x v reducesTo_S32x1408x2048_S_d0_1_2 h_S_) main_v21 main_c_7
  let main_v23 : IVec S_ 1 := andi main_v18 main_v22
  let main_v24 : FVec F S2048x2816 .f32 := Host.absf main_arg6
  let main_cst_8 : FVec F S_ .f32 := constant S_ .f32 0x7F800000#32
  let main_v25 : FVec F S2048x2816 .f32 := broadcastInDim S2048x2816 ![] bcast_S_S2048x2816 main_cst_8
  let main_v26 : IVec S2048x2816 1 := cmpf .olt main_v24 main_v25
  let main_c_9 : IVec S_ 1 := constantI S_ 1 1#1
  let main_v27 : IVec S_ 1 := (fun x v => Host.reduce IntOp.andi x v reducesTo_S2048x2816_S_d0_1 h_S_) main_v26 main_c_9
  let main_v28 : IVec S_ 1 := andi main_v23 main_v27
  let main_v29 : FVec F S2048x2816 .f32 := Host.absf main_arg7
  let main_cst_10 : FVec F S_ .f32 := constant S_ .f32 0x7F800000#32
  let main_v30 : FVec F S2048x2816 .f32 := broadcastInDim S2048x2816 ![] bcast_S_S2048x2816 main_cst_10
  let main_v31 : IVec S2048x2816 1 := cmpf .olt main_v29 main_v30
  let main_c_11 : IVec S_ 1 := constantI S_ 1 1#1
  let main_v32 : IVec S_ 1 := (fun x v => Host.reduce IntOp.andi x v reducesTo_S2048x2816_S_d0_1 h_S_) main_v31 main_c_11
  let main_v33 : IVec S_ 1 := andi main_v28 main_v32
  fn_part2 (F := F) main_arg8 main_v33

def fn {F : FTy → Type} [FloatOps F] (main_arg0 : FVec F S2x2048x2048 .f32) (main_arg1 : IVec S4096x4 32) (main_arg2 : FVec F S4096x4 .f32) (main_arg3 : FVec F S32x2048x1408 .f32) (main_arg4 : FVec F S32x2048x1408 .f32) (main_arg5 : FVec F S32x1408x2048 .f32) (main_arg6 : FVec F S2048x2816 .f32) (main_arg7 : FVec F S2048x2816 .f32) (main_arg8 : FVec F S2816x2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S4096x4 .f32 := Host.absf main_arg2
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S32x2048x1408 .f32 := Host.absf main_arg3
  let main_cst_2 : FVec F S_ .f32 := constant S_ .f32 0x7F800000#32
  let main_v10 : FVec F S32x2048x1408 .f32 := broadcastInDim S32x2048x1408 ![] bcast_S_S32x2048x1408 main_cst_2
  let main_v11 : IVec S32x2048x1408 1 := cmpf .olt main_v9 main_v10
  let main_c_3 : IVec S_ 1 := constantI S_ 1 1#1
  let main_v12 : IVec S_ 1 := (fun x v => Host.reduce IntOp.andi x v reducesTo_S32x2048x1408_S_d0_1_2 h_S_) main_v11 main_c_3
  let main_v13 : IVec S_ 1 := andi main_v8 main_v12
  let main_v14 : FVec F S32x2048x1408 .f32 := Host.absf main_arg4
  let main_cst_4 : FVec F S_ .f32 := constant S_ .f32 0x7F800000#32
  let main_v15 : FVec F S32x2048x1408 .f32 := broadcastInDim S32x2048x1408 ![] bcast_S_S32x2048x1408 main_cst_4
  let main_v16 : IVec S32x2048x1408 1 := cmpf .olt main_v14 main_v15
  fn_part1 (F := F) main_arg5 main_arg6 main_arg7 main_arg8 main_v13 main_v16
-- ==== Kernel.lean ====
abbrev S2x2048x2048 : Shape := ⟨3, ![2, 2048, 2048]⟩
abbrev S4096x4 : Shape := ⟨2, ![4096, 4]⟩
abbrev S32x2048x1408 : Shape := ⟨3, ![32, 2048, 1408]⟩
abbrev S32x1408x2048 : Shape := ⟨3, ![32, 1408, 2048]⟩
abbrev S2048x2816 : Shape := ⟨2, ![2048, 2816]⟩
abbrev S2816x2048 : Shape := ⟨2, ![2816, 2048]⟩
abbrev S4096x2048 : Shape := ⟨2, ![4096, 2048]⟩
abbrev S16384 : Shape := ⟨1, ![16384]⟩
abbrev S_ : Shape := ⟨0, ![]⟩
abbrev S16384x1 : Shape := ⟨2, ![16384, 1]⟩
abbrev S16384x2048 : Shape := ⟨2, ![16384, 2048]⟩
abbrev S32x512x2048 : Shape := ⟨3, ![32, 512, 2048]⟩
abbrev S32x512x1 : Shape := ⟨3, ![32, 512, 1]⟩
abbrev S1x512x2048 : Shape := ⟨3, ![1, 512, 2048]⟩
abbrev S1x2048x128 : Shape := ⟨3, ![1, 2048, 128]⟩
abbrev S1x128x2048 : Shape := ⟨3, ![1, 128, 2048]⟩
abbrev S1x512x1 : Shape := ⟨3, ![1, 512, 1]⟩
abbrev S512x2048 : Shape := ⟨2, ![512, 2048]⟩
abbrev S2048x128 : Shape := ⟨2, ![2048, 128]⟩
abbrev S512x128 : Shape := ⟨2, ![512, 128]⟩
abbrev S128x2048 : Shape := ⟨2, ![128, 2048]⟩
abbrev S512x1 : Shape := ⟨2, ![512, 1]⟩
abbrev S4096x4x2048 : Shape := ⟨3, ![4096, 4, 2048]⟩
abbrev S64x2048 : Shape := ⟨2, ![64, 2048]⟩
abbrev S64x2816 : Shape := ⟨2, ![64, 2816]⟩

abbrev nBuf : Space → Nat
  | .hbm => 77
  | .vmem => 22
  | .smem => 0
  | _ => 0

abbrev bufTy : (tb : Table) → Fin (tcTables nBuf tb) → BufTy
  | .hbm, ⟨0, _⟩ => ⟨S2x2048x2048, .f32⟩
  | .hbm, ⟨1, _⟩ => ⟨S4096x4, .i32⟩
  | .hbm, ⟨2, _⟩ => ⟨S4096x4, .f32⟩
  | .hbm, ⟨3, _⟩ => ⟨S32x2048x1408, .f32⟩
  | .hbm, ⟨4, _⟩ => ⟨S32x2048x1408, .f32⟩
  | .hbm, ⟨5, _⟩ => ⟨S32x1408x2048, .f32⟩
  | .hbm, ⟨6, _⟩ => ⟨S2048x2816, .f32⟩
  | .hbm, ⟨7, _⟩ => ⟨S2048x2816, .f32⟩
  | .hbm, ⟨8, _⟩ => ⟨S2816x2048, .f32⟩
  | .hbm, ⟨9, _⟩ => ⟨S4096x2048, .f32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S16384x2048, .f32⟩
  | .hbm, ⟨41, _⟩ => ⟨S32x512x2048, .f32⟩
  | .hbm, ⟨42, _⟩ => ⟨S32x512x2048, .bf16⟩
  | .hbm, ⟨43, _⟩ => ⟨S16384, .f32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S16384, .f32⟩
  | .hbm, ⟨53, _⟩ => ⟨S32x512x1, .f32⟩
  | .hbm, ⟨54, _⟩ => ⟨S32x512x2048, .f32⟩
  | .hbm, ⟨55, _⟩ => ⟨S16384x2048, .f32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S_, .i32⟩
  | .hbm, ⟨60, _⟩ => ⟨S16384, .i32⟩
  | .hbm, ⟨61, _⟩ => ⟨S16384, .i1⟩
  | .hbm, ⟨62, _⟩ => ⟨S_, .i32⟩
  | .hbm, ⟨63, _⟩ => ⟨S16384, .i32⟩
  | .hbm, ⟨64, _⟩ => ⟨S16384, .i32⟩
  | .hbm, ⟨65, _⟩ => ⟨S16384, .i32⟩
  | .hbm, ⟨66, _⟩ => ⟨S16384x1, .i32⟩
  | .hbm, ⟨67, _⟩ => ⟨S16384x2048, .f32⟩
  | .hbm, ⟨68, _⟩ => ⟨S4096x4x2048, .f32⟩
  | .hbm, ⟨69, _⟩ => ⟨S_, .f32⟩
  | .hbm, ⟨70, _⟩ => ⟨S4096x2048, .f32⟩
  | .hbm, ⟨71, _⟩ => ⟨S4096x2048, .bf16⟩
  | .hbm, ⟨72, _⟩ => ⟨S2048x2816, .bf16⟩
  | .hbm, ⟨73, _⟩ => ⟨S2048x2816, .bf16⟩
  | .hbm, ⟨74, _⟩ => ⟨S2816x2048, .bf16⟩
  | .hbm, ⟨75, _⟩ => ⟨S4096x2048, .f32⟩
  | .hbm, ⟨76, _⟩ => ⟨S2x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x128x2048, .f32⟩
  | .local _ .vmem, ⟨7, _⟩ => ⟨S1x128x2048, .f32⟩
  | .local _ .vmem, ⟨8, _⟩ => ⟨S1x512x1, .f32⟩
  | .local _ .vmem, ⟨9, _⟩ => ⟨S1x512x1, .f32⟩
  | .local _ .vmem, ⟨10, _⟩ => ⟨S1x512x2048, .f32⟩
  | .local _ .vmem, ⟨11, _⟩ => ⟨S1x512x2048, .f32⟩
  | .local _ .vmem, ⟨12, _⟩ => ⟨S512x2048, .f32⟩
  | .local _ .vmem, ⟨13, _⟩ => ⟨S64x2048, .bf16⟩
  | .local _ .vmem, ⟨14, _⟩ => ⟨S64x2048, .bf16⟩
  | .local _ .vmem, ⟨15, _⟩ => ⟨S2048x2816, .bf16⟩
  | .local _ .vmem, ⟨16, _⟩ => ⟨S2048x2816, .bf16⟩
  | .local _ .vmem, ⟨17, _⟩ => ⟨S2816x2048, .bf16⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1_0 : Ref sig .tc := ⟨.hbm, 12, rfl⟩
abbrev main_v2 : Ref sig .tc := ⟨.hbm, 13, rfl⟩
abbrev main_c : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_c : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_0 : Ref sig .tc := ⟨.hbm, 28, rfl⟩
abbrev main_call1_v12 : Ref sig .tc := ⟨.hbm, 29, rfl⟩
abbrev main_call1_v13 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_c_1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_2 : Ref sig .tc := ⟨.hbm, 44, rfl⟩
abbrev main_v14 : Ref sig .tc := ⟨.hbm, 45, rfl⟩
abbrev main_v15 : Ref sig .tc := ⟨.hbm, 46, rfl⟩
abbrev main_c_3 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_call2_v0 : Ref sig .tc := ⟨.hbm, 56, rfl⟩
abbrev main_call2_v1_0 : Ref sig .tc := ⟨.hbm, 57, rfl⟩
abbrev main_v24 : Ref sig .tc := ⟨.hbm, 58, rfl⟩
abbrev main_c_4 : Ref sig .tc := ⟨.hbm, 59, rfl⟩
abbrev main_v25 : Ref sig .tc := ⟨.hbm, 60, rfl⟩
abbrev main_v26 : Ref sig .tc := ⟨.hbm, 61, rfl⟩
abbrev main_c_5 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_18 : BitVec 32 := 0#32
  let v28 : BitVec 1 := Scalar.cmpi .ne v27 c0_i32_18
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2816 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2816x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S2x2048x2048_S4096x2048 : S2x2048x2048.ShapeCasts S4096x2048
  shapeCasts_S4096x4_S16384 : S4096x4.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x2048_S32x512x2048 : S16384x2048.ShapeCasts S32x512x2048
  bitsLt_bf16_f32 : FTy.bits .bf16 < FTy.bits .f32
  shapeCasts_S16384_S32x512x1 : S16384.ShapeCasts S32x512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x2048 : S512x1.Broadcasts S512x2048
  shapeCasts_S512x2048_S1x512x2048 : S512x2048.ShapeCasts S1x512x2048
  shapeCasts_S32x512x2048_S16384x2048 : S32x512x2048.ShapeCasts S16384x2048
  shapeCasts_S16384x2048_S4096x4x2048 : S16384x2048.ShapeCasts S4096x4x2048
  reducesTo_S4096x4x2048_S4096x2048_d1 : S4096x4x2048.ReducesTo [1] S4096x2048
  h_S_ : 0 < S_.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x2816_S2048x2816_0_0 : ∀ a, (![0, 0] : Fin 2 → Nat) a + S2048x2816.size a ≤ S2048x2816.size a
  h_S2048x2816 : 0 < S2048x2816.numel
  shapeCasts_S2048x2816_S2048x2816 : S2048x2816.ShapeCasts S2048x2816
  inb_S2816x2048_S2816x2048_0_0 : ∀ a, (![0, 0] : Fin 2 → Nat) a + S2816x2048.size a ≤ S2816x2048.size a
  h_S2816x2048 : 0 < S2816x2048.numel
  shapeCasts_S2816x2048_S2816x2048 : S2816x2048.ShapeCasts S2816x2048
  shapeCasts_S4096x2048_S2x2048x2048 : S4096x2048.ShapeCasts S2x2048x2048
  gather_S4096x2048_S16384x1_S16384x2048_1_0_n_n_0_1_12048_wf : GatherDims.WF S4096x2048 S16384x1 S16384x2048 [1] [0] [] [0] [] 1 ![1, 2048]
  gather_S16384_S16384x1_S16384_n_0_n_n_0_1_1_wf : GatherDims.WF S16384 S16384x1 S16384 [] [0] [] [0] [] 1 ![1]
  dot_S512x2048_S2048x128_S512x128_1_0_0_1_n_n_wf : DotDims.WF S512x2048 S2048x128 S512x128 [1] [0] [0] [1] [] []
  dot_S512x128_S128x2048_S512x2048_1_0_0_1_n_n_wf : DotDims.WF S512x128 S128x2048 S512x2048 [1] [0] [0] [1] [] []
  gather_S16384x2048_S16384x1_S16384x2048_1_0_n_n_0_1_12048_wf : GatherDims.WF S16384x2048 S16384x1 S16384x2048 [1] [0] [] [0] [] 1 ![1, 2048]
  dot_S64x2048_S2048x2816_S64x2816_1_0_0_1_n_n_wf : DotDims.WF S64x2048 S2048x2816 S64x2816 [1] [0] [0] [1] [] []
  dot_S64x2816_S2816x2048_S64x2048_1_0_0_1_n_n_wf : DotDims.WF S64x2816 S2816x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x512x2048.size a
  hwx0_0 : ∀ i : grid0.Coords, EltTy.bits .bf16 = 32 ∨ (Rect.block (s := S32x512x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x1408.size a
  hwx0_1 : ∀ i : grid0.Coords, EltTy.bits .f32 = 32 ∨ (Rect.block (s := S32x2048x1408) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x1408.size a
  hwx0_2 : ∀ i : grid0.Coords, EltTy.bits .f32 = 32 ∨ (Rect.block (s := S32x2048x1408) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S32x1408x2048.size a
  hwx0_3 : ∀ i : grid0.Coords, EltTy.bits .f32 = 32 ∨ (Rect.block (s := S32x1408x2048) S1x128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S32x512x1.size a
  hwx0_4 : ∀ i : grid0.Coords, EltTy.bits .f32 = 32 ∨ (Rect.block (s := S32x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x512x2048.size a
  hwx0_5 : ∀ i : grid0.Coords, EltTy.bits .f32 = 32 ∨ (Rect.block (s := S32x512x2048) S1x512x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S4096x2048.size a
  hwx1_0 : ∀ i : grid1.Coords, EltTy.bits .bf16 = 32 ∨ (Rect.block (s := S4096x2048) S64x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2816.size a ≤ S2048x2816.size a
  hwx1_1 : ∀ i : grid1.Coords, EltTy.bits .bf16 = 32 ∨ (Rect.block (s := S2048x2816) S2048x2816.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2816.size a ≤ S2048x2816.size a
  hwx1_2 : ∀ i : grid1.Coords, EltTy.bits .bf16 = 32 ∨ (Rect.block (s := S2048x2816) S2048x2816.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2816x2048.size a ≤ S2816x2048.size a
  hwx1_3 : ∀ i : grid1.Coords, EltTy.bits .bf16 = 32 ∨ (Rect.block (s := S2816x2048) S2816x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x2048.size a ≤ S4096x2048.size a
  hwx1_4 : ∀ i : grid1.Coords, EltTy.bits .f32 = 32 ∨ (Rect.block (s := S4096x2048) S64x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x2048.size a ≤ S4096x2048.size a
  hwx1_5 : ∀ i : grid1.Coords, EltTy.bits .f32 = 32 ∨ (Rect.block (s := S4096x2048) S64x2048.size (cc1_transform_5 i) (hinb1_5 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S4096x2048_S16384x1_S16384x2048_1_0_n_n_0_1_12048 : GatherDims S4096x2048 S16384x1 S16384x2048 where
  offsetDims := [1]
  collapsedSliceDims := [0]
  operandBatchingDims := []
  startIndicesBatchingDims := []
  startIndexMap := [0]
  indexVectorDim := 1
  sliceSizes := ![1, 2048]
  wf := gather_S4096x2048_S16384x1_S16384x2048_1_0_n_n_0_1_12048_wf
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf
def dot_S64x2048_S2048x2816_S64x2816_1_0_0_1_n_n : DotDims S64x2048 S2048x2816 S64x2816 where
  lhsContracting := [1]
  rhsContracting := [0]
  lhsNonContracting := [0]
  rhsNonContracting := [1]
  lhsBatch := []
  rhsBatch := []
  wf := dot_S64x2048_S2048x2816_S64x2816_1_0_0_1_n_n_wf
def dot_S64x2816_S2816x2048_S64x2048_1_0_0_1_n_n : DotDims S64x2816 S2816x2048 S64x2048 where
  lhsContracting := [1]
  rhsContracting := [0]
  lhsNonContracting := [0]
  rhsNonContracting := [1]
  lhsBatch := []
  rhsBatch := []
  wf := dot_S64x2816_S2816x2048_S64x2048_1_0_0_1_n_n_wf

abbrev win0_0 : Pipeline.Window sig grid0 :=
  Pipeline.Window.ofSpec (Memref.whole main_v12) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v34) S64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2048x2816.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S2048x2816.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S2816x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S64x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v38) S64x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x2048x2048 : Shape := ⟨3, ![2, 2048, 2048]⟩
abbrev S4096x4 : Shape := ⟨2, ![4096, 4]⟩
abbrev S32x2048x1408 : Shape := ⟨3, ![32, 2048, 1408]⟩
abbrev S32x1408x2048 : Shape := ⟨3, ![32, 1408, 2048]⟩
abbrev S2048x2816 : Shape := ⟨2, ![2048, 2816]⟩
abbrev S2816x2048 : Shape := ⟨2, ![2816, 2048]⟩
abbrev S4096x2048 : Shape := ⟨2, ![4096, 2048]⟩
abbrev S16384 : Shape := ⟨1, ![16384]⟩
abbrev S4096x4x2048 : Shape := ⟨3, ![4096, 4, 2048]⟩
abbrev S16384x2048 : Shape := ⟨2, ![16384, 2048]⟩
abbrev S_ : Shape := ⟨0, ![]⟩
abbrev S16384x1 : Shape := ⟨2, ![16384, 1]⟩
abbrev S32x512x2048 : Shape := ⟨3, ![32, 512, 2048]⟩
abbrev S32x512x1408 : Shape := ⟨3, ![32, 512, 1408]⟩
abbrev S4096x4x1 : Shape := ⟨3, ![4096, 4, 1]⟩
abbrev S4096x2816 : Shape := ⟨2, ![4096, 2816]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S4096x4, .i32⟩
  | .hbm, ⟨2, _⟩ => ⟨S4096x4, .f32⟩
  | .hbm, ⟨3, _⟩ => ⟨S32x2048x1408, .f32⟩
  | .hbm, ⟨4, _⟩ => ⟨S32x2048x1408, .f32⟩
  | .hbm, ⟨5, _⟩ => ⟨S32x1408x2048, .f32⟩
  | .hbm, ⟨6, _⟩ => ⟨S2048x2816, .f32⟩
  | .hbm, ⟨7, _⟩ => ⟨S2048x2816, .f32⟩
  | .hbm, ⟨8, _⟩ => ⟨S2816x2048, .f32⟩
  | .hbm, ⟨9, _⟩ => ⟨S4096x2048, .f32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S4096x4x2048, .f32⟩
  | .hbm, ⟨15, _⟩ => ⟨S16384x2048, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S16384x2048, .f32⟩
  | .hbm, ⟨25, _⟩ => ⟨S32x512x2048, .f32⟩
  | .hbm, ⟨26, _⟩ => ⟨S32x512x1408, .f32⟩
  | .hbm, ⟨27, _⟩ => ⟨S32x512x1408, .f32⟩
  | .hbm, ⟨28, _⟩ => ⟨S32x512x1408, .f32⟩
  | .hbm, ⟨29, _⟩ => ⟨S32x512x1408, .f32⟩
  | .hbm, ⟨30, _⟩ => ⟨S_, .f32⟩
  | .hbm, ⟨31, _⟩ => ⟨S32x512x1408, .f32⟩
  | .hbm, ⟨32, _⟩ => ⟨S32x512x1408, .f32⟩
  | .hbm, ⟨33, _⟩ => ⟨S_, .f32⟩
  | .hbm, ⟨34, _⟩ => ⟨S32x512x1408, .f32⟩
  | .hbm, ⟨35, _⟩ => ⟨S32x512x1408, .f32⟩
  | .hbm, ⟨36, _⟩ => ⟨S32x512x1408, .f32⟩
  | .hbm, ⟨37, _⟩ => ⟨S32x512x1408, .f32⟩
  | .hbm, ⟨38, _⟩ => ⟨S32x512x2048, .f32⟩
  | .hbm, ⟨39, _⟩ => ⟨S16384x2048, .f32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x2048, .f32⟩
  | .hbm, ⟨52, _⟩ => ⟨S4096x4x2048, .f32⟩
  | .hbm, ⟨53, _⟩ => ⟨S4096x4x1, .f32⟩
  | .hbm, ⟨54, _⟩ => ⟨S4096x4x2048, .f32⟩
  | .hbm, ⟨55, _⟩ => ⟨S4096x4x2048, .f32⟩
  | .hbm, ⟨56, _⟩ => ⟨S_, .f32⟩
  | .hbm, ⟨57, _⟩ => ⟨S4096x2048, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S_, .f32⟩
  | .hbm, ⟨62, _⟩ => ⟨S4096x2816, .f32⟩
  | .hbm, ⟨63, _⟩ => ⟨S4096x2816, .f32⟩
  | .hbm, ⟨64, _⟩ => ⟨S_, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S4096x2048, .f32⟩
  | .hbm, ⟨71, _⟩ => ⟨S4096x2048, .f32⟩
  | .hbm, ⟨72, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_v0 : Ref sig .tc := ⟨.hbm, 40, rfl⟩
abbrev main_call2_v1_0 : Ref sig .tc := ⟨.hbm, 41, rfl⟩
abbrev main_v19 : Ref sig .tc := ⟨.hbm, 42, rfl⟩
abbrev main_c_1 : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_v32 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩

abbrev nD : Nat := 1
abbrev τ : Topo := Topo.v7x

variable {F : FTy → Type} [FloatOps F]

class Facts₀ : Prop where
  shapeCasts_S2x2048x2048_S4096x2048 : S2x2048x2048.ShapeCasts S4096x2048
  shapeCasts_S4096x4_S16384 : S4096x4.ShapeCasts S16384
  bcast_S4096x2048_S4096x4x2048_0_2 : S4096x2048.BroadcastsInDim S4096x4x2048 (![0, 2] : Fin 2 → Fin S4096x4x2048.rank)
  shapeCasts_S4096x4x2048_S16384x2048 : S4096x4x2048.ShapeCasts S16384x2048
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x2048_S32x512x2048 : S16384x2048.ShapeCasts S32x512x2048
  bcast_S_S32x512x1408 : S_.BroadcastsInDim S32x512x1408 (![] : Fin 0 → Fin S32x512x1408.rank)
  shapeCasts_S32x512x2048_S16384x2048 : S32x512x2048.ShapeCasts S16384x2048
  shapeCasts_S16384x2048_S4096x4x2048 : S16384x2048.ShapeCasts S4096x4x2048
  bcast_S4096x4_S4096x4x1_0_1 : S4096x4.BroadcastsInDim S4096x4x1 (![0, 1] : Fin 2 → Fin S4096x4x1.rank)
  bcast_S4096x4x1_S4096x4x2048_0_1_2 : S4096x4x1.BroadcastsInDim S4096x4x2048 (![0, 1, 2] : Fin 3 → Fin S4096x4x2048.rank)
  reducesTo_S4096x4x2048_S4096x2048_d1 : S4096x4x2048.ReducesTo [1] S4096x2048
  h_S_ : 0 < S_.numel
  bcast_S_S4096x2816 : S_.BroadcastsInDim S4096x2816 (![] : Fin 0 → Fin S4096x2816.rank)
  shapeCasts_S4096x2048_S2x2048x2048 : S4096x2048.ShapeCasts S2x2048x2048
  gather_S16384x2048_S16384x1_S16384x2048_1_0_n_n_0_1_12048_wf : GatherDims.WF S16384x2048 S16384x1 S16384x2048 [1] [0] [] [0] [] 1 ![1, 2048]
  dot_S32x512x2048_S32x2048x1408_S32x512x1408_2_1_1_2_0_0_wf : DotDims.WF S32x512x2048 S32x2048x1408 S32x512x1408 [2] [1] [1] [2] [0] [0]
  dot_S32x512x1408_S32x1408x2048_S32x512x2048_2_1_1_2_0_0_wf : DotDims.WF S32x512x1408 S32x1408x2048 S32x512x2048 [2] [1] [1] [2] [0] [0]
  dot_S4096x2048_S2048x2816_S4096x2816_1_0_0_1_n_n_wf : DotDims.WF S4096x2048 S2048x2816 S4096x2816 [1] [0] [0] [1] [] []
  dot_S4096x2816_S2816x2048_S4096x2048_1_0_0_1_n_n_wf : DotDims.WF S4096x2816 S2816x2048 S4096x2048 [1] [0] [0] [1] [] []

variable [Facts₀]

def comparator_i32_i32_d0 : BitVec 32 × BitVec 32 → BitVec 32 × BitVec 32 → BitVec 1 :=
  fun l r =>
    let v2 := IntOp.cmpi .slt l.1 r.1
    v2
def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf
def dot_S32x512x2048_S32x2048x1408_S32x512x1408_2_1_1_2_0_0 : DotDims S32x512x2048 S32x2048x1408 S32x512x1408 where
  lhsContracting := [2]
  rhsContracting := [1]
  lhsNonContracting := [1]
  rhsNonContracting := [2]
  lhsBatch := [0]
  rhsBatch := [0]
  wf := dot_S32x512x2048_S32x2048x1408_S32x512x1408_2_1_1_2_0_0_wf
def dot_S32x512x1408_S32x1408x2048_S32x512x2048_2_1_1_2_0_0 : DotDims S32x512x1408 S32x1408x2048 S32x512x2048 where
  lhsContracting := [2]
  rhsContracting := [1]
  lhsNonContracting := [1]
  rhsNonContracting := [2]
  lhsBatch := [0]
  rhsBatch := [0]
  wf := dot_S32x512x1408_S32x1408x2048_S32x512x2048_2_1_1_2_0_0_wf
def dot_S4096x2048_S2048x2816_S4096x2816_1_0_0_1_n_n : DotDims S4096x2048 S2048x2816 S4096x2816 where
  lhsContracting := [1]
  rhsContracting := [0]
  lhsNonContracting := [0]
  rhsNonContracting := [1]
  lhsBatch := []
  rhsBatch := []
  wf := dot_S4096x2048_S2048x2816_S4096x2816_1_0_0_1_n_n_wf
def dot_S4096x2816_S2816x2048_S4096x2048_1_0_0_1_n_n : DotDims S4096x2816 S2816x2048 S4096x2048 where
  lhsContracting := [1]
  rhsContracting := [0]
  lhsNonContracting := [0]
  rhsNonContracting := [1]
  lhsBatch := []
  rhsBatch := []
  wf := dot_S4096x2816_S2816x2048_S4096x2048_1_0_0_1_n_n_wf

class Facts : Prop extends Facts₀ where

variable [Facts]
-- ==== Proof.K.Region0.lean ====
/-
  The routed-experts call (the first kernel region), at the contents `V` its core's buffers hold when it is entered.
  The grid is 32 experts × 11 tiles of the experts' inner width (128 columns of 1408 each), walked expert by expert:
  point `n` is expert `n / 11`, tile `n % 11`. A scratch accumulator of 512 × 2048 is carried from point to point:
  at tile 0 it is reset to zero, at every tile the product `(silu (x · G) ⊙ (x · U)) · D` of that tile's 128 columns is added
  to it, and at tile 10 it is scaled row by row by the expert's combine weights and stored to the expert's output block,
  which is written back there and only there.
-/
import proofs.«402449_j23871428231438_3_alg».proof.Proof.Gen.Kernel.Launch
import proofs.«402449_j23871428231438_3_alg».proof.Proof.Gen.Kernel.Skeleton
import proofs.«402449_j23871428231438_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator, whole. -/
abbrev scM0 : Memref sig .tc .vmem S512x2048 .f32 := Memref.whole cc0_scratch0

/-- THE ACCUMULATOR after point `n`: at a tile 0 the point's product over zero, elsewhere over what the point before left. -/
def accAt (c : Dev nD) : (n : ℕ) → n < cfg0.N → Vec F S512x2048 .f32
  | 0, hn => k0_pay2 (iblk0 V c 0 ⟨0, hn⟩) (iblk0 V c 1 ⟨0, hn⟩) (iblk0 V c 2 ⟨0, hn⟩) (iblk0 V c 3 ⟨0, hn⟩) k0_pay1
  | n + 1, hn =>
    if (n + 1) % 11 = 0 then
      k0_pay2 (iblk0 V c 0 ⟨n + 1, hn⟩) (iblk0 V c 1 ⟨n + 1, hn⟩) (iblk0 V c 2 ⟨n + 1, hn⟩) (iblk0 V c 3 ⟨n + 1, hn⟩) k0_pay1
    else
      k0_pay2 (iblk0 V c 0 ⟨n + 1, hn⟩) (iblk0 V c 1 ⟨n + 1, hn⟩) (iblk0 V c 2 ⟨n + 1, hn⟩) (iblk0 V c 3 ⟨n + 1, hn⟩) (accAt c n (Nat.lt_of_succ_lt hn))

/-- At a tile 0 the accumulator restarts from zero. -/
theorem accAt_reset (c : Dev nD) (t : Fin cfg0.N) (h : t.val % 11 = 0) :
    accAt V c t.val t.isLt = k0_pay2 (iblk0 V c 0 t) (iblk0 V c 1 t) (iblk0 V c 2 t) (iblk0 V c 3 t) k0_pay1 := by
  obtain ⟨n, hn⟩ := t
  cases n with
  | zero => rfl
  | succ n => exact (if_pos h).trans rfl

/-- At any other tile it adds to what the point before left. -/
theorem accAt_step (c : Dev nD) (t : Fin cfg0.N) (h : t.val % 11 ≠ 0) :
    accAt V c t.val t.isLt = k0_pay2 (iblk0 V c 0 t) (iblk0 V c 1 t) (iblk0 V c 2 t) (iblk0 V c 3 t)
      (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The region's invariant before position `n`: before the first point the launch's (every scratch at anything); afterwards the
    accumulator at what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scM0 fullShare (accAt V c n hn)
      ∗ Pipeline.scopedRestBut (Ix := Unit) (Name := ℕ) (U := UR sig nD τ) (Lvl := ℕ) (Val := Elt F) spec0 c [cc0_scratch0]
      ∗ (∃ r, prngReg c r))

/-- The proof data of the routed-experts pipeline on core `c`. The output window's entry is what a tile-10 point stores;
    at the other points the window is idle and the entry is not consulted. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (iblk0 V c 4 t) (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = k0_pay3 (iblk0 V c 4 t) (accAt V c t.val t.isLt) := by
  dsimp only [dat0]

/-! ## The body's three control cases, on any whole staging memrefs -/

/-- The condition of the body's first `scf.if` (is this tile 0?), from the grid coordinates. -/
abbrev cond0_0 (i : grid0.Coords) : Prop := (Scalar.cmpi .ne (Scalar.extui (Scalar.cmpi .eq (BitVec.ofNat 32 (i 1).val) 0#32)) 0#32) = 1#1

/-- The zero offsets of the body's whole-buffer loads and stores, however spelt. -/
theorem zeroOff0_2 : (![0, 0] : Fin 2 → Nat) = fun _ => 0 := funext fun a => by fin_cases a <;> rfl
theorem zeroOff0_3 : (![0, 0, 0] : Fin 3 → Nat) = fun _ => 0 := funext fun a => by fin_cases a <;> rfl

/-- A whole-shape store at zero offsets, LAST, is what the buffer then reads, whatever was stored before. -/
theorem read_writes_whole_last0 {S : Shape} {e : EltTy} {sg : RefSig} {κ : Kind} {sp : Space} (v : View sg κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

/-- A whole-shape load at zero offsets of a whole buffer that reads `X` is `X`. -/
theorem readAt_unread_whole0 {S : Shape} {e : EltTy} (M : Memref sig .tc .vmem S e) (h : M.IsWhole) {off : Fin S.rank → Nat} (hz : off = fun _ => 0)
    (inb : ∀ a, off a + S.size a ≤ S.size a) (X : S.Idx → Elt F e) :
    M.view.readAt (Elt F) (Rect.unit off S.size inb).toLoadRect (h.unread X) = X := by
  rw [View.readAt_eq_ld, h.read_unread]; exact View.ld_unit_zero hz inb X

/-- A middle tile: the accumulator gains the tile's product; the output buffer is handed back as found. -/
theorem run0_B (c : Dev nD) (i : grid0.Coords)
    (arg2 : Memref sig .tc .vmem S1x512x2048 .bf16) (harg2 : arg2.IsWhole)
    (arg3 : Memref sig .tc .vmem S1x2048x128 .f32) (harg3 : arg3.IsWhole)
    (arg4 : Memref sig .tc .vmem S1x2048x128 .f32) (harg4 : arg4.IsWhole)
    (arg5 : Memref sig .tc .vmem S1x128x2048 .f32) (harg5 : arg5.IsWhole)
    (arg6 : Memref sig .tc .vmem S1x512x1 .f32) (harg6 : arg6.IsWhole)
    (arg7 : Memref sig .tc .vmem S1x512x2048 .f32) (harg7 : arg7.IsWhole)
    (arg8 : Memref sig .tc .vmem S512x2048 .f32) (harg8 : arg8.IsWhole)
    (hc0 : ¬cond0_0 i) (hc1 : ¬k0_cond2 i = 1#1)
    (x0 : Vec F S1x512x2048 .bf16) (x1 : Vec F S1x2048x128 .f32) (x2 : Vec F S1x2048x128 .f32) (x3 : Vec F S1x128x2048 .f32)
    (x4 : Vec F S1x512x1 .f32) (y : Vec F S1x512x2048 .f32) (s : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
            ∗ owns (c : Thread nD τ) arg8 fullShare (k0_pay2 x0 x1 x2 x3 s)) -∗ K ⟨⟩))
      ⊢ wp frame (wpE (defs₀ (F := F)) Variants.none c none) E (cc0__expert_ffn_kernel i arg2 harg2 arg3 harg3 arg4 harg4 arg5 harg5 arg6 harg6 arg7 harg7 arg8 harg8) K := by
  simp only [cc0__expert_ffn_kernel_eq_skeleton]; unfold cc0__expert_ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole_last0 _ _ zeroOff0_2 _ _ _).trans ?_
  rw [readAt_unread_whole0 arg2 harg2 zeroOff0_3, readAt_unread_whole0 arg3 harg3 zeroOff0_3, readAt_unread_whole0 arg4 harg4 zeroOff0_3, readAt_unread_whole0 arg5 harg5 zeroOff0_3, readAt_unread_whole0 arg8 harg8 zeroOff0_2]

/-- Tile 0: the accumulator is reset to zero and gains the tile's product, whatever it held; the output buffer is handed back as found. -/
theorem run0_A (c : Dev nD) (i : grid0.Coords)
    (arg2 : Memref sig .tc .vmem S1x512x2048 .bf16) (harg2 : arg2.IsWhole)
    (arg3 : Memref sig .tc .vmem S1x2048x128 .f32) (harg3 : arg3.IsWhole)
    (arg4 : Memref sig .tc .vmem S1x2048x128 .f32) (harg4 : arg4.IsWhole)
    (arg5 : Memref sig .tc .vmem S1x128x2048 .f32) (harg5 : arg5.IsWhole)
    (arg6 : Memref sig .tc .vmem S1x512x1 .f32) (harg6 : arg6.IsWhole)
    (arg7 : Memref sig .tc .vmem S1x512x2048 .f32) (harg7 : arg7.IsWhole)
    (arg8 : Memref sig .tc .vmem S512x2048 .f32) (harg8 : arg8.IsWhole)
    (hc0 : cond0_0 i) (hc1 : ¬k0_cond2 i = 1#1)
    (x0 : Vec F S1x512x2048 .bf16) (x1 : Vec F S1x2048x128 .f32) (x2 : Vec F S1x2048x128 .f32) (x3 : Vec F S1x128x2048 .f32)
    (x4 : Vec F S1x512x1 .f32) (y : Vec F S1x512x2048 .f32) (s : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
            ∗ owns (c : Thread nD τ) arg8 fullShare (k0_pay2 x0 x1 x2 x3 k0_pay1)) -∗ K ⟨⟩))
      ⊢ wp frame (wpE (defs₀ (F := F)) Variants.none c none) E (cc0__expert_ffn_kernel i arg2 harg2 arg3 harg3 arg4 harg4 arg5 harg5 arg6 harg6 arg7 harg7 arg8 harg8) K := by
  simp only [cc0__expert_ffn_kernel_eq_skeleton]; unfold cc0__expert_ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole_last0 _ _ zeroOff0_2 _ _ _).trans ?_
  rw [readAt_unread_whole0 arg2 harg2 zeroOff0_3, readAt_unread_whole0 arg3 harg3 zeroOff0_3, readAt_unread_whole0 arg4 harg4 zeroOff0_3, readAt_unread_whole0 arg5 harg5 zeroOff0_3]
  sl_unfold_run_names
  rw [View.readCov_unit_zero _ zeroOff0_2]

/-- Tile 10: the accumulator gains the tile's product, and the output buffer is stored the accumulator scaled by the combine weights. -/
theorem run0_C (c : Dev nD) (i : grid0.Coords)
    (arg2 : Memref sig .tc .vmem S1x512x2048 .bf16) (harg2 : arg2.IsWhole)
    (arg3 : Memref sig .tc .vmem S1x2048x128 .f32) (harg3 : arg3.IsWhole)
    (arg4 : Memref sig .tc .vmem S1x2048x128 .f32) (harg4 : arg4.IsWhole)
    (arg5 : Memref sig .tc .vmem S1x128x2048 .f32) (harg5 : arg5.IsWhole)
    (arg6 : Memref sig .tc .vmem S1x512x1 .f32) (harg6 : arg6.IsWhole)
    (arg7 : Memref sig .tc .vmem S1x512x2048 .f32) (harg7 : arg7.IsWhole)
    (arg8 : Memref sig .tc .vmem S512x2048 .f32) (harg8 : arg8.IsWhole)
    (hc0 : ¬cond0_0 i) (hc1 : k0_cond2 i = 1#1)
    (x0 : Vec F S1x512x2048 .bf16) (x1 : Vec F S1x2048x128 .f32) (x2 : Vec F S1x2048x128 .f32) (x3 : Vec F S1x128x2048 .f32)
    (x4 : Vec F S1x512x1 .f32) (y : Vec F S1x512x2048 .f32) (s : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k0_pay3 x4 (k0_pay2 x0 x1 x2 x3 s))
            ∗ owns (c : Thread nD τ) arg8 fullShare (k0_pay2 x0 x1 x2 x3 s)) -∗ K ⟨⟩))
      ⊢ wp frame (wpE (defs₀ (F := F)) Variants.none c none) E (cc0__expert_ffn_kernel i arg2 harg2 arg3 harg3 arg4 harg4 arg5 harg5 arg6 harg6 arg7 harg7 arg8 harg8) K := by
  simp only [cc0__expert_ffn_kernel_eq_skeleton]; unfold cc0__expert_ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole_last0 _ _ zeroOff0_3 _ _ _).trans ?_
    rw [readAt_unread_whole0 arg6 harg6 zeroOff0_3]
    sl_unfold_run_names
    rw [View.readCov_unit_zero _ zeroOff0_2]
    rw [readAt_unread_whole0 arg2 harg2 zeroOff0_3, readAt_unread_whole0 arg3 harg3 zeroOff0_3, readAt_unread_whole0 arg4 harg4 zeroOff0_3, readAt_unread_whole0 arg5 harg5 zeroOff0_3, readAt_unread_whole0 arg8 harg8 zeroOff0_2]
  iexists _; isplitr
  swap; · iexact HS
  ipureintro
  sl_unfold_run_names
  refine (read_writes_whole_last0 _ _ zeroOff0_2 _ _ _).trans ?_
  rw [readAt_unread_whole0 arg2 harg2 zeroOff0_3, readAt_unread_whole0 arg3 harg3 zeroOff0_3, readAt_unread_whole0 arg4 harg4 zeroOff0_3, readAt_unread_whole0 arg5 harg5 zeroOff0_3, readAt_unread_whole0 arg8 harg8 zeroOff0_2]

/-! ## Where the two conditions hold, over the grid -/

/-- The first condition holds at the points ≡ 0 (mod 11). -/
theorem hcond0_0 : ∀ t : Fin cfg0.N, cond0_0 (grid0.coords t) ↔ t.val % 11 = 0 :=
  (by decide +kernel : ∀ t : Fin grid0.N, cond0_0 (grid0.coords t) ↔ t.val % 11 = 0)
/-- The second condition holds at the points ≡ 10 (mod 11). -/
theorem hcond0_1 : ∀ t : Fin cfg0.N, k0_cond2 (grid0.coords t) = 1#1 ↔ t.val % 11 = 10 :=
  (by decide +kernel : ∀ t : Fin grid0.N, k0_cond2 (grid0.coords t) = 1#1 ↔ t.val % 11 = 10)
/-- Away from tile 10 the output window is idle and is not written back. -/
theorem idleAt0_5 : ∀ t : Fin cfg0.N, ¬k0_cond2 (grid0.coords t) = 1#1 → cfg0.idle 5 (grid0.coords t) = true := by decide +kernel
theorem noFlush0_5 : ∀ t : Fin cfg0.N, ¬k0_cond2 (grid0.coords t) = 1#1 → (cfg0.win 5).flush t = false := by decide +kernel
/-- At tile 10 it is live. -/
theorem liveAt0_5 : ∀ t : Fin cfg0.N, k0_cond2 (grid0.coords t) = 1#1 → cfg0.idle 5 (grid0.coords t) = false := by decide +kernel

/-! ## The invariant, by position -/

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0 fullShare (accAt V c n hn)
      ∗ Pipeline.scopedRestBut (Ix := Unit) (Name := ℕ) (U := UR sig nD τ) (Lvl := ℕ) (Val := Elt F) spec0 c [cc0_scratch0]
      ∗ (∃ r, prngReg c r)) := rfl

theorem PhiS_pos (c : Dev nD) (n : ℕ) (h : n ≤ cfg0.N) (hz : n ≠ 0) :
    PhiS V c n h = iprop(owns (c : Thread nD τ) scM0 fullShare (accAt V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- The launch's invariant with the accumulator split off the other scoped buffers. -/
theorem PhiA0_eq (c : Dev nD) :
    (Pipeline.ΦA spec0 c : sProp 𝕄)
      = iprop((∃ d, owns (c : Thread nD τ) scM0 fullShare d)
        ∗ Pipeline.scopedRestBut (Ix := Unit) (Name := ℕ) (U := UR sig nD τ) (Lvl := ℕ) (Val := Elt F) spec0 c [cc0_scratch0]
        ∗ (∃ r, prngReg c r)) := by
  unfold Pipeline.ΦA
  rw [Pipeline.scopedRest_split_of_list spec0 c [cc0_scratch0] (by decide) (by decide), bigSepL_singleton]
  simp only [scM0, owns_whole]
  have h₁ : ∀ (A B C : sProp 𝕄), iprop((A ∗ B) ∗ C) ⊢ iprop(A ∗ B ∗ C) := fun A B C => by
    iintro ⟨⟨HS, HR⟩, Hg⟩
    isplitl [HS]; · iexact HS
    isplitl [HR]; · iexact HR
    iexact Hg
  have h₂ : ∀ (A B C : sProp 𝕄), iprop(A ∗ B ∗ C) ⊢ iprop((A ∗ B) ∗ C) := fun A B C => by
    iintro ⟨HS, HR, Hg⟩
    isplitl [HS HR]
    · isplitl [HS]; · iexact HS
      iexact HR
    iexact Hg
  exact BI.equiv_iff.mp ⟨h₁ _ _ _, h₂ _ _ _⟩

/-! ## What the body finds in the input windows -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input's current buffer holds its block at every point, fetched there or not: unfetched, its block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body obligation, at a generic point -/

/-- Each window's current staging memref at point `t`, spelled as the pipeline passes it, and its wholeness. -/
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x2048 .f32 := win0_5.stage (cfg0.slots t 5)
abbrev hs0_5 (t : Fin cfg0.N) : (ms0_5 t).IsWhole := hstage0_5 ((cfg0.slots t 5).cast nbuf0_5)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the position in the period of 11 decides the case.
    At tile 0 the accumulator, whatever it holds (anything at the very first point, the previous expert's sum later), is reset;
    elsewhere it holds what the point before left. The invariant takes it back at this point's sum; the output's buffer is
    handed back untouched except at tile 10, where it holds the scaled sum. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 352 := lt_of_lt_of_eq t.isLt (show cfg0.N = 352 from N_0)
  by_cases h0 : t.val % 11 = 0
  · have h1 : ¬t.val % 11 = 10 := by omega
    rw [Dat.leavesExact_idle (dat0 V c) 5 t (idleAt0_5 t (fun h => h1 ((hcond0_1 t).mp h))) (noFlush0_5 t (fun h => h1 ((hcond0_1 t).mp h)))]
    rw [accAt_reset V c t h0]
    by_cases hz : t.val = 0
    · rw [PhiS_castSucc V c t, PhiS_zero V c _ _ hz, PhiA0_eq]
      iintro ⟨⟨⟨%s, HS⟩, HR, Hg⟩, Ho, ⟨%d0, H0⟩, ⟨%d1, H1⟩, ⟨%d2, H2⟩, ⟨%d3, H3⟩, ⟨%d4, H4⟩, ⟨%d5, H5⟩⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h))
        (iblk0 V c 0 t) (iblk0 V c 1 t) (iblk0 V c 2 t) (iblk0 V c 3 t) (iblk0 V c 4 t) ((dat0 V c).before 5 t d5) s Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h))
        (iblk0 V c 0 t) (iblk0 V c 1 t) (iblk0 V c 2 t) (iblk0 V c 3 t) (iblk0 V c 4 t) ((dat0 V c).before 5 t d5) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [accAt_step V c t h0]
    by_cases h1 : t.val % 11 = 10
    · rw [show (dat0 V c).leavesExact 5 t = owns (c : Thread nD τ) (ms0_5 t) fullShare ((dat0 V c).after 5 t) from by
        unfold Dat.leavesExact; rw [liveAt0_5 t ((hcond0_1 t).mpr h1)], after0_5]
      rw [accAt_step V c t h0]
      rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (run0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1)
        (iblk0 V c 0 t) (iblk0 V c 1 t) (iblk0 V c 2 t) (iblk0 V c 3 t) (iblk0 V c 4 t) ((dat0 V c).before 5 t d5) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idleAt0_5 t (fun h => h1 ((hcond0_1 t).mp h))) (noFlush0_5 t (fun h => h1 ((hcond0_1 t).mp h)))]
      rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (run0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h))
        (iblk0 V c 0 t) (iblk0 V c 1 t) (iblk0 V c 2 t) (iblk0 V c 3 t) (iblk0 V c 4 t) ((dat0 V c).before 5 t d5) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the routed-experts call, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS, HR, Hg⟩
  isplitl [HS]
  · iexists _; iexact HS
  isplitl [HR]; · iexact HR
  iexact Hg

/-- After the last point the invariant gives the launch's back: the accumulator's contents are forgotten. -/
theorem hout0 (c : Dev nD) : (dat0 V c).Φ (Fin.last cfg0.N) ⊢ Pipeline.ΦA spec0 c :=
  Phi_out0 V c _ (by rw [Fin.val_last]; have : cfg0.N = 352 := N_0; omega)

end Cert.Kernel.Hand

end
-- ==== Proof.K.Region1.lean ====
/-
  The shared feed-forward call (the second kernel region), at the contents `V` its core's buffers hold when it
  is entered: a grid of 64 row tiles; at tile `t` the body reads rows `64 t … 64 t + 63` of the activations and of
  the routed sum and the three weight matrices whole, and stores
  `(silu (x · Wg) ⊙ (x · Wu)) · Wd + routed` for those rows. Nothing is carried from tile to tile.
-/
import proofs.«402449_j23871428231438_3_alg».proof.Proof.Gen.Kernel.Launch
import proofs.«402449_j23871428231438_3_alg».proof.Proof.Gen.Kernel.Skeleton
import proofs.«402449_j23871428231438_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 64 × 2048 output tile, as the body's one store addresses it. -/
abbrev r1_out : Rect S64x2048 := Rect.unit (s := S64x2048) ![0, 0] S64x2048.size inb_S64x2048_S64x2048_0_0

/-- What the body leaves in the output tile: its one store, of the payload over the five loaded blocks. -/
def out1_5 (x0 : Vec F S64x2048 .bf16) (x1 x2 : Vec F S2048x2816 .bf16) (x3 : Vec F S2816x2048 .bf16) (x4 : Vec F S64x2048 .f32) :
    Vec F S64x2048 .f32 :=
  View.canon [⟨r1_out, k1_pay1 x0 x1 x2 x3 x4⟩]

/-- The proof data of the shared feed-forward pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- The two offsets of a whole tile are zero. -/
theorem zero_offsets1 : (![0, 0] : Fin 2 → Nat) = fun _ => 0 := funext fun a => by fin_cases a <;> rfl

/-- The stored tile is the payload itself. -/
theorem out1_5_eq (x0 : Vec F S64x2048 .bf16) (x1 x2 : Vec F S2048x2816 .bf16) (x3 : Vec F S2816x2048 .bf16) (x4 : Vec F S64x2048 .f32) :
    out1_5 x0 x1 x2 x3 x4 = k1_pay1 x0 x1 x2 x3 x4 := by
  unfold out1_5
  exact View.canon_unit_zero (S := S64x2048) zero_offsets1 inb_S64x2048_S64x2048_0_0 _

/-! ## What the body finds in the five input tiles

An input window's staging buffer holds the window's block at every tile, whether the tile fetched it (the
activations and the routed sum, at every tile) or it has been lying there since the first tile (the three weight
matrices, whose block index never moves): a window that is not fetched has the block index of the tile before. -/

theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

theorem found1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hkeep : ∀ t, (cfg1.win 3).cut (cfg1.grid.coords t) (dat.after 3 t) = dat.blockOf 3 t := fun t => by
    rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl

theorem found1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  have hkeep : ∀ t, (cfg1.win 4).cut (cfg1.grid.coords t) (dat.after 4 t) = dat.blockOf 4 t := fun t => by
    rw [hafter]; unfold Dat.blockOf iblk1; rw [hA]; try rfl
  rw [dat.before_in_eq_fetched 4 rfl (fun _ => rfl) (fun _ _ _ => rfl) hkeep t d]
  unfold Dat.fetched Dat.blockOf iblk1; rw [hA]; try rfl

/-! ## The body on its six staging buffers -/

/-- A load of a whole buffer (the unit rectangle at zero offsets over the buffer's own sizes) reads its contents. -/
theorem load_whole1 {κ : Kind} {sp : Space} {S : Shape} {e : EltTy} (v : View sig κ sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

/-- One store of a whole buffer leaves its payload there, whatever the buffer held. -/
theorem store_whole1 {κ : Kind} {sp : Space} {S : Shape} {e : EltTy} (v : View sig κ sp S e) (f : v.ty.Contents (Elt F))
    {off : Fin S.rank → Nat} (hz : off = fun _ => 0) (inb : ∀ a, off a + S.size a ≤ S.size a) (p : S.Idx → Elt F e) :
    v.read (Elt F) (v.writes (Elt F) f [⟨Rect.unit off S.size inb, p⟩]) = p := by
  rw [View.read_writes_eq_canon v f _ (fun y => ⟨_, List.mem_singleton_self _, View.mem_set_unit_zero hz inb y⟩)]
  exact View.canon_unit_zero hz inb p

set_option maxHeartbeats 1000000 in
/-- The body, on whole staging buffers holding the five inputs at x0 … x4 and the output tile at anything, leaves the
    inputs as they were and the output tile at out1_5 of them: five whole-buffer loads, one idle load of the output
    buffer, one whole-buffer store. -/
theorem kernel_triple1 (c : Dev nD) (E : Set ℕ) (i : grid1.Coords)
    (a0 : Memref sig .tc .vmem S64x2048 .bf16) (h0 : a0.IsWhole) (a1 : Memref sig .tc .vmem S2048x2816 .bf16) (h1 : a1.IsWhole)
    (a2 : Memref sig .tc .vmem S2048x2816 .bf16) (h2 : a2.IsWhole) (a3 : Memref sig .tc .vmem S2816x2048 .bf16) (h3 : a3.IsWhole)
    (a4 : Memref sig .tc .vmem S64x2048 .f32) (h4 : a4.IsWhole) (a5 : Memref sig .tc .vmem S64x2048 .f32) (h5 : a5.IsWhole)
    (x0 : Vec F S64x2048 .bf16) (x1 x2 : Vec F S2048x2816 .bf16) (x3 : Vec F S2816x2048 .bf16) (x4 : Vec F S64x2048 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__shared_ffn_kernel i a0 h0 a1 h1 a2 h2 a3 h3 a4 h4 a5 h5) K := by
  simp only [cc1__shared_ffn_kernel_eq_skeleton]; unfold cc1__shared_ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  rw [store_whole1 a5.view f5 zero_offsets1, out1_5_eq,
    load_whole1 a0.view f0 zero_offsets1, load_whole1 a1.view f1 zero_offsets1, load_whole1 a2.view f2 zero_offsets1,
    load_whole1 a3.view f3 zero_offsets1, load_whole1 a4.view f4 zero_offsets1]

/-! ## The body at a tile -/

/-- What the body leaves in the five input tiles is what it found there (the proof data's table, read off). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- So each input tile holds its window's block when the body runs, at every tile. -/
theorem held1_0 (c : Dev nD) (t : Fin cfg1.N) (d) : (dat1 V c).before 0 t d = iblk1 V c 0 t :=
  found1_0 V (dat1 V c) (A_eq1 V c 0) (after1_0 V c) t d
theorem held1_1 (c : Dev nD) (t : Fin cfg1.N) (d) : (dat1 V c).before 1 t d = iblk1 V c 1 t :=
  found1_1 V (dat1 V c) (A_eq1 V c 1) (after1_1 V c) t d
theorem held1_2 (c : Dev nD) (t : Fin cfg1.N) (d) : (dat1 V c).before 2 t d = iblk1 V c 2 t :=
  found1_2 V (dat1 V c) (A_eq1 V c 2) (after1_2 V c) t d
theorem held1_3 (c : Dev nD) (t : Fin cfg1.N) (d) : (dat1 V c).before 3 t d = iblk1 V c 3 t :=
  found1_3 V (dat1 V c) (A_eq1 V c 3) (after1_3 V c) t d
theorem held1_4 (c : Dev nD) (t : Fin cfg1.N) (d) : (dat1 V c).before 4 t d = iblk1 V c 4 t :=
  found1_4 V (dat1 V c) (A_eq1 V c 4) (after1_4 V c) t d

set_option maxHeartbeats 1000000 in
/-- The body at tile t: the five input buffers hold their blocks, the output buffer anything; the body's triple gives
    the six buffers back, the output at the payload of the five blocks. The pipeline's invariant and what the core owes
    are not touched. -/
theorem tile_run1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)
            ∗ owns (c : Thread nD τ) (st1_4 t) fullShare ((dat1 V c).after 4 t)
            ∗ owns (c : Thread nD τ) (st1_5 t) fullShare ((dat1 V c).after 5 t))) := by
  unfold bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (kernel_triple1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the shared feed-forward call, at every tile. -/
theorem body_obligation1 (c : Dev nD) : BodyObligation (dat1 (F := F) V c) (defs₀ (F := F)) Variants.none () Set.univ := fun t => by
  rw [bigSep_W1, bigSep_W1]
  exact tile_run1 V c t

end Cert.Kernel.Hand

end
-- ==== Proof.K.Run.lean ====
/-
  The whole run of @main: five stretches of host operations, the routed-experts call, three more stretches, the shared
  feed-forward call, and the closing reshape. The contents of the core's buffers are followed from the launch memory
  through every item (the generated valuations `V0 … V11`); what a kernel region leaves in its output array is what its
  pipeline's write-backs leave (`Dat.arrAt` at the last point). Every weakly fair execution terminates, and at the end
  every unscoped buffer holds the last valuation's contents: the arguments as launched, the result as computed.
-/
import proofs.«402449_j23871428231438_3_alg».proof.Proof.Gen.Kernel.Launch
import proofs.«402449_j23871428231438_3_alg».proof.Proof.Gen.Kernel.Skeleton
import proofs.«402449_j23871428231438_3_alg».proof.Proof.Gen.Kernel.Points
import proofs.«402449_j23871428231438_3_alg».proof.Proof.Gen.Kernel.Regions
import proofs.«402449_j23871428231438_3_alg».proof.Proof.K.Region0
import proofs.«402449_j23871428231438_3_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the two regions are entered from, and what they leave -/

/-- What the routed-experts call is entered from: the launch memory after the first five stretches of host operations. -/
abbrev Ve0 : (c : Dev nD) → (b : Ref sig .tc) → Buf (Elt F) ((c : Thread nD τ).loc b) := fun c b => V5 m c b

/-- What the routed-experts call leaves: its arrays at what its write-backs leave, every other buffer as entered. -/
def outs6 : Outs (F := F) := fun _ r c =>
  Pipeline.withArrays spec0 c (V5 m c) (fun w => (dat0 (Ve0 m) c).arrAt w cfg0.N) (Proc.devRef .tc r)

/-- What the shared feed-forward call is entered from. -/
abbrev Ve1 : (c : Dev nD) → (b : Ref sig .tc) → Buf (Elt F) ((c : Thread nD τ).loc b) := fun c b => V9 m (outs6 m) c b

/-- What the two regions leave in the buffers they may change: the unknowns the generated valuations are written over. -/
def outs : Outs (F := F) := fun j r c =>
  if j = 10 then Pipeline.withArrays spec1 c (V9 m (outs6 m) c) (fun w => (dat1 (Ve1 m) c).arrAt w cfg1.N) (Proc.devRef .tc r)
  else outs6 m j r c

/-- Item 5 is not item 9: at the routed-experts call's exit the unknowns are that call's own. -/
theorem outs_at_6 (c : Dev nD) : outs m 6 main_v22 c = outs6 m 6 main_v22 c := by
  unfold outs
  rw [if_neg (by decide)]

/-- The routed-experts call's result array after the region: what its write-backs leave. -/
theorem outs_6 (c : Dev nD) : outs m 6 main_v22 c = (dat0 (Ve0 m) c).arrAt 5 cfg0.N := by
  rw [outs_at_6]
  unfold outs6
  exact Pipeline.withArrays_arr spec0 launch0.win.arr_inj c _ _ 5

/-- The shared call is entered from the valuation written over `outs`. -/
theorem V9_outs (c : Dev nD) : V9 m (outs m) c = V9 m (outs6 m) c := by
  have h6 : V6 m (outs m) c = V6 m (outs6 m) c := by
    show Function.update (V5 m c) _ (outs m 6 main_v22 c) = Function.update (V5 m c) _ (outs6 m 6 main_v22 c)
    rw [outs_at_6]
  show StableHlo.after hostOps1_2 (StableHlo.after hostOps1_1 (StableHlo.after hostOps1 (V6 m (outs m) c))) = _
  rw [h6]

/-- The shared call's result array after the region: what its write-backs leave. -/
theorem outs_10 (c : Dev nD) : outs m 10 main_v38 c = (dat1 (Ve1 m) c).arrAt 5 cfg1.N := by
  unfold outs
  rw [if_pos rfl]
  exact Pipeline.withArrays_arr spec1 launch1.win.arr_inj c _ _ 5

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-! ## A region's exit contents: its result array at what the write-backs leave, every other buffer as entered -/

/-- The routed-experts call's exit contents, read at the core's references. -/
abbrev Vx0 : (c : Dev nD) → (b : Ref sig .tc) → Buf (Elt F) ((c : Thread nD τ).loc b) := fun c b => V6 m (outs m) c b

/-- The shared call's exit contents, read at the core's references. -/
abbrev Vx1 : (c : Dev nD) → (b : Ref sig .tc) → Buf (Elt F) ((c : Thread nD τ).loc b) := fun c b => V10 m (outs m) c b

/-- An array the routed-experts call only reads holds at the exit what it held at the entry: no write-back touches it,
    and the exit valuation differs from the entry's at the result array alone. -/
theorem exit0_read (c : Dev nD) (w : Fin cfg0.W) (r : Ref sig .tc) (hr : Pipeline.arrRef spec0 w = r)
    (hin : (cfg0.win w).isOut = false) (hne : r ∉ ([main_v22] : List (Ref sig .tc))) :
    HEq ((dat0 (Ve0 m) c).arrAt w cfg0.N) (V6 m (outs m) c r) := by
  subst hr
  exact heq_of_eq (((dat0 (Ve0 m) c).arrAt_in w hin _).trans ((A_eq0 (Ve0 m) c w).trans (V6_of m (outs m) c _ hne).symm))

/-- Every array of the routed-experts call at the exit: the five it reads as entered, its result as the write-backs leave it. -/
theorem exit0_arrays (c : Dev nD) : ∀ w : Fin 6, (dat0 (Ve0 m) c).arrAt w cfg0.N = Vx0 m c (Pipeline.arrRef spec0 w) := fun
  | 0 => eq_of_heq (exit0_read m c 0 main_v12 rfl rfl (by decide))
  | 1 => eq_of_heq (exit0_read m c 1 main_arg3 rfl rfl (by decide))
  | 2 => eq_of_heq (exit0_read m c 2 main_arg4 rfl rfl (by decide))
  | 3 => eq_of_heq (exit0_read m c 3 main_arg5 rfl rfl (by decide))
  | 4 => eq_of_heq (exit0_read m c 4 main_v21 rfl rfl (by decide))
  | 5 => (outs_6 m c).symm.trans (Function.update_self (Proc.devRef (τ := τ) .tc main_v22) (outs m 6 main_v22 c) (V5 m c)).symm
  | ⟨_ + 6, h⟩ => absurd h (Nat.not_lt.2 (Nat.le_add_left _ _))

/-- Off the routed-experts call's arrays the exit valuation is the entry's. -/
theorem exit0_rest (c : Dev nD) : ∀ b, b ∉ Finset.univ.image (Pipeline.arrRef spec0) → Vx0 m c b = Ve0 m c b :=
  fun b hb => V6_of m (outs m) c b fun h =>
    hb (Finset.mem_image.mpr ⟨5, Finset.mem_univ _, (List.mem_singleton.mp h).symm⟩)

/-- An array the shared call only reads holds at the exit what it held at the entry. -/
theorem exit1_read (c : Dev nD) (w : Fin cfg1.W) (r : Ref sig .tc) (hr : Pipeline.arrRef spec1 w = r)
    (hin : (cfg1.win w).isOut = false) (hne : r ∉ ([main_v38] : List (Ref sig .tc))) :
    HEq ((dat1 (Ve1 m) c).arrAt w cfg1.N) (V10 m (outs m) c r) := by
  subst hr
  refine heq_of_eq (((dat1 (Ve1 m) c).arrAt_in w hin _).trans ((A_eq1 (Ve1 m) c w).trans ?_))
  rw [V10_of m (outs m) c _ hne, V9_outs]

/-- Every array of the shared call at the exit: the five it reads as entered, its result as the write-backs leave it. -/
theorem exit1_a0 (c : Dev nD) : (dat1 (Ve1 m) c).arrAt 0 cfg1.N = Vx1 m c main_v34 := eq_of_heq (exit1_read m c 0 main_v34 rfl rfl (by decide))
theorem exit1_a1 (c : Dev nD) : (dat1 (Ve1 m) c).arrAt 1 cfg1.N = Vx1 m c main_v35 := eq_of_heq (exit1_read m c 1 main_v35 rfl rfl (by decide))
theorem exit1_a2 (c : Dev nD) : (dat1 (Ve1 m) c).arrAt 2 cfg1.N = Vx1 m c main_v36 := eq_of_heq (exit1_read m c 2 main_v36 rfl rfl (by decide))
theorem exit1_a3 (c : Dev nD) : (dat1 (Ve1 m) c).arrAt 3 cfg1.N = Vx1 m c main_v37 := eq_of_heq (exit1_read m c 3 main_v37 rfl rfl (by decide))
theorem exit1_a4 (c : Dev nD) : (dat1 (Ve1 m) c).arrAt 4 cfg1.N = Vx1 m c main_v33 := eq_of_heq (exit1_read m c 4 main_v33 rfl rfl (by decide))
theorem exit1_a5 (c : Dev nD) : (dat1 (Ve1 m) c).arrAt 5 cfg1.N = Vx1 m c main_v38 :=
  (outs_10 m c).symm.trans (Function.update_self (Proc.devRef (τ := τ) .tc main_v38) (outs m 10 main_v38 c) (V9 m (outs m) c)).symm
theorem exit1_arrays (c : Dev nD) : ∀ w : Fin 6, (dat1 (Ve1 m) c).arrAt w cfg1.N = Vx1 m c (Pipeline.arrRef spec1 w) := fun
  | 0 => exit1_a0 m c
  | 1 => exit1_a1 m c
  | 2 => exit1_a2 m c
  | 3 => exit1_a3 m c
  | 4 => exit1_a4 m c
  | 5 => exit1_a5 m c
  | ⟨_ + 6, h⟩ => absurd h (Nat.not_lt.2 (Nat.le_add_left _ _))

/-- Off the shared call's arrays the exit valuation is the entry's. -/
theorem exit1_rest (c : Dev nD) : ∀ b, b ∉ Finset.univ.image (Pipeline.arrRef spec1) → Vx1 m c b = Ve1 m c b :=
  fun b hb => (V10_of m (outs m) c b fun h =>
    hb (Finset.mem_image.mpr ⟨5, Finset.mem_univ _, (List.mem_singleton.mp h).symm⟩)).trans (by rw [V9_outs])

/-! ## What rides beside the buffers -/

/-- No variant is in play. -/
abbrev Vr : Variants := Variants.none
/-- No core owes another anything: no pair is assigned a level. -/
abbrev Lp : GSem nD τ sig → Finset Unit := fun _ => ∅
abbrev Lw : GSem nD τ sig → Unit → ℕ := fun _ _ => 0

/-- Beside the buffers, between any two items: the core's generator register at some state (a region's invariant takes it
    in and gives it back) and the core owing nothing. -/
abbrev Beside (c : Dev nD) : sProp 𝕄 :=
  iprop((∃ r, prngReg c r) ∗ ∃ W, owes (c : Thread nD τ) (0 : CellTallies nD τ sig Unit) W)
/-- The same in each of the three stretches the two regions cut @main into. -/
abbrev Besides : Fin 3 → Dev nD → sProp 𝕄 := fun _ c => Beside (F := F) c

/-! ## The regions as segments -/

/-- The generator register and the scoped buffers no window stages are the launch's invariant of the routed-experts call
    (no table is prefetched, so the tables' part is dropped). -/
theorem enter0 (c : Dev nD) :
    (iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) : sProp 𝕄)
      ⊢ Pipeline.ΦA spec0 c := by
  unfold Pipeline.ΦA
  iintro ⟨Hprng, -, Hscoped⟩
  isplitl [Hscoped]; · iexact Hscoped
  iexact Hprng

/-- The launch's invariant gives the generator register and those scoped buffers back. -/
theorem leave0 (c : Dev nD) :
    (Pipeline.ΦA spec0 c : sProp 𝕄)
      ⊢ iprop((∃ r, prngReg c r) ∗ BI.emp
        ∗ Pipeline.scopedRest (Ix := Unit) (Name := ℕ) (U := UR sig nD τ) (Lvl := ℕ) (Val := Elt F) spec0 c) := by
  unfold Pipeline.ΦA
  iintro ⟨Hscoped, Hprng⟩
  isplitl [Hprng]; · iexact Hprng
  isplitr; · iempintro
  iexact Hscoped

set_option backward.isDefEq.respectTransparency.types false in
/-- THE ROUTED-EXPERTS CALL over the thread state: entered from every unscoped buffer at `V5`, left at `V6`. Its six arrays
    are split out of the unscoped buffers and put back at the exit contents; the generator register and the scoped rest
    make the invariant before the first point, and the invariant after the last point gives them back (the accumulator's
    last contents forgotten); nothing is owed; the kernel has no semaphore of its own. -/
def segRouted : RegionSeg (pcfgs (F := F)) adm (pdats m) () defs₀ Vr Lp Lw 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ Lp Lw 0 fun _ _ => rfl
  pre c := iprop(StableHlo.held (c : Thread nD τ) (Pipeline.ucRefs τ sig) (V5 m c) ∗ Beside c)
  post c := iprop(StableHlo.held (c : Thread nD τ) (Pipeline.ucRefs τ sig) (V6 m (outs m) c) ∗ Beside c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun w => A_eq0 (Ve0 m) c w
    rw [Pipeline.unscopedBufs_held c (V5 m c)] at hsplit
    iintro ⟨⟨Hbufs, Hprng, Howes⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hprng]; · iexact Hprng
    iexact Hrest
  hin c := (enter0 c).trans (hin0 (Ve0 m) c)
  hout c := by
    rw [Pipeline.ownSems0_none]
    exact (hout0 (Ve0 m) c).trans (leave0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (exit0_arrays m c) (exit0_rest m c)
    rw [Pipeline.unscopedBufs_held c (V6 m (outs m) c)] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

set_option backward.isDefEq.respectTransparency.types false in
/-- THE SHARED FEED-FORWARD CALL over the thread state: entered from every unscoped buffer at `V9`, left at `V10`. Its
    invariant is the plain one at every tile (the scoped rest and the generator register), so entering and leaving it
    only reorders the two. -/
def segShared : RegionSeg (pcfgs (F := F)) adm (pdats m) () defs₀ Vr Lp Lw 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ Lp Lw 1 fun _ _ => rfl
  pre c := iprop(StableHlo.held (c : Thread nD τ) (Pipeline.ucRefs τ sig) (V9 m (outs m) c) ∗ Beside c)
  post c := iprop(StableHlo.held (c : Thread nD τ) (Pipeline.ucRefs τ sig) (V10 m (outs m) c) ∗ Beside c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V9_outs m c]
    have hsplit := Pipeline.arrays_of_unscopedBufs (p := 1) (pcfgs (F := F)) adm (pdats m) launch1.win launch1.arr_whole c
      ((pdats m 1 c).share_full fun _ => rfl) (Ve1 m c) fun w => A_eq1 (Ve1 m) c w
    rw [Pipeline.unscopedBufs_held c (V9 m (outs6 m) c)] at hsplit
    iintro ⟨⟨Hbufs, Hprng, Howes⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hprng]; · iexact Hprng
    iexact Hrest
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (exit1_arrays m c) (exit1_rest m c)
    rw [Pipeline.unscopedBufs_held c (V10 m (outs m) c)] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ## The run -/

/-- An unscoped reference of the core is among those the thread state holds. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every final
    state holds every unscoped buffer of every core at the last valuation's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = V11 m (outs m) c b) := by
  refine Pipeline.θ_run_regions_kit_dev (pcfgs (F := F)) adm (pdats m) () cellOf_inj emb₁ defs₀ Vr Lp Lw m ρ main
    (segs m (outs m) Vr Lp Lw (Besides (F := F)) () (pdats m) (segRouted m) (segShared m))
    (fun c Q => by
      rewrite [main_chain c, Seg.run_eq_chain,
        show (segs m (outs m) Vr Lp Lw (Besides (F := F)) () (pdats m) (segRouted m) (segShared m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Beside c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, sep_mono .rfl ?_⟩)
    (hinit := ?_)
    (QY := fun c s => ∀ b ∈ Pipeline.ucRefs τ sig, s.mem ((c : Thread nD τ).1, b) = V11 m (outs m) c b)
    (hfin := fun c s' => ?_) (hQ := fun _ h => h)
  · -- the launch element is the pipelines' own; no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- after the last stretch the generator register is let go; the core owes nothing
    iintro ⟨-, Howes⟩; iexact Howes
  · -- the launch: each core's unscoped buffers are held at the launch memory, its register at the launch state, nothing owed
    refine Pipeline.initEach Lp Lw fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Howes, -, Hprng, -⟩, -⟩
    imodintro
    isplitl [Hbufs]; · iexact Hbufs
    isplitl [Hprng]; · iexists _; iexact Hprng
    iexists ∅; iexact Howes
  · -- the end: every held buffer read against the final state
    iintro ⟨Hbufs, HSI⟩
    unfold StableHlo.held
    imodintro
    iapply (pointsTo_read_all (Pipeline.ucRefs τ sig) (fun b => (((c : Thread nD τ)).1, b)) (V11 m (outs m) c) s')
    isplitl [Hbufs] <;> iassumption

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_held main_arg0 (by decide))).trans (V11_main_arg0 m (outs m) c),
    (h c _ (mem_held main_arg1 (by decide))).trans (V11_main_arg1 m (outs m) c),
    (h c _ (mem_held main_arg2 (by decide))).trans (V11_main_arg2 m (outs m) c),
    (h c _ (mem_held main_arg3 (by decide))).trans (V11_main_arg3 m (outs m) c),
    (h c _ (mem_held main_arg4 (by decide))).trans (V11_main_arg4 m (outs m) c),
    (h c _ (mem_held main_arg5 (by decide))).trans (V11_main_arg5 m (outs m) c),
    (h c _ (mem_held main_arg6 (by decide))).trans (V11_main_arg6 m (outs m) c),
    (h c _ (mem_held main_arg7 (by decide))).trans (V11_main_arg7 m (outs m) c),
    (h c _ (mem_held main_arg8 (by decide))).trans (V11_main_arg8 m (outs m) c)⟩) (run_all m ρ)

/-- The run with its result named: the result array ends at the last valuation's contents, the arguments as launched. -/
theorem run_value : θ_run defs (onTc (τ := τ) (main (F := F))) ⟨m, fun _ => 0, ρ⟩ (fun r => ∀ c : Dev nD,
      r.2.mem ((c.tc : Thread nD τ).loc main_v39) = V11 m (outs m) c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    h c _ (mem_held main_v39 (by decide)),
    (h c _ (mem_held main_arg0 (by decide))).trans (V11_main_arg0 m (outs m) c),
    (h c _ (mem_held main_arg1 (by decide))).trans (V11_main_arg1 m (outs m) c),
    (h c _ (mem_held main_arg2 (by decide))).trans (V11_main_arg2 m (outs m) c),
    (h c _ (mem_held main_arg3 (by decide))).trans (V11_main_arg3 m (outs m) c),
    (h c _ (mem_held main_arg4 (by decide))).trans (V11_main_arg4 m (outs m) c),
    (h c _ (mem_held main_arg5 (by decide))).trans (V11_main_arg5 m (outs m) c),
    (h c _ (mem_held main_arg6 (by decide))).trans (V11_main_arg6 m (outs m) c),
    (h c _ (mem_held main_arg7 (by decide))).trans (V11_main_arg7 m (outs m) c),
    (h c _ (mem_held main_arg8 (by decide))).trans (V11_main_arg8 m (outs m) c)⟩) (run_all m ρ)

end Cert.Kernel.Hand

end
-- ==== Proof.KI.Region0.lean ====
/-
  The routed-experts call (the first kernel region), at the contents `V` its core's buffers hold when it is entered.
  The grid is 32 experts × 11 tiles of the experts' inner width (128 columns of 1408 each), walked expert by expert:
  point `n` is expert `n / 11`, tile `n % 11`. A scratch accumulator of 512 × 2048 is carried from point to point:
  at tile 0 it is reset to zero, at every tile the product `(silu (x · G) ⊙ (x · U)) · D` of that tile's 128 columns is added
  to it, and at tile 10 it is scaled row by row by the expert's combine weights and stored to the expert's output block,
  which is written back there and only there.
-/
import proofs.«402449_j23871428231438_3_alg».proof.Proof.Gen.KernelIdeal.Launch
import proofs.«402449_j23871428231438_3_alg».proof.Proof.Gen.KernelIdeal.Skeleton
import proofs.«402449_j23871428231438_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator, whole. -/
abbrev scM0 : Memref sig .tc .vmem S512x2048 .f32 := Memref.whole cc0_scratch0

/-- THE ACCUMULATOR after point `n`: at a tile 0 the point's product over zero, elsewhere over what the point before left. -/
def accAt (c : Dev nD) : (n : ℕ) → n < cfg0.N → Vec F S512x2048 .f32
  | 0, hn => k0_pay2 (iblk0 V c 0 ⟨0, hn⟩) (iblk0 V c 1 ⟨0, hn⟩) (iblk0 V c 2 ⟨0, hn⟩) (iblk0 V c 3 ⟨0, hn⟩) k0_pay1
  | n + 1, hn =>
    if (n + 1) % 11 = 0 then
      k0_pay2 (iblk0 V c 0 ⟨n + 1, hn⟩) (iblk0 V c 1 ⟨n + 1, hn⟩) (iblk0 V c 2 ⟨n + 1, hn⟩) (iblk0 V c 3 ⟨n + 1, hn⟩) k0_pay1
    else
      k0_pay2 (iblk0 V c 0 ⟨n + 1, hn⟩) (iblk0 V c 1 ⟨n + 1, hn⟩) (iblk0 V c 2 ⟨n + 1, hn⟩) (iblk0 V c 3 ⟨n + 1, hn⟩) (accAt c n (Nat.lt_of_succ_lt hn))

/-- At a tile 0 the accumulator restarts from zero. -/
theorem accAt_reset (c : Dev nD) (t : Fin cfg0.N) (h : t.val % 11 = 0) :
    accAt V c t.val t.isLt = k0_pay2 (iblk0 V c 0 t) (iblk0 V c 1 t) (iblk0 V c 2 t) (iblk0 V c 3 t) k0_pay1 := by
  obtain ⟨n, hn⟩ := t
  cases n with
  | zero => rfl
  | succ n => exact (if_pos h).trans rfl

/-- At any other tile it adds to what the point before left. -/
theorem accAt_step (c : Dev nD) (t : Fin cfg0.N) (h : t.val % 11 ≠ 0) :
    accAt V c t.val t.isLt = k0_pay2 (iblk0 V c 0 t) (iblk0 V c 1 t) (iblk0 V c 2 t) (iblk0 V c 3 t)
      (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The region's invariant before position `n`: before the first point the launch's (every scratch at anything); afterwards the
    accumulator at what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scM0 fullShare (accAt V c n hn)
      ∗ Pipeline.scopedRestBut (Ix := Unit) (Name := ℕ) (U := UR sig nD τ) (Lvl := ℕ) (Val := Elt F) spec0 c [cc0_scratch0]
      ∗ (∃ r, prngReg c r))

/-- The proof data of the routed-experts pipeline on core `c`. The output window's entry is what a tile-10 point stores;
    at the other points the window is idle and the entry is not consulted. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (iblk0 V c 4 t) (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = k0_pay3 (iblk0 V c 4 t) (accAt V c t.val t.isLt) := by
  dsimp only [dat0]

/-! ## The body's three control cases, on any whole staging memrefs -/

/-- The condition of the body's first `scf.if` (is this tile 0?), from the grid coordinates. -/
abbrev cond0_0 (i : grid0.Coords) : Prop := (Scalar.cmpi .ne (Scalar.extui (Scalar.cmpi .eq (BitVec.ofNat 32 (i 1).val) 0#32)) 0#32) = 1#1

/-- The zero offsets of the body's whole-buffer loads and stores, however spelt. -/
theorem zeroOff0_2 : (![0, 0] : Fin 2 → Nat) = fun _ => 0 := funext fun a => by fin_cases a <;> rfl
theorem zeroOff0_3 : (![0, 0, 0] : Fin 3 → Nat) = fun _ => 0 := funext fun a => by fin_cases a <;> rfl

/-- A whole-shape store at zero offsets, LAST, is what the buffer then reads, whatever was stored before. -/
theorem read_writes_whole_last0 {S : Shape} {e : EltTy} {sg : RefSig} {κ : Kind} {sp : Space} (v : View sg κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

/-- A whole-shape load at zero offsets of a whole buffer that reads `X` is `X`. -/
theorem readAt_unread_whole0 {S : Shape} {e : EltTy} (M : Memref sig .tc .vmem S e) (h : M.IsWhole) {off : Fin S.rank → Nat} (hz : off = fun _ => 0)
    (inb : ∀ a, off a + S.size a ≤ S.size a) (X : S.Idx → Elt F e) :
    M.view.readAt (Elt F) (Rect.unit off S.size inb).toLoadRect (h.unread X) = X := by
  rw [View.readAt_eq_ld, h.read_unread]; exact View.ld_unit_zero hz inb X

/-- A middle tile: the accumulator gains the tile's product; the output buffer is handed back as found. -/
theorem run0_B (c : Dev nD) (i : grid0.Coords)
    (arg2 : Memref sig .tc .vmem S1x512x2048 .bf16) (harg2 : arg2.IsWhole)
    (arg3 : Memref sig .tc .vmem S1x2048x128 .f32) (harg3 : arg3.IsWhole)
    (arg4 : Memref sig .tc .vmem S1x2048x128 .f32) (harg4 : arg4.IsWhole)
    (arg5 : Memref sig .tc .vmem S1x128x2048 .f32) (harg5 : arg5.IsWhole)
    (arg6 : Memref sig .tc .vmem S1x512x1 .f32) (harg6 : arg6.IsWhole)
    (arg7 : Memref sig .tc .vmem S1x512x2048 .f32) (harg7 : arg7.IsWhole)
    (arg8 : Memref sig .tc .vmem S512x2048 .f32) (harg8 : arg8.IsWhole)
    (hc0 : ¬cond0_0 i) (hc1 : ¬k0_cond2 i = 1#1)
    (x0 : Vec F S1x512x2048 .bf16) (x1 : Vec F S1x2048x128 .f32) (x2 : Vec F S1x2048x128 .f32) (x3 : Vec F S1x128x2048 .f32)
    (x4 : Vec F S1x512x1 .f32) (y : Vec F S1x512x2048 .f32) (s : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
            ∗ owns (c : Thread nD τ) arg8 fullShare (k0_pay2 x0 x1 x2 x3 s)) -∗ K ⟨⟩))
      ⊢ wp frame (wpE (defs₀ (F := F)) Variants.none c none) E (cc0__expert_ffn_kernel i arg2 harg2 arg3 harg3 arg4 harg4 arg5 harg5 arg6 harg6 arg7 harg7 arg8 harg8) K := by
  simp only [cc0__expert_ffn_kernel_eq_skeleton]; unfold cc0__expert_ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole_last0 _ _ zeroOff0_2 _ _ _).trans ?_
  rw [readAt_unread_whole0 arg2 harg2 zeroOff0_3, readAt_unread_whole0 arg3 harg3 zeroOff0_3, readAt_unread_whole0 arg4 harg4 zeroOff0_3, readAt_unread_whole0 arg5 harg5 zeroOff0_3, readAt_unread_whole0 arg8 harg8 zeroOff0_2]

/-- Tile 0: the accumulator is reset to zero and gains the tile's product, whatever it held; the output buffer is handed back as found. -/
theorem run0_A (c : Dev nD) (i : grid0.Coords)
    (arg2 : Memref sig .tc .vmem S1x512x2048 .bf16) (harg2 : arg2.IsWhole)
    (arg3 : Memref sig .tc .vmem S1x2048x128 .f32) (harg3 : arg3.IsWhole)
    (arg4 : Memref sig .tc .vmem S1x2048x128 .f32) (harg4 : arg4.IsWhole)
    (arg5 : Memref sig .tc .vmem S1x128x2048 .f32) (harg5 : arg5.IsWhole)
    (arg6 : Memref sig .tc .vmem S1x512x1 .f32) (harg6 : arg6.IsWhole)
    (arg7 : Memref sig .tc .vmem S1x512x2048 .f32) (harg7 : arg7.IsWhole)
    (arg8 : Memref sig .tc .vmem S512x2048 .f32) (harg8 : arg8.IsWhole)
    (hc0 : cond0_0 i) (hc1 : ¬k0_cond2 i = 1#1)
    (x0 : Vec F S1x512x2048 .bf16) (x1 : Vec F S1x2048x128 .f32) (x2 : Vec F S1x2048x128 .f32) (x3 : Vec F S1x128x2048 .f32)
    (x4 : Vec F S1x512x1 .f32) (y : Vec F S1x512x2048 .f32) (s : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
            ∗ owns (c : Thread nD τ) arg8 fullShare (k0_pay2 x0 x1 x2 x3 k0_pay1)) -∗ K ⟨⟩))
      ⊢ wp frame (wpE (defs₀ (F := F)) Variants.none c none) E (cc0__expert_ffn_kernel i arg2 harg2 arg3 harg3 arg4 harg4 arg5 harg5 arg6 harg6 arg7 harg7 arg8 harg8) K := by
  simp only [cc0__expert_ffn_kernel_eq_skeleton]; unfold cc0__expert_ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole_last0 _ _ zeroOff0_2 _ _ _).trans ?_
  rw [readAt_unread_whole0 arg2 harg2 zeroOff0_3, readAt_unread_whole0 arg3 harg3 zeroOff0_3, readAt_unread_whole0 arg4 harg4 zeroOff0_3, readAt_unread_whole0 arg5 harg5 zeroOff0_3]
  sl_unfold_run_names
  rw [View.readCov_unit_zero _ zeroOff0_2]

/-- Tile 10: the accumulator gains the tile's product, and the output buffer is stored the accumulator scaled by the combine weights. -/
theorem run0_C (c : Dev nD) (i : grid0.Coords)
    (arg2 : Memref sig .tc .vmem S1x512x2048 .bf16) (harg2 : arg2.IsWhole)
    (arg3 : Memref sig .tc .vmem S1x2048x128 .f32) (harg3 : arg3.IsWhole)
    (arg4 : Memref sig .tc .vmem S1x2048x128 .f32) (harg4 : arg4.IsWhole)
    (arg5 : Memref sig .tc .vmem S1x128x2048 .f32) (harg5 : arg5.IsWhole)
    (arg6 : Memref sig .tc .vmem S1x512x1 .f32) (harg6 : arg6.IsWhole)
    (arg7 : Memref sig .tc .vmem S1x512x2048 .f32) (harg7 : arg7.IsWhole)
    (arg8 : Memref sig .tc .vmem S512x2048 .f32) (harg8 : arg8.IsWhole)
    (hc0 : ¬cond0_0 i) (hc1 : k0_cond2 i = 1#1)
    (x0 : Vec F S1x512x2048 .bf16) (x1 : Vec F S1x2048x128 .f32) (x2 : Vec F S1x2048x128 .f32) (x3 : Vec F S1x128x2048 .f32)
    (x4 : Vec F S1x512x1 .f32) (y : Vec F S1x512x2048 .f32) (s : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k0_pay3 x4 (k0_pay2 x0 x1 x2 x3 s))
            ∗ owns (c : Thread nD τ) arg8 fullShare (k0_pay2 x0 x1 x2 x3 s)) -∗ K ⟨⟩))
      ⊢ wp frame (wpE (defs₀ (F := F)) Variants.none c none) E (cc0__expert_ffn_kernel i arg2 harg2 arg3 harg3 arg4 harg4 arg5 harg5 arg6 harg6 arg7 harg7 arg8 harg8) K := by
  simp only [cc0__expert_ffn_kernel_eq_skeleton]; unfold cc0__expert_ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole_last0 _ _ zeroOff0_3 _ _ _).trans ?_
    rw [readAt_unread_whole0 arg6 harg6 zeroOff0_3]
    sl_unfold_run_names
    rw [View.readCov_unit_zero _ zeroOff0_2]
    rw [readAt_unread_whole0 arg2 harg2 zeroOff0_3, readAt_unread_whole0 arg3 harg3 zeroOff0_3, readAt_unread_whole0 arg4 harg4 zeroOff0_3, readAt_unread_whole0 arg5 harg5 zeroOff0_3, readAt_unread_whole0 arg8 harg8 zeroOff0_2]
  iexists _; isplitr
  swap; · iexact HS
  ipureintro
  sl_unfold_run_names
  refine (read_writes_whole_last0 _ _ zeroOff0_2 _ _ _).trans ?_
  rw [readAt_unread_whole0 arg2 harg2 zeroOff0_3, readAt_unread_whole0 arg3 harg3 zeroOff0_3, readAt_unread_whole0 arg4 harg4 zeroOff0_3, readAt_unread_whole0 arg5 harg5 zeroOff0_3, readAt_unread_whole0 arg8 harg8 zeroOff0_2]

/-! ## Where the two conditions hold, over the grid -/

/-- The first condition holds at the points ≡ 0 (mod 11). -/
theorem hcond0_0 : ∀ t : Fin cfg0.N, cond0_0 (grid0.coords t) ↔ t.val % 11 = 0 :=
  (by decide +kernel : ∀ t : Fin grid0.N, cond0_0 (grid0.coords t) ↔ t.val % 11 = 0)
/-- The second condition holds at the points ≡ 10 (mod 11). -/
theorem hcond0_1 : ∀ t : Fin cfg0.N, k0_cond2 (grid0.coords t) = 1#1 ↔ t.val % 11 = 10 :=
  (by decide +kernel : ∀ t : Fin grid0.N, k0_cond2 (grid0.coords t) = 1#1 ↔ t.val % 11 = 10)
/-- Away from tile 10 the output window is idle and is not written back. -/
theorem idleAt0_5 : ∀ t : Fin cfg0.N, ¬k0_cond2 (grid0.coords t) = 1#1 → cfg0.idle 5 (grid0.coords t) = true := by decide +kernel
theorem noFlush0_5 : ∀ t : Fin cfg0.N, ¬k0_cond2 (grid0.coords t) = 1#1 → (cfg0.win 5).flush t = false := by decide +kernel
/-- At tile 10 it is live. -/
theorem liveAt0_5 : ∀ t : Fin cfg0.N, k0_cond2 (grid0.coords t) = 1#1 → cfg0.idle 5 (grid0.coords t) = false := by decide +kernel

/-! ## The invariant, by position -/

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0 fullShare (accAt V c n hn)
      ∗ Pipeline.scopedRestBut (Ix := Unit) (Name := ℕ) (U := UR sig nD τ) (Lvl := ℕ) (Val := Elt F) spec0 c [cc0_scratch0]
      ∗ (∃ r, prngReg c r)) := rfl

theorem PhiS_pos (c : Dev nD) (n : ℕ) (h : n ≤ cfg0.N) (hz : n ≠ 0) :
    PhiS V c n h = iprop(owns (c : Thread nD τ) scM0 fullShare (accAt V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- The launch's invariant with the accumulator split off the other scoped buffers. -/
theorem PhiA0_eq (c : Dev nD) :
    (Pipeline.ΦA spec0 c : sProp 𝕄)
      = iprop((∃ d, owns (c : Thread nD τ) scM0 fullShare d)
        ∗ Pipeline.scopedRestBut (Ix := Unit) (Name := ℕ) (U := UR sig nD τ) (Lvl := ℕ) (Val := Elt F) spec0 c [cc0_scratch0]
        ∗ (∃ r, prngReg c r)) := by
  unfold Pipeline.ΦA
  rw [Pipeline.scopedRest_split_of_list spec0 c [cc0_scratch0] (by decide) (by decide), bigSepL_singleton]
  simp only [scM0, owns_whole]
  have h₁ : ∀ (A B C : sProp 𝕄), iprop((A ∗ B) ∗ C) ⊢ iprop(A ∗ B ∗ C) := fun A B C => by
    iintro ⟨⟨HS, HR⟩, Hg⟩
    isplitl [HS]; · iexact HS
    isplitl [HR]; · iexact HR
    iexact Hg
  have h₂ : ∀ (A B C : sProp 𝕄), iprop(A ∗ B ∗ C) ⊢ iprop((A ∗ B) ∗ C) := fun A B C => by
    iintro ⟨HS, HR, Hg⟩
    isplitl [HS HR]
    · isplitl [HS]; · iexact HS
      iexact HR
    iexact Hg
  exact BI.equiv_iff.mp ⟨h₁ _ _ _, h₂ _ _ _⟩

/-! ## What the body finds in the input windows -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input's current buffer holds its block at every point, fetched there or not: unfetched, its block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body obligation, at a generic point -/

/-- Each window's current staging memref at point `t`, spelled as the pipeline passes it, and its wholeness. -/
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x2048 .f32 := win0_5.stage (cfg0.slots t 5)
abbrev hs0_5 (t : Fin cfg0.N) : (ms0_5 t).IsWhole := hstage0_5 ((cfg0.slots t 5).cast nbuf0_5)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the position in the period of 11 decides the case.
    At tile 0 the accumulator, whatever it holds (anything at the very first point, the previous expert's sum later), is reset;
    elsewhere it holds what the point before left. The invariant takes it back at this point's sum; the output's buffer is
    handed back untouched except at tile 10, where it holds the scaled sum. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 352 := lt_of_lt_of_eq t.isLt (show cfg0.N = 352 from N_0)
  by_cases h0 : t.val % 11 = 0
  · have h1 : ¬t.val % 11 = 10 := by omega
    rw [Dat.leavesExact_idle (dat0 V c) 5 t (idleAt0_5 t (fun h => h1 ((hcond0_1 t).mp h))) (noFlush0_5 t (fun h => h1 ((hcond0_1 t).mp h)))]
    rw [accAt_reset V c t h0]
    by_cases hz : t.val = 0
    · rw [PhiS_castSucc V c t, PhiS_zero V c _ _ hz, PhiA0_eq]
      iintro ⟨⟨⟨%s, HS⟩, HR, Hg⟩, Ho, ⟨%d0, H0⟩, ⟨%d1, H1⟩, ⟨%d2, H2⟩, ⟨%d3, H3⟩, ⟨%d4, H4⟩, ⟨%d5, H5⟩⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h))
        (iblk0 V c 0 t) (iblk0 V c 1 t) (iblk0 V c 2 t) (iblk0 V c 3 t) (iblk0 V c 4 t) ((dat0 V c).before 5 t d5) s Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h))
        (iblk0 V c 0 t) (iblk0 V c 1 t) (iblk0 V c 2 t) (iblk0 V c 3 t) (iblk0 V c 4 t) ((dat0 V c).before 5 t d5) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [accAt_step V c t h0]
    by_cases h1 : t.val % 11 = 10
    · rw [show (dat0 V c).leavesExact 5 t = owns (c : Thread nD τ) (ms0_5 t) fullShare ((dat0 V c).after 5 t) from by
        unfold Dat.leavesExact; rw [liveAt0_5 t ((hcond0_1 t).mpr h1)], after0_5]
      rw [accAt_step V c t h0]
      rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (run0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1)
        (iblk0 V c 0 t) (iblk0 V c 1 t) (iblk0 V c 2 t) (iblk0 V c 3 t) (iblk0 V c 4 t) ((dat0 V c).before 5 t d5) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idleAt0_5 t (fun h => h1 ((hcond0_1 t).mp h))) (noFlush0_5 t (fun h => h1 ((hcond0_1 t).mp h)))]
      rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (run0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h))
        (iblk0 V c 0 t) (iblk0 V c 1 t) (iblk0 V c 2 t) (iblk0 V c 3 t) (iblk0 V c 4 t) ((dat0 V c).before 5 t d5) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the routed-experts call, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS, HR, Hg⟩
  isplitl [HS]
  · iexists _; iexact HS
  isplitl [HR]; · iexact HR
  iexact Hg

/-- After the last point the invariant gives the launch's back: the accumulator's contents are forgotten. -/
theorem hout0 (c : Dev nD) : (dat0 V c).Φ (Fin.last cfg0.N) ⊢ Pipeline.ΦA spec0 c :=
  Phi_out0 V c _ (by rw [Fin.val_last]; have : cfg0.N = 352 := N_0; omega)

end Cert.KernelIdeal.Hand

end
-- ==== Proof.KI.Region1.lean ====
/-
  The shared feed-forward call (the second kernel region), at the contents `V` its core's buffers hold when it
  is entered: a grid of 64 row tiles; at tile `t` the body reads rows `64 t … 64 t + 63` of the activations and of
  the routed sum and the three weight matrices whole, and stores
  `(silu (x · Wg) ⊙ (x · Wu)) · Wd + routed` for those rows. Nothing is carried from tile to tile.
-/
import proofs.«402449_j23871428231438_3_alg».proof.Proof.Gen.KernelIdeal.Launch
import proofs.«402449_j23871428231438_3_alg».proof.Proof.Gen.KernelIdeal.Skeleton
import proofs.«402449_j23871428231438_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 64 × 2048 output tile, as the body's one store addresses it. -/
abbrev r1_out : Rect S64x2048 := Rect.unit (s := S64x2048) ![0, 0] S64x2048.size inb_S64x2048_S64x2048_0_0

/-- What the body leaves in the output tile: its one store, of the payload over the five loaded blocks. -/
def out1_5 (x0 : Vec F S64x2048 .bf16) (x1 x2 : Vec F S2048x2816 .bf16) (x3 : Vec F S2816x2048 .bf16) (x4 : Vec F S64x2048 .f32) :
    Vec F S64x2048 .f32 :=
  View.canon [⟨r1_out, k1_pay1 x0 x1 x2 x3 x4⟩]

/-- The proof data of the shared feed-forward pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- The two offsets of a whole tile are zero. -/
theorem zero_offsets1 : (![0, 0] : Fin 2 → Nat) = fun _ => 0 := funext fun a => by fin_cases a <;> rfl

/-- The stored tile is the payload itself. -/
theorem out1_5_eq (x0 : Vec F S64x2048 .bf16) (x1 x2 : Vec F S2048x2816 .bf16) (x3 : Vec F S2816x2048 .bf16) (x4 : Vec F S64x2048 .f32) :
    out1_5 x0 x1 x2 x3 x4 = k1_pay1 x0 x1 x2 x3 x4 := by
  unfold out1_5
  exact View.canon_unit_zero (S := S64x2048) zero_offsets1 inb_S64x2048_S64x2048_0_0 _

/-! ## What the body finds in the five input tiles

An input window's staging buffer holds the window's block at every tile, whether the tile fetched it (the
activations and the routed sum, at every tile) or it has been lying there since the first tile (the three weight
matrices, whose block index never moves): a window that is not fetched has the block index of the tile before. -/

theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

theorem found1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hkeep : ∀ t, (cfg1.win 3).cut (cfg1.grid.coords t) (dat.after 3 t) = dat.blockOf 3 t := fun t => by
    rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl

theorem found1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  have hkeep : ∀ t, (cfg1.win 4).cut (cfg1.grid.coords t) (dat.after 4 t) = dat.blockOf 4 t := fun t => by
    rw [hafter]; unfold Dat.blockOf iblk1; rw [hA]; try rfl
  rw [dat.before_in_eq_fetched 4 rfl (fun _ => rfl) (fun _ _ _ => rfl) hkeep t d]
  unfold Dat.fetched Dat.blockOf iblk1; rw [hA]; try rfl

/-! ## The body on its six staging buffers -/

/-- A load of a whole buffer (the unit rectangle at zero offsets over the buffer's own sizes) reads its contents. -/
theorem load_whole1 {κ : Kind} {sp : Space} {S : Shape} {e : EltTy} (v : View sig κ sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

/-- One store of a whole buffer leaves its payload there, whatever the buffer held. -/
theorem store_whole1 {κ : Kind} {sp : Space} {S : Shape} {e : EltTy} (v : View sig κ sp S e) (f : v.ty.Contents (Elt F))
    {off : Fin S.rank → Nat} (hz : off = fun _ => 0) (inb : ∀ a, off a + S.size a ≤ S.size a) (p : S.Idx → Elt F e) :
    v.read (Elt F) (v.writes (Elt F) f [⟨Rect.unit off S.size inb, p⟩]) = p := by
  rw [View.read_writes_eq_canon v f _ (fun y => ⟨_, List.mem_singleton_self _, View.mem_set_unit_zero hz inb y⟩)]
  exact View.canon_unit_zero hz inb p

set_option maxHeartbeats 1000000 in
/-- The body, on whole staging buffers holding the five inputs at x0 … x4 and the output tile at anything, leaves the
    inputs as they were and the output tile at out1_5 of them: five whole-buffer loads, one idle load of the output
    buffer, one whole-buffer store. -/
theorem kernel_triple1 (c : Dev nD) (E : Set ℕ) (i : grid1.Coords)
    (a0 : Memref sig .tc .vmem S64x2048 .bf16) (h0 : a0.IsWhole) (a1 : Memref sig .tc .vmem S2048x2816 .bf16) (h1 : a1.IsWhole)
    (a2 : Memref sig .tc .vmem S2048x2816 .bf16) (h2 : a2.IsWhole) (a3 : Memref sig .tc .vmem S2816x2048 .bf16) (h3 : a3.IsWhole)
    (a4 : Memref sig .tc .vmem S64x2048 .f32) (h4 : a4.IsWhole) (a5 : Memref sig .tc .vmem S64x2048 .f32) (h5 : a5.IsWhole)
    (x0 : Vec F S64x2048 .bf16) (x1 x2 : Vec F S2048x2816 .bf16) (x3 : Vec F S2816x2048 .bf16) (x4 : Vec F S64x2048 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__shared_ffn_kernel i a0 h0 a1 h1 a2 h2 a3 h3 a4 h4 a5 h5) K := by
  simp only [cc1__shared_ffn_kernel_eq_skeleton]; unfold cc1__shared_ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  rw [store_whole1 a5.view f5 zero_offsets1, out1_5_eq,
    load_whole1 a0.view f0 zero_offsets1, load_whole1 a1.view f1 zero_offsets1, load_whole1 a2.view f2 zero_offsets1,
    load_whole1 a3.view f3 zero_offsets1, load_whole1 a4.view f4 zero_offsets1]

/-! ## The body at a tile -/

/-- What the body leaves in the five input tiles is what it found there (the proof data's table, read off). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- So each input tile holds its window's block when the body runs, at every tile. -/
theorem held1_0 (c : Dev nD) (t : Fin cfg1.N) (d) : (dat1 V c).before 0 t d = iblk1 V c 0 t :=
  found1_0 V (dat1 V c) (A_eq1 V c 0) (after1_0 V c) t d
theorem held1_1 (c : Dev nD) (t : Fin cfg1.N) (d) : (dat1 V c).before 1 t d = iblk1 V c 1 t :=
  found1_1 V (dat1 V c) (A_eq1 V c 1) (after1_1 V c) t d
theorem held1_2 (c : Dev nD) (t : Fin cfg1.N) (d) : (dat1 V c).before 2 t d = iblk1 V c 2 t :=
  found1_2 V (dat1 V c) (A_eq1 V c 2) (after1_2 V c) t d
theorem held1_3 (c : Dev nD) (t : Fin cfg1.N) (d) : (dat1 V c).before 3 t d = iblk1 V c 3 t :=
  found1_3 V (dat1 V c) (A_eq1 V c 3) (after1_3 V c) t d
theorem held1_4 (c : Dev nD) (t : Fin cfg1.N) (d) : (dat1 V c).before 4 t d = iblk1 V c 4 t :=
  found1_4 V (dat1 V c) (A_eq1 V c 4) (after1_4 V c) t d

set_option maxHeartbeats 1000000 in
/-- The body at tile t: the five input buffers hold their blocks, the output buffer anything; the body's triple gives
    the six buffers back, the output at the payload of the five blocks. The pipeline's invariant and what the core owes
    are not touched. -/
theorem tile_run1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)
            ∗ owns (c : Thread nD τ) (st1_4 t) fullShare ((dat1 V c).after 4 t)
            ∗ owns (c : Thread nD τ) (st1_5 t) fullShare ((dat1 V c).after 5 t))) := by
  unfold bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (kernel_triple1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the shared feed-forward call, at every tile. -/
theorem body_obligation1 (c : Dev nD) : BodyObligation (dat1 (F := F) V c) (defs₀ (F := F)) Variants.none () Set.univ := fun t => by
  rw [bigSep_W1, bigSep_W1]
  exact tile_run1 V c t

end Cert.KernelIdeal.Hand

end
-- ==== Proof.KI.Run.lean ====
/-
  The whole run of @main: five stretches of host operations, the routed-experts call, three more stretches, the shared
  feed-forward call, and the closing reshape. The contents of the core's buffers are followed from the launch memory
  through every item (the generated valuations `V0 … V11`); what a kernel region leaves in its output array is what its
  pipeline's write-backs leave (`Dat.arrAt` at the last point). Every weakly fair execution terminates, and at the end
  every unscoped buffer holds the last valuation's contents: the arguments as launched, the result as computed.
-/
import proofs.«402449_j23871428231438_3_alg».proof.Proof.Gen.KernelIdeal.Launch
import proofs.«402449_j23871428231438_3_alg».proof.Proof.Gen.KernelIdeal.Skeleton
import proofs.«402449_j23871428231438_3_alg».proof.Proof.Gen.KernelIdeal.Points
import proofs.«402449_j23871428231438_3_alg».proof.Proof.Gen.KernelIdeal.Regions
import proofs.«402449_j23871428231438_3_alg».proof.Proof.KI.Region0
import proofs.«402449_j23871428231438_3_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the two regions are entered from, and what they leave -/

/-- What the routed-experts call is entered from: the launch memory after the first five stretches of host operations. -/
abbrev Ve0 : (c : Dev nD) → (b : Ref sig .tc) → Buf (Elt F) ((c : Thread nD τ).loc b) := fun c b => V5 m c b

/-- What the routed-experts call leaves: its arrays at what its write-backs leave, every other buffer as entered. -/
def outs6 : Outs (F := F) := fun _ r c =>
  Pipeline.withArrays spec0 c (V5 m c) (fun w => (dat0 (Ve0 m) c).arrAt w cfg0.N) (Proc.devRef .tc r)

/-- What the shared feed-forward call is entered from. -/
abbrev Ve1 : (c : Dev nD) → (b : Ref sig .tc) → Buf (Elt F) ((c : Thread nD τ).loc b) := fun c b => V9 m (outs6 m) c b

/-- What the two regions leave in the buffers they may change: the unknowns the generated valuations are written over. -/
def outs : Outs (F := F) := fun j r c =>
  if j = 10 then Pipeline.withArrays spec1 c (V9 m (outs6 m) c) (fun w => (dat1 (Ve1 m) c).arrAt w cfg1.N) (Proc.devRef .tc r)
  else outs6 m j r c

/-- Item 5 is not item 9: at the routed-experts call's exit the unknowns are that call's own. -/
theorem outs_at_6 (c : Dev nD) : outs m 6 main_v22 c = outs6 m 6 main_v22 c := by
  unfold outs
  rw [if_neg (by decide)]

/-- The routed-experts call's result array after the region: what its write-backs leave. -/
theorem outs_6 (c : Dev nD) : outs m 6 main_v22 c = (dat0 (Ve0 m) c).arrAt 5 cfg0.N := by
  rw [outs_at_6]
  unfold outs6
  exact Pipeline.withArrays_arr spec0 launch0.win.arr_inj c _ _ 5

/-- The shared call is entered from the valuation written over `outs`. -/
theorem V9_outs (c : Dev nD) : V9 m (outs m) c = V9 m (outs6 m) c := by
  have h6 : V6 m (outs m) c = V6 m (outs6 m) c := by
    show Function.update (V5 m c) _ (outs m 6 main_v22 c) = Function.update (V5 m c) _ (outs6 m 6 main_v22 c)
    rw [outs_at_6]
  show StableHlo.after hostOps1_2 (StableHlo.after hostOps1_1 (StableHlo.after hostOps1 (V6 m (outs m) c))) = _
  rw [h6]

/-- The shared call's result array after the region: what its write-backs leave. -/
theorem outs_10 (c : Dev nD) : outs m 10 main_v38 c = (dat1 (Ve1 m) c).arrAt 5 cfg1.N := by
  unfold outs
  rw [if_pos rfl]
  exact Pipeline.withArrays_arr spec1 launch1.win.arr_inj c _ _ 5

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-! ## A region's exit contents: its result array at what the write-backs leave, every other buffer as entered -/

/-- The routed-experts call's exit contents, read at the core's references. -/
abbrev Vx0 : (c : Dev nD) → (b : Ref sig .tc) → Buf (Elt F) ((c : Thread nD τ).loc b) := fun c b => V6 m (outs m) c b

/-- The shared call's exit contents, read at the core's references. -/
abbrev Vx1 : (c : Dev nD) → (b : Ref sig .tc) → Buf (Elt F) ((c : Thread nD τ).loc b) := fun c b => V10 m (outs m) c b

/-- An array the routed-experts call only reads holds at the exit what it held at the entry: no write-back touches it,
    and the exit valuation differs from the entry's at the result array alone. -/
theorem exit0_read (c : Dev nD) (w : Fin cfg0.W) (r : Ref sig .tc) (hr : Pipeline.arrRef spec0 w = r)
    (hin : (cfg0.win w).isOut = false) (hne : r ∉ ([main_v22] : List (Ref sig .tc))) :
    HEq ((dat0 (Ve0 m) c).arrAt w cfg0.N) (V6 m (outs m) c r) := by
  subst hr
  exact heq_of_eq (((dat0 (Ve0 m) c).arrAt_in w hin _).trans ((A_eq0 (Ve0 m) c w).trans (V6_of m (outs m) c _ hne).symm))

/-- Every array of the routed-experts call at the exit: the five it reads as entered, its result as the write-backs leave it. -/
theorem exit0_arrays (c : Dev nD) : ∀ w : Fin 6, (dat0 (Ve0 m) c).arrAt w cfg0.N = Vx0 m c (Pipeline.arrRef spec0 w) := fun
  | 0 => eq_of_heq (exit0_read m c 0 main_v12 rfl rfl (by decide))
  | 1 => eq_of_heq (exit0_read m c 1 main_arg3 rfl rfl (by decide))
  | 2 => eq_of_heq (exit0_read m c 2 main_arg4 rfl rfl (by decide))
  | 3 => eq_of_heq (exit0_read m c 3 main_arg5 rfl rfl (by decide))
  | 4 => eq_of_heq (exit0_read m c 4 main_v21 rfl rfl (by decide))
  | 5 => (outs_6 m c).symm.trans (Function.update_self (Proc.devRef (τ := τ) .tc main_v22) (outs m 6 main_v22 c) (V5 m c)).symm
  | ⟨_ + 6, h⟩ => absurd h (Nat.not_lt.2 (Nat.le_add_left _ _))

/-- Off the routed-experts call's arrays the exit valuation is the entry's. -/
theorem exit0_rest (c : Dev nD) : ∀ b, b ∉ Finset.univ.image (Pipeline.arrRef spec0) → Vx0 m c b = Ve0 m c b :=
  fun b hb => V6_of m (outs m) c b fun h =>
    hb (Finset.mem_image.mpr ⟨5, Finset.mem_univ _, (List.mem_singleton.mp h).symm⟩)

/-- An array the shared call only reads holds at the exit what it held at the entry. -/
theorem exit1_read (c : Dev nD) (w : Fin cfg1.W) (r : Ref sig .tc) (hr : Pipeline.arrRef spec1 w = r)
    (hin : (cfg1.win w).isOut = false) (hne : r ∉ ([main_v38] : List (Ref sig .tc))) :
    HEq ((dat1 (Ve1 m) c).arrAt w cfg1.N) (V10 m (outs m) c r) := by
  subst hr
  refine heq_of_eq (((dat1 (Ve1 m) c).arrAt_in w hin _).trans ((A_eq1 (Ve1 m) c w).trans ?_))
  rw [V10_of m (outs m) c _ hne, V9_outs]

/-- Every array of the shared call at the exit: the five it reads as entered, its result as the write-backs leave it. -/
theorem exit1_a0 (c : Dev nD) : (dat1 (Ve1 m) c).arrAt 0 cfg1.N = Vx1 m c main_v34 := eq_of_heq (exit1_read m c 0 main_v34 rfl rfl (by decide))
theorem exit1_a1 (c : Dev nD) : (dat1 (Ve1 m) c).arrAt 1 cfg1.N = Vx1 m c main_v35 := eq_of_heq (exit1_read m c 1 main_v35 rfl rfl (by decide))
theorem exit1_a2 (c : Dev nD) : (dat1 (Ve1 m) c).arrAt 2 cfg1.N = Vx1 m c main_v36 := eq_of_heq (exit1_read m c 2 main_v36 rfl rfl (by decide))
theorem exit1_a3 (c : Dev nD) : (dat1 (Ve1 m) c).arrAt 3 cfg1.N = Vx1 m c main_v37 := eq_of_heq (exit1_read m c 3 main_v37 rfl rfl (by decide))
theorem exit1_a4 (c : Dev nD) : (dat1 (Ve1 m) c).arrAt 4 cfg1.N = Vx1 m c main_v33 := eq_of_heq (exit1_read m c 4 main_v33 rfl rfl (by decide))
theorem exit1_a5 (c : Dev nD) : (dat1 (Ve1 m) c).arrAt 5 cfg1.N = Vx1 m c main_v38 :=
  (outs_10 m c).symm.trans (Function.update_self (Proc.devRef (τ := τ) .tc main_v38) (outs m 10 main_v38 c) (V9 m (outs m) c)).symm
theorem exit1_arrays (c : Dev nD) : ∀ w : Fin 6, (dat1 (Ve1 m) c).arrAt w cfg1.N = Vx1 m c (Pipeline.arrRef spec1 w) := fun
  | 0 => exit1_a0 m c
  | 1 => exit1_a1 m c
  | 2 => exit1_a2 m c
  | 3 => exit1_a3 m c
  | 4 => exit1_a4 m c
  | 5 => exit1_a5 m c
  | ⟨_ + 6, h⟩ => absurd h (Nat.not_lt.2 (Nat.le_add_left _ _))

/-- Off the shared call's arrays the exit valuation is the entry's. -/
theorem exit1_rest (c : Dev nD) : ∀ b, b ∉ Finset.univ.image (Pipeline.arrRef spec1) → Vx1 m c b = Ve1 m c b :=
  fun b hb => (V10_of m (outs m) c b fun h =>
    hb (Finset.mem_image.mpr ⟨5, Finset.mem_univ _, (List.mem_singleton.mp h).symm⟩)).trans (by rw [V9_outs])

/-! ## What rides beside the buffers -/

/-- No variant is in play. -/
abbrev Vr : Variants := Variants.none
/-- No core owes another anything: no pair is assigned a level. -/
abbrev Lp : GSem nD τ sig → Finset Unit := fun _ => ∅
abbrev Lw : GSem nD τ sig → Unit → ℕ := fun _ _ => 0

/-- Beside the buffers, between any two items: the core's generator register at some state (a region's invariant takes it
    in and gives it back) and the core owing nothing. -/
abbrev Beside (c : Dev nD) : sProp 𝕄 :=
  iprop((∃ r, prngReg c r) ∗ ∃ W, owes (c : Thread nD τ) (0 : CellTallies nD τ sig Unit) W)
/-- The same in each of the three stretches the two regions cut @main into. -/
abbrev Besides : Fin 3 → Dev nD → sProp 𝕄 := fun _ c => Beside (F := F) c

/-! ## The regions as segments -/

/-- The generator register and the scoped buffers no window stages are the launch's invariant of the routed-experts call
    (no table is prefetched, so the tables' part is dropped). -/
theorem enter0 (c : Dev nD) :
    (iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) : sProp 𝕄)
      ⊢ Pipeline.ΦA spec0 c := by
  unfold Pipeline.ΦA
  iintro ⟨Hprng, -, Hscoped⟩
  isplitl [Hscoped]; · iexact Hscoped
  iexact Hprng

/-- The launch's invariant gives the generator register and those scoped buffers back. -/
theorem leave0 (c : Dev nD) :
    (Pipeline.ΦA spec0 c : sProp 𝕄)
      ⊢ iprop((∃ r, prngReg c r) ∗ BI.emp
        ∗ Pipeline.scopedRest (Ix := Unit) (Name := ℕ) (U := UR sig nD τ) (Lvl := ℕ) (Val := Elt F) spec0 c) := by
  unfold Pipeline.ΦA
  iintro ⟨Hscoped, Hprng⟩
  isplitl [Hprng]; · iexact Hprng
  isplitr; · iempintro
  iexact Hscoped

set_option backward.isDefEq.respectTransparency.types false in
/-- THE ROUTED-EXPERTS CALL over the thread state: entered from every unscoped buffer at `V5`, left at `V6`. Its six arrays
    are split out of the unscoped buffers and put back at the exit contents; the generator register and the scoped rest
    make the invariant before the first point, and the invariant after the last point gives them back (the accumulator's
    last contents forgotten); nothing is owed; the kernel has no semaphore of its own. -/
def segRouted : RegionSeg (pcfgs (F := F)) adm (pdats m) () defs₀ Vr Lp Lw 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ Lp Lw 0 fun _ _ => rfl
  pre c := iprop(StableHlo.held (c : Thread nD τ) (Pipeline.ucRefs τ sig) (V5 m c) ∗ Beside c)
  post c := iprop(StableHlo.held (c : Thread nD τ) (Pipeline.ucRefs τ sig) (V6 m (outs m) c) ∗ Beside c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun w => A_eq0 (Ve0 m) c w
    rw [Pipeline.unscopedBufs_held c (V5 m c)] at hsplit
    iintro ⟨⟨Hbufs, Hprng, Howes⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hprng]; · iexact Hprng
    iexact Hrest
  hin c := (enter0 c).trans (hin0 (Ve0 m) c)
  hout c := by
    rw [Pipeline.ownSems0_none]
    exact (hout0 (Ve0 m) c).trans (leave0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (exit0_arrays m c) (exit0_rest m c)
    rw [Pipeline.unscopedBufs_held c (V6 m (outs m) c)] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

set_option backward.isDefEq.respectTransparency.types false in
/-- THE SHARED FEED-FORWARD CALL over the thread state: entered from every unscoped buffer at `V9`, left at `V10`. Its
    invariant is the plain one at every tile (the scoped rest and the generator register), so entering and leaving it
    only reorders the two. -/
def segShared : RegionSeg (pcfgs (F := F)) adm (pdats m) () defs₀ Vr Lp Lw 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ Lp Lw 1 fun _ _ => rfl
  pre c := iprop(StableHlo.held (c : Thread nD τ) (Pipeline.ucRefs τ sig) (V9 m (outs m) c) ∗ Beside c)
  post c := iprop(StableHlo.held (c : Thread nD τ) (Pipeline.ucRefs τ sig) (V10 m (outs m) c) ∗ Beside c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V9_outs m c]
    have hsplit := Pipeline.arrays_of_unscopedBufs (p := 1) (pcfgs (F := F)) adm (pdats m) launch1.win launch1.arr_whole c
      ((pdats m 1 c).share_full fun _ => rfl) (Ve1 m c) fun w => A_eq1 (Ve1 m) c w
    rw [Pipeline.unscopedBufs_held c (V9 m (outs6 m) c)] at hsplit
    iintro ⟨⟨Hbufs, Hprng, Howes⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hprng]; · iexact Hprng
    iexact Hrest
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (exit1_arrays m c) (exit1_rest m c)
    rw [Pipeline.unscopedBufs_held c (V10 m (outs m) c)] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ## The run -/

/-- An unscoped reference of the core is among those the thread state holds. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every final
    state holds every unscoped buffer of every core at the last valuation's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = V11 m (outs m) c b) := by
  refine Pipeline.θ_run_regions_kit_dev (pcfgs (F := F)) adm (pdats m) () cellOf_inj emb₁ defs₀ Vr Lp Lw m ρ main
    (segs m (outs m) Vr Lp Lw (Besides (F := F)) () (pdats m) (segRouted m) (segShared m))
    (fun c Q => by
      rewrite [main_chain c, Seg.run_eq_chain,
        show (segs m (outs m) Vr Lp Lw (Besides (F := F)) () (pdats m) (segRouted m) (segShared m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Beside c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, sep_mono .rfl ?_⟩)
    (hinit := ?_)
    (QY := fun c s => ∀ b ∈ Pipeline.ucRefs τ sig, s.mem ((c : Thread nD τ).1, b) = V11 m (outs m) c b)
    (hfin := fun c s' => ?_) (hQ := fun _ h => h)
  · -- the launch element is the pipelines' own; no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- after the last stretch the generator register is let go; the core owes nothing
    iintro ⟨-, Howes⟩; iexact Howes
  · -- the launch: each core's unscoped buffers are held at the launch memory, its register at the launch state, nothing owed
    refine Pipeline.initEach Lp Lw fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Howes, -, Hprng, -⟩, -⟩
    imodintro
    isplitl [Hbufs]; · iexact Hbufs
    isplitl [Hprng]; · iexists _; iexact Hprng
    iexists ∅; iexact Howes
  · -- the end: every held buffer read against the final state
    iintro ⟨Hbufs, HSI⟩
    unfold StableHlo.held
    imodintro
    iapply (pointsTo_read_all (Pipeline.ucRefs τ sig) (fun b => (((c : Thread nD τ)).1, b)) (V11 m (outs m) c) s')
    isplitl [Hbufs] <;> iassumption

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_held main_arg0 (by decide))).trans (V11_main_arg0 m (outs m) c),
    (h c _ (mem_held main_arg1 (by decide))).trans (V11_main_arg1 m (outs m) c),
    (h c _ (mem_held main_arg2 (by decide))).trans (V11_main_arg2 m (outs m) c),
    (h c _ (mem_held main_arg3 (by decide))).trans (V11_main_arg3 m (outs m) c),
    (h c _ (mem_held main_arg4 (by decide))).trans (V11_main_arg4 m (outs m) c),
    (h c _ (mem_held main_arg5 (by decide))).trans (V11_main_arg5 m (outs m) c),
    (h c _ (mem_held main_arg6 (by decide))).trans (V11_main_arg6 m (outs m) c),
    (h c _ (mem_held main_arg7 (by decide))).trans (V11_main_arg7 m (outs m) c),
    (h c _ (mem_held main_arg8 (by decide))).trans (V11_main_arg8 m (outs m) c)⟩) (run_all m ρ)

/-- The run with its result named: the result array ends at the last valuation's contents, the arguments as launched. -/
theorem run_value : θ_run defs (onTc (τ := τ) (main (F := F))) ⟨m, fun _ => 0, ρ⟩ (fun r => ∀ c : Dev nD,
      r.2.mem ((c.tc : Thread nD τ).loc main_v39) = V11 m (outs m) c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    h c _ (mem_held main_v39 (by decide)),
    (h c _ (mem_held main_arg0 (by decide))).trans (V11_main_arg0 m (outs m) c),
    (h c _ (mem_held main_arg1 (by decide))).trans (V11_main_arg1 m (outs m) c),
    (h c _ (mem_held main_arg2 (by decide))).trans (V11_main_arg2 m (outs m) c),
    (h c _ (mem_held main_arg3 (by decide))).trans (V11_main_arg3 m (outs m) c),
    (h c _ (mem_held main_arg4 (by decide))).trans (V11_main_arg4 m (outs m) c),
    (h c _ (mem_held main_arg5 (by decide))).trans (V11_main_arg5 m (outs m) c),
    (h c _ (mem_held main_arg6 (by decide))).trans (V11_main_arg6 m (outs m) c),
    (h c _ (mem_held main_arg7 (by decide))).trans (V11_main_arg7 m (outs m) c),
    (h c _ (mem_held main_arg8 (by decide))).trans (V11_main_arg8 m (outs m) c)⟩) (run_all m ρ)

end Cert.KernelIdeal.Hand

end
-- ==== Proof.KIV.Spec.lean ====
/-
  What the layer computes, as functions of the argument arrays over the extended reals, index by index.
  A token's activations meet an expert's three weight matrices as  (silu (x · G) ⊙ (x · U)) · D ; the routed part sorts the
  16384 (token, choice) slots by expert, runs slot `j` of the sorted order through expert `j / 512`, scales it by the slot's
  combine weight and sums a token's four slots; the shared part is the same product with the shared weights; the layer is
  their sum. The sorting enters only through three index maps: `gs j`, the slot that sorts to position `j`; `gr j`, the token
  row the kernel gathers for position `j`; `gi p`, the position slot `p` sorts to. The two programs differ in where the combine
  weight is applied (before or after the slots are scattered back), in which row map feeds the experts, and in the order of
  the last sum; under `gr j = gs j / 4` and `gs (gi p) = p` they are one function (`spec_eq`, in the bridge module).
-/
import Idealize.ShloMosaic.PureOps.Ideal
import Idealize.ShloMosaic.Lib.ValueIdx

noncomputable section

open scoped BigOperators

namespace Cert.KernelIdeal.HandV

open Idealize.ShloMosaic Idealize.ShloMosaic.ValueIdx

/-- Arrays of extended reals of rank 2 and 3, over literal extents. -/
abbrev A2 (n0 n1 : Nat) : Type := (⟨2, ![n0, n1]⟩ : Shape).Idx → EReal
abbrev A3 (n0 n1 n2 : Nat) : Type := (⟨3, ![n0, n1, n2]⟩ : Shape).Idx → EReal

/-- `silu g · u`, with `silu g = g · logistic g`. -/
def gated (g u : EReal) : EReal := g * Ideal.logistic g * u

/-- One row against a gate column and an up column: `silu (row · gcol) · (row · ucol)`. -/
def hidden {K : Nat} (row gcol ucol : Fin K → EReal) : EReal :=
  gated (∑ k : Fin K, row k * gcol k) (∑ k : Fin K, row k * ucol k)

/-! ## The two kernel regions as functions of their operand arrays -/

/-- The routed-experts call at (expert, row, column): the row's feed-forward through the expert's weights, times the row's weight. -/
def routedAt (xb : A3 32 512 2048) (G U : A3 32 2048 1408) (D : A3 32 1408 2048) (ws : A3 32 512 1)
    (e : Fin 32) (r : Fin 512) (d : Fin 2048) : EReal :=
  (∑ f : Fin 1408, hidden (fun k : Fin 2048 => xb (ix3 e r k)) (fun k => G (ix3 e k f)) (fun k => U (ix3 e k f)) * D (ix3 e f d))
    * ws (ix3 e r (0 : Fin 1))

/-- … as an array. -/
def routedSpec (xb : A3 32 512 2048) (G U : A3 32 2048 1408) (D : A3 32 1408 2048) (ws : A3 32 512 1) : A3 32 512 2048 :=
  fun i => routedAt xb G U D ws (i 0) (i 1) (i 2)

/-- The shared feed-forward call at (token, column): the token's feed-forward through the shared weights, plus the routed sum. -/
def sharedAt (x : A2 4096 2048) (wg wu : A2 2048 2816) (wd : A2 2816 2048) (r : A2 4096 2048) (t : Fin 4096) (d : Fin 2048) : EReal :=
  (∑ f : Fin 2816, hidden (fun k : Fin 2048 => x (ix2 t k)) (fun k => wg (ix2 k f)) (fun k => wu (ix2 k f)) * wd (ix2 f d))
    + r (ix2 t d)

/-- … as an array. -/
def sharedSpec (x : A2 4096 2048) (wg wu : A2 2048 2816) (wd : A2 2816 2048) (r : A2 4096 2048) : A2 4096 2048 :=
  fun i => sharedAt x wg wu wd r (i 0) (i 1)

/-! ## Slots, positions, tokens -/

/-- Position `512 e + r` of the sorted order: row `r` of expert `e`'s group. -/
def slot (e : Fin 32) (r : Fin 512) : Fin 16384 := ⟨512 * e.val + r.val, by omega⟩
/-- Slot `4 t + k`: token `t`'s choice `k`. -/
def slotOf (t : Fin 4096) (k : Fin 4) : Fin 16384 := ⟨4 * t.val + k.val, by omega⟩
def expOf (j : Fin 16384) : Fin 32 := ⟨j.val / 512, by omega⟩
def rowOf (j : Fin 16384) : Fin 512 := ⟨j.val % 512, by omega⟩
def tokOf (j : Fin 16384) : Fin 4096 := ⟨j.val / 4, by omega⟩
def kOf (j : Fin 16384) : Fin 4 := ⟨j.val % 4, by omega⟩
/-- Token `2048 b + l`. -/
def tokenOf (b : Fin 2) (l : Fin 2048) : Fin 4096 := ⟨2048 * b.val + l.val, by omega⟩

/-- The activations with batch and sequence flattened: row `t` is `X[t / 2048, t % 2048, ·]`. -/
def xflatAt (X : A3 2 2048 2048) (t : Fin 4096) (k : Fin 2048) : EReal :=
  X (ix3 (⟨t.val / 2048, by omega⟩ : Fin 2) (⟨t.val % 2048, by omega⟩ : Fin 2048) k)
def xflat (X : A3 2 2048 2048) : A2 4096 2048 := fun i => xflatAt X (i 0) (i 1)

section Maps

variable (gs gi : Fin 16384 → Fin 16384) (gr : Fin 16384 → Fin 4096)

/-! ## The kernel's program -/

/-- The rows the kernel feeds the experts: position `(e, r)` takes token row `gr (slot e r)`. -/
def xbK (X : A3 2 2048 2048) : A3 32 512 2048 := fun i => xflatAt X (gr (slot (i 0) (i 1))) (i 2)
/-- The combine weights in sorted order: position `(e, r)` takes the weight of slot `gs (slot e r)`. -/
def wsK (W : A2 4096 4) : A3 32 512 1 := fun i => W (ix2 (tokOf (gs (slot (i 0) (i 1)))) (kOf (gs (slot (i 0) (i 1)))))
/-- The kernel's routed sum: a token's four slots read back from the (already weighted) expert outputs. -/
def routedSumK (X : A3 2 2048 2048) (W : A2 4096 4) (G U : A3 32 2048 1408) (D : A3 32 1408 2048) : A2 4096 2048 :=
  fun i => 0 + ∑ k : Fin 4, routedAt (xbK gr X) G U D (wsK gs W) (expOf (gi (slotOf (i 0) k))) (rowOf (gi (slotOf (i 0) k))) (i 1)
/-- The kernel's result. -/
def Kspec (X : A3 2 2048 2048) (W : A2 4096 4) (G U : A3 32 2048 1408) (D : A3 32 1408 2048)
    (SG SU : A2 2048 2816) (SD : A2 2816 2048) : A3 2 2048 2048 :=
  fun i => sharedAt (xflat X) SG SU SD (routedSumK gs gi gr X W G U D) (tokenOf (i 0) (i 1)) (i 2)

/-! ## The reference's program -/

/-- The reference's expert output at position `j`, unweighted: token row `gs j / 4` through expert `j / 512`. -/
def expertAtR (X : A3 2 2048 2048) (G U : A3 32 2048 1408) (D : A3 32 1408 2048) (j : Fin 16384) (d : Fin 2048) : EReal :=
  ∑ f : Fin 1408, hidden (fun k : Fin 2048 => xflatAt X (tokOf (gs j)) k) (fun k => G (ix3 (expOf j) k f)) (fun k => U (ix3 (expOf j) k f))
    * D (ix3 (expOf j) f d)
/-- The reference's routed sum: a token's four slots read back and weighted. -/
def routedSumAtR (X : A3 2 2048 2048) (W : A2 4096 4) (G U : A3 32 2048 1408) (D : A3 32 1408 2048) (t : Fin 4096) (d : Fin 2048) : EReal :=
  0 + ∑ k : Fin 4, expertAtR gs X G U D (gi (slotOf t k)) d * W (ix2 t k)
/-- The reference's result. -/
def Rspec (X : A3 2 2048 2048) (W : A2 4096 4) (G U : A3 32 2048 1408) (D : A3 32 1408 2048)
    (SG SU : A2 2048 2816) (SD : A2 2816 2048) : A3 2 2048 2048 :=
  fun i => routedSumAtR gs gi X W G U D (tokenOf (i 0) (i 1)) (i 2)
    + ∑ f : Fin 2816, hidden (fun k : Fin 2048 => xflatAt X (tokenOf (i 0) (i 1)) k) (fun k => SG (ix2 k f)) (fun k => SU (ix2 k f)) * SD (ix2 f (i 2))

end Maps

end Cert.KernelIdeal.HandV

end
-- ==== Proof.KIV.Index.lean ====
/-
  The three index maps of the routing, as the programs compute them on the host. The 16384 expert ids (slot `4 t + k` is
  token `t`'s choice `k`) are sorted stably beside their positions `0 … 16383`; the positions in sorted order are the
  SORTING PERMUTATION; sorting that permutation beside `0 … 16383` again gives its INVERSE. An index read by a gather is first
  wrapped when negative (jnp's indexing) and then clamped into the array. Every word here is a position below 16384, so
  the wraps and clamps are idle, floor division by 4 is division by 4, and the second sort inverts the first.
-/
import proofs.«402449_j23871428231438_3_alg».proof.KernelIdeal
import proofs.«402449_j23871428231438_3_alg».proof.Proof.Gen.KernelIdeal
import proofs.«402449_j23871428231438_3_alg».proof.Proof.KIV.Spec
import Idealize.ShloMosaic.Lib.SortFacts
import Idealize.ShloMosaic.Lib.ValueIdx

noncomputable section

namespace Cert.KernelIdeal.HandV

open Cert.KernelIdeal Idealize.ShloMosaic Idealize.ShloMosaic.ValueIdx

/-- jnp's wrap of a negative index by the axis length `n`, on one word. -/
def wrapW (n v : BitVec 32) : BitVec 32 := Scalar.select (IntOp.cmpi .slt v 0#32) (IntOp.addi v n) v

/-- The sign of a word as a word: 0, 1 or -1. -/
def sgnW (x : BitVec 32) : BitVec 32 := if x = 0 then 0 else if x.msb then -1 else 1

/-- Floor division by 4 as jax spells it from the truncating division: one less where the signs differ and the remainder is not zero. -/
def floorDiv4 (v : BitVec 32) : BitVec 32 :=
  Scalar.select (IntOp.andi (IntOp.cmpi .ne (sgnW v) (sgnW 4#32)) (IntOp.cmpi .ne (IntOp.remsi .host v 4#32) 0#32))
    (IntOp.subi (IntOp.divsi .host v 4#32) 1#32) (IntOp.divsi .host v 4#32)

/-- A gather's clamp of a start index into an axis of length `N`: negative words to 0, large ones to `N - 1`. -/
def clampIdx (N : Nat) (hN : 0 < N) (v : BitVec 32) : Fin N := ⟨min v.toInt.toNat (N - 1), by omega⟩

/-- The sorting permutation of the flattened expert ids, as words: position `j` of the sorted order holds slot `sortedIds I j`. -/
def sortedIds (I : IVec S4096x4 32) : IVec S16384 32 :=
  (Host.sort2 S16384 0 comparator_i32_i32_d0 (shapeCast S16384 I (by decide)) (iotaInDim S16384 32 0)).2

/-- Its inverse, by sorting it beside the positions again. -/
def invIds (I : IVec S4096x4 32) : IVec S16384 32 :=
  (Host.sort2 S16384 0 comparator_i32_i32_d0 (sortedIds I) (iotaInDim S16384 32 0)).2

/-- The slot a gather by the sorted ids reads at position `j`. -/
def gsOf (I : IVec S4096x4 32) (j : Fin 16384) : Fin 16384 :=
  clampIdx 16384 (by decide) (wrapW 16384#32 (sortedIds I (ix1 j)))

/-- The token row the kernel's gather reads at position `j`: the sorted id floor-divided by 4. -/
def grOf (I : IVec S4096x4 32) (j : Fin 16384) : Fin 4096 :=
  clampIdx 4096 (by decide) (wrapW 4096#32 (floorDiv4 (sortedIds I (ix1 j))))

/-- The position a gather by the inverse reads for slot `p`. -/
def giOf (I : IVec S4096x4 32) (p : Fin 16384) : Fin 16384 :=
  clampIdx 16384 (by decide) (wrapW 16384#32 (invIds I (ix1 p)))

/-! ### Words that are small naturals -/

/-- A word below `2^31` read as a signed integer is its natural value. -/
theorem toInt_small (v : BitVec 32) (h : v.toNat < 2147483648) : v.toInt = (v.toNat : Int) :=
  BitVec.toInt_eq_toNat_of_lt (by omega)

/-- Such a word is not negative, so the signed comparison with zero answers 0. -/
theorem slt_zero_small (v : BitVec 32) (h : v.toNat < 2147483648) : IntOp.cmpi .slt v 0#32 = 0#1 := by
  have hs : v.slt 0#32 = false := by
    rw [BitVec.slt_eq_decide, toInt_small v h]
    simp
  simp [IntOp.cmpi, hs]

/-- The wrap of a negative index leaves a non-negative word alone. -/
theorem wrapW_small (n v : BitVec 32) (h : v.toNat < 2147483648) : wrapW n v = v := by
  unfold wrapW
  rw [slt_zero_small v h]
  simp [Scalar.select]

/-- The clamp into an axis of length `N` leaves a word below `N` alone. -/
theorem clampIdx_small (N : Nat) (hN : 0 < N) (v : BitVec 32) (h : v.toNat < N) (h31 : v.toNat < 2147483648) :
    (clampIdx N hN v).val = v.toNat := by
  unfold clampIdx
  simp only [toInt_small v h31, Int.toNat_natCast]
  omega

/-- The sign word of 4 is 1. -/
theorem sgnW_four : sgnW 4#32 = 1#32 := by decide

/-- The sign word of a non-negative word: 0 at zero, 1 elsewhere. -/
theorem sgnW_small (v : BitVec 32) (h : v.toNat < 2147483648) : sgnW v = if v = 0 then 0 else 1 := by
  unfold sgnW
  have hm : v.msb = false := BitVec.msb_eq_false_iff_two_mul_lt.mpr (by omega)
  simp [hm]

/-- Signed truncating division of a non-negative word by 4 is the natural division. -/
theorem divsi4_small (v : BitVec 32) (h : v.toNat < 2147483648) :
    (IntOp.divsi .host v 4#32).toNat = v.toNat / 4 := by
  have hm : v.msb = false := BitVec.msb_eq_false_iff_two_mul_lt.mpr (by omega)
  have h4 : (4#32).msb = false := by decide
  have hc : ¬ IntOp.SDivCorner v 4#32 := by
    unfold IntOp.SDivCorner
    rintro (h0 | ⟨_, h1⟩)
    · exact absurd h0 (by decide)
    · exact absurd h1 (by decide)
  unfold IntOp.divsi
  rw [if_neg hc, BitVec.sdiv_eq, hm, h4]
  show (v / 4#32).toNat = _
  rw [BitVec.toNat_udiv]
  rfl

/-- Floor division by 4 of a non-negative word is the natural division: the correction is never taken. -/
theorem floorDiv4_small (v : BitVec 32) (h : v.toNat < 2147483648) : (floorDiv4 v).toNat = v.toNat / 4 := by
  unfold floorDiv4
  have hcond : IntOp.andi (IntOp.cmpi .ne (sgnW v) (sgnW 4#32)) (IntOp.cmpi .ne (IntOp.remsi .host v 4#32) 0#32) = 0#1 := by
    rw [sgnW_four, sgnW_small v h]
    by_cases hv : v = 0
    · subst hv
      decide
    · rw [if_neg hv]
      have : IntOp.cmpi .ne (1 : BitVec 32) (1#32) = 0#1 := by decide
      rw [this]
      simp [IntOp.andi]
  rw [hcond]
  simp only [Scalar.select]
  rw [if_neg (by decide)]
  exact divsi4_small v h

/-! ### A two-table sort on a rank-1 shape reads both tables through one self-map of the positions -/

theorem ofFin_eq_ix1 {n : Nat} (k : Fin n) : Shape.Idx.ofFin k = ix1 k := by
  funext d; match d with | ⟨0, _⟩ => rfl

/-- The relation by which a two-table sort of a rank-1 shape orders the positions. -/
def pairBefore {n : Nat} {α β : Type} (cmp : α × β → α × β → BitVec 1) (x : (⟨1, ![n]⟩ : Shape).Idx → α)
    (y : (⟨1, ![n]⟩ : Shape).Idx → β) (k k' : Fin n) : Bool :=
  cmp (x (ix1 k), y (ix1 k)) (x (ix1 k'), y (ix1 k')) == 1#1

/-- The second table after the sort: position `j` holds the second table's entry at the stable sorting permutation's `j`. -/
theorem sort2_rank1_snd {n : Nat} {α β : Type} (cmp : α × β → α × β → BitVec 1) (x : (⟨1, ![n]⟩ : Shape).Idx → α)
    (y : (⟨1, ![n]⟩ : Shape).Idx → β) (j : Fin n) :
    (Host.sort2 ⟨1, ![n]⟩ 0 cmp x y).2 (ix1 j) = y (ix1 (sortedFrom (pairBefore cmp x y) j)) := by
  unfold Host.sort2
  simp [ofFin_eq_ix1]
  rfl

/-- The stable sorting permutation of the keys `x` under the signed comparison (the second table being the positions). -/
def permOf (x : IVec S16384 32) : Fin 16384 → Fin 16384 :=
  sortedFrom (pairBefore comparator_i32_i32_d0 x (iotaInDim S16384 32 0))

theorem permOf_bijective (x : IVec S16384 32) : Function.Bijective (permOf x) :=
  ⟨sortedFrom_injective _, sortedFrom_surjective _⟩

/-- Sorting the positions beside the keys leaves the sorting permutation, as words. -/
theorem sort_iota_snd (x : IVec S16384 32) (j : Fin 16384) :
    (Host.sort2 S16384 0 comparator_i32_i32_d0 x (iotaInDim S16384 32 0)).2 (ix1 j)
      = BitVec.ofNat 32 (permOf x j).val := by
  rw [sort2_rank1_snd]
  rfl

/-- The word of a position is that position. -/
theorem toNat_pos (k : Fin 16384) : (BitVec.ofNat 32 k.val).toNat = k.val := by
  rw [BitVec.toNat_ofNat]
  exact Nat.mod_eq_of_lt (by omega)

/-! ### The sorted ids are positions; the wraps and clamps are idle -/

/-- The keys of the first sort: the expert ids flattened. -/
theorem sortedIds_word (I : IVec S4096x4 32) :
    ∃ x : IVec S16384 32, ∀ j : Fin 16384, sortedIds I (ix1 j) = BitVec.ofNat 32 (permOf x j).val :=
  ⟨_, fun j => sort_iota_snd _ j⟩

/-- The inverse table holds the second sort's permutation, as words. -/
theorem invIds_word (I : IVec S4096x4 32) (p : Fin 16384) :
    invIds I (ix1 p) = BitVec.ofNat 32 (permOf (sortedIds I) p).val :=
  sort_iota_snd _ p

/-- A gather index that is the word of a position `k` reads position `k`. -/
theorem clamp_wrap_pos (k : Fin 16384) :
    clampIdx 16384 (by decide) (wrapW 16384#32 (BitVec.ofNat 32 k.val)) = k := by
  have hk := toNat_pos k
  apply Fin.ext
  rw [wrapW_small _ _ (by omega), clampIdx_small _ _ _ (by omega) (by omega), hk]

/-- Floor division by 4 of the word of a position `k`, wrapped and clamped into 4096 rows, is `k / 4`. -/
theorem clamp_wrap_div_pos (k : Fin 16384) :
    (clampIdx 4096 (by decide) (wrapW 4096#32 (floorDiv4 (BitVec.ofNat 32 k.val)))).val = k.val / 4 := by
  have hk := toNat_pos k
  have hd := floorDiv4_small (BitVec.ofNat 32 k.val) (by omega)
  rw [wrapW_small _ _ (by omega), clampIdx_small _ _ _ (by omega) (by omega), hd, hk]

/-- The kernel's row map is the slot map divided by 4. -/
theorem grOf_eq (I : IVec S4096x4 32) (j : Fin 16384) : grOf I j = tokOf (gsOf I j) := by
  obtain ⟨x, hx⟩ := sortedIds_word I
  apply Fin.ext
  unfold grOf gsOf tokOf
  rw [hx j, clamp_wrap_div_pos, clamp_wrap_pos]

/-! ### The second sort inverts the first -/

theorem ofBool_beq_one (b : Bool) : (BitVec.ofBool b == 1#1) = b := by cases b <;> rfl

/-- A relation that orders the positions as a permutation's inverse does sorts them into that permutation. -/
theorem sortedFrom_of_perm {n : Nat} (σ : Equiv.Perm (Fin n)) (R : Fin n → Fin n → Bool)
    (hR : R = fun k k' => decide (σ.symm k < σ.symm k')) : sortedFrom R = σ := by
  funext k
  unfold sortedFrom
  rw [List.get_of_eq ((congrArg (sortPositions n) hR).trans (sortPositions_of_perm σ))]
  simp

/-- Where the keys are the words of a self-map `f` of the positions, the signed comparison orders the positions by `f`. -/
theorem pairBefore_of_keys (x : IVec S16384 32) (f : Fin 16384 → Fin 16384)
    (hx : ∀ k, x (ix1 k) = BitVec.ofNat 32 (f k).val) (k k' : Fin 16384) :
    pairBefore comparator_i32_i32_d0 x (iotaInDim S16384 32 0) k k' = decide (f k < f k') := by
  have h1 := toNat_pos (f k)
  have h2 := toNat_pos (f k')
  show (BitVec.ofBool ((x (ix1 k)).slt (x (ix1 k'))) == 1#1) = _
  rw [ofBool_beq_one, BitVec.slt_eq_decide, hx k, hx k', toInt_small _ (by omega), toInt_small _ (by omega), h1, h2]
  exact decide_eq_decide.mpr (by rw [Fin.lt_def]; omega)

/-- Sorting the words of a bijection `f` of the positions beside the positions gives the inverse of `f`. -/
theorem permOf_of_keys (x : IVec S16384 32) (f : Fin 16384 → Fin 16384) (hf : Function.Bijective f)
    (hx : ∀ k, x (ix1 k) = BitVec.ofNat 32 (f k).val) (p : Fin 16384) : f (permOf x p) = p := by
  have hσ : permOf x = (Equiv.ofBijective f hf).symm :=
    sortedFrom_of_perm (Equiv.ofBijective f hf).symm _ (by
      funext k k'
      exact pairBefore_of_keys x f hx k k')
  rw [hσ]
  exact (Equiv.ofBijective f hf).apply_symm_apply p

/-- The second sort inverts the first: the slot at the position slot `p` sorts to is `p`. -/
theorem gs_gi (I : IVec S4096x4 32) (p : Fin 16384) : gsOf I (giOf I p) = p := by
  obtain ⟨x, hx⟩ := sortedIds_word I
  have hgi : giOf I p = permOf (sortedIds I) p := by
    unfold giOf
    rw [invIds_word, clamp_wrap_pos]
  have hgs : ∀ j, gsOf I j = permOf x j := by
    intro j
    unfold gsOf
    rw [hx j, clamp_wrap_pos]
  rw [hgs, hgi]
  exact permOf_of_keys (sortedIds I) (permOf x) (permOf_bijective x) hx p

end Cert.KernelIdeal.HandV

end
-- ==== Proof.KIV.Bridge.lean ====
/-
  The two programs are one function. With `gr j = gs j / 4` the kernel feeds the experts the rows the reference does; with
  `gs (gi p) = p` the weight the kernel applied to position `gi p` before scattering is slot `p`'s own, which is the weight the
  reference applies after scattering (slot `4 t + k` is token `t`'s choice `k`); and the last sum commutes.
-/
import proofs.«402449_j23871428231438_3_alg».proof.Proof.KIV.Spec

noncomputable section

open scoped BigOperators

namespace Cert.KernelIdeal.HandV

open Idealize.ShloMosaic Idealize.ShloMosaic.ValueIdx

/-- A position is row `j % 512` of expert `j / 512`'s group. -/
theorem slot_exp_row (j : Fin 16384) : slot (expOf j) (rowOf j) = j := by
  apply Fin.ext
  show 512 * (j.val / 512) + j.val % 512 = j.val
  omega

/-- Slot `4 t + k` belongs to token `t` … -/
theorem tokOf_slotOf (t : Fin 4096) (k : Fin 4) : tokOf (slotOf t k) = t := by
  apply Fin.ext
  show (4 * t.val + k.val) / 4 = t.val
  have := k.isLt
  omega

/-- … and is its choice `k`. -/
theorem kOf_slotOf (t : Fin 4096) (k : Fin 4) : kOf (slotOf t k) = k := by
  apply Fin.ext
  show (4 * t.val + k.val) % 4 = k.val
  have := k.isLt
  omega

/-- What the kernel leaves at position `gi p` of the weighted expert outputs is the reference's unweighted expert output
    there times slot `p`'s own weight. -/
theorem routedAt_at_inverse (gs gi : Fin 16384 → Fin 16384) (gr : Fin 16384 → Fin 4096)
    (hr : ∀ j, gr j = tokOf (gs j)) (hi : ∀ p, gs (gi p) = p)
    (X : A3 2 2048 2048) (W : A2 4096 4) (G U : A3 32 2048 1408) (D : A3 32 1408 2048)
    (t : Fin 4096) (k : Fin 4) (d : Fin 2048) :
    routedAt (xbK gr X) G U D (wsK gs W) (expOf (gi (slotOf t k))) (rowOf (gi (slotOf t k))) d
      = expertAtR gs X G U D (gi (slotOf t k)) d * W (ix2 t k) := by
  have hrow : ∀ k' : Fin 2048, xbK gr X (ix3 (expOf (gi (slotOf t k))) (rowOf (gi (slotOf t k))) k')
      = xflatAt X (tokOf (gs (gi (slotOf t k)))) k' := by
    intro k'
    show xflatAt X (gr (slot (expOf (gi (slotOf t k))) (rowOf (gi (slotOf t k))))) k' = _
    rw [slot_exp_row, hr]
  have hw : wsK gs W (ix3 (expOf (gi (slotOf t k))) (rowOf (gi (slotOf t k))) (0 : Fin 1)) = W (ix2 t k) := by
    show W (ix2 (tokOf (gs (slot (expOf (gi (slotOf t k))) (rowOf (gi (slotOf t k))))))
      (kOf (gs (slot (expOf (gi (slotOf t k))) (rowOf (gi (slotOf t k))))))) = _
    rw [slot_exp_row, hi, tokOf_slotOf, kOf_slotOf]
  unfold routedAt expertAtR
  rw [hw]
  simp only [hrow]

theorem spec_eq (gs gi : Fin 16384 → Fin 16384) (gr : Fin 16384 → Fin 4096)
    (hr : ∀ j, gr j = tokOf (gs j)) (hi : ∀ p, gs (gi p) = p)
    (X : A3 2 2048 2048) (W : A2 4096 4) (G U : A3 32 2048 1408) (D : A3 32 1408 2048) (SG SU : A2 2048 2816) (SD : A2 2816 2048) :
    Kspec gs gi gr X W G U D SG SU SD = Rspec gs gi X W G U D SG SU SD := by
  funext i
  obtain ⟨b, l, d, rfl⟩ : ∃ (b : Fin 2) (l : Fin 2048) (d : Fin 2048), i = ix3 b l d := ⟨i 0, i 1, i 2, eq_ix3 i⟩
  show sharedAt (xflat X) SG SU SD (routedSumK gs gi gr X W G U D) (tokenOf b l) d
    = routedSumAtR gs gi X W G U D (tokenOf b l) d
      + ∑ f : Fin 2816, hidden (fun k : Fin 2048 => xflatAt X (tokenOf b l) k) (fun k => SG (ix2 k f)) (fun k => SU (ix2 k f)) * SD (ix2 f d)
  unfold sharedAt
  rw [add_comm]
  congr 1
  show (0 : EReal) + ∑ k : Fin 4, routedAt (xbK gr X) G U D (wsK gs W) (expOf (gi (slotOf (tokenOf b l) k))) (rowOf (gi (slotOf (tokenOf b l) k))) d
    = routedSumAtR gs gi X W G U D (tokenOf b l) d
  unfold routedSumAtR
  congr 1
  exact Finset.sum_congr rfl fun k _ => routedAt_at_inverse gs gi gr hr hi X W G U D (tokenOf b l) k d

end Cert.KernelIdeal.HandV

end
-- ==== Proof.KIV.Arr0.lean ====
/-
  What the routed-experts call leaves in its result array, over the extended reals. The accumulator after tile `f` of an
  expert is the sum of the tiles' products so far (zero plus the first, plus the second, …); after tile 10 it is the whole
  contraction over the 1408 inner columns, regrouped as 11 × 128; the expert's block is that times the rows' weights, written
  back at tile 10; the 32 blocks cover the array (`routedSpec`).
-/
import proofs.«402449_j23871428231438_3_alg».proof.Proof.KI.Region0
import proofs.«402449_j23871428231438_3_alg».proof.Proof.KIV.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

namespace Arr0

/-! ## The two products' operand indices, axis by axis -/

theorem lhs_gu_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_gu_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_gu_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_gu_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

theorem lhs_dn_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs_dn_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem rhs_dn_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem rhs_dn_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-! ## A product into the zero block, at an index -/

/-- Rows (512 × 2048) against a tile of 128 columns (2048 × 128): entry (r, j) is the row's inner product with column j. -/
theorem mm_gu_apply (a : FVec Ideal S512x2048 .bf16) (b : FVec Ideal S2048x128 .bf16) (r : Fin 512) (j : Fin 128) :
    matmul dot_S512x2048_S2048x128_S512x128_1_0_0_1_n_n none a b (constant (F := Ideal) S512x128 .f32 0x00000000#32) (ix2 r j)
      = ∑ k : Fin 2048, a (ix2 r k) * b (ix2 k j) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 r j) ((ValueIdx.contrEquiv1 dot_S512x2048_S2048x128_S512x128_1_0_0_1_n_n 2048 rfl rfl).symm k) = ix2 r k := funext fun a => Fin.ext (by
    match a with
    | ⟨0, _⟩ => exact lhs_gu_0 _ _
    | ⟨1, _⟩ => exact (lhs_gu_1 _ _).trans hk)
  have er : dot_S512x2048_S2048x128_S512x128_1_0_0_1_n_n.rhsIdx (ix2 r j) ((ValueIdx.contrEquiv1 dot_S512x2048_S2048x128_S512x128_1_0_0_1_n_n 2048 rfl rfl).symm k) = ix2 k j := funext fun a => Fin.ext (by
    match a with
    | ⟨0, _⟩ => exact (rhs_gu_0 _ _).trans hk
    | ⟨1, _⟩ => exact rhs_gu_1 _ _)
  rw [el, er]

/-- The gated tile (512 × 128) against the tile's rows of the down weights (128 × 2048): entry (r, d). -/
theorem mm_dn_apply (a : FVec Ideal S512x128 .bf16) (b : FVec Ideal S128x2048 .bf16) (r : Fin 512) (d : Fin 2048) :
    matmul dot_S512x128_S128x2048_S512x2048_1_0_0_1_n_n none a b (constant (F := Ideal) S512x2048 .f32 0x00000000#32) (ix2 r d)
      = ∑ j : Fin 128, a (ix2 r j) * b (ix2 j d) := by
  simp only [matmul]
  rw [Ideal.matmul_constant_zero_apply, ← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx (ix2 r d) ((ValueIdx.contrEquiv1 dot_S512x128_S128x2048_S512x2048_1_0_0_1_n_n 128 rfl rfl).symm k) = ix2 r k := funext fun a => Fin.ext (by
    match a with
    | ⟨0, _⟩ => exact lhs_dn_0 _ _
    | ⟨1, _⟩ => exact (lhs_dn_1 _ _).trans hk)
  have er : dot_S512x128_S128x2048_S512x2048_1_0_0_1_n_n.rhsIdx (ix2 r d) ((ValueIdx.contrEquiv1 dot_S512x128_S128x2048_S512x2048_1_0_0_1_n_n 128 rfl rfl).symm k) = ix2 k d := funext fun a => Fin.ext (by
    match a with
    | ⟨0, _⟩ => exact (rhs_dn_0 _ _).trans hk
    | ⟨1, _⟩ => exact rhs_dn_1 _ _)
  rw [el, er]

/-! ## A block of leading extent one viewed without that axis -/

theorem drop1_apply {α : Type} {n1 n2 : Nat} (v : (⟨3, ![1, n1, n2]⟩ : Shape).Idx → α)
    (h : (⟨3, ![1, n1, n2]⟩ : Shape).ShapeCasts ⟨2, ![n1, n2]⟩) (p : Fin n1) (q : Fin n2) :
    shapeCast ⟨2, ![n1, n2]⟩ v h (ix2 p q) = v (ix3 (0 : Fin 1) p q) :=
  shapeCast_apply v h (ix2 p q) (ix3 (0 : Fin 1) p q) (by
    rewrite [Shape.rowMajor_val_three, Shape.rowMajor_val_two]
    show ((0 : Fin 1).val * n1 + p.val) * n2 + q.val = p.val * n2 + q.val
    simp)

theorem add1_apply {α : Type} {n1 n2 : Nat} (v : (⟨2, ![n1, n2]⟩ : Shape).Idx → α)
    (h : (⟨2, ![n1, n2]⟩ : Shape).ShapeCasts ⟨3, ![1, n1, n2]⟩) (z : Fin 1) (p : Fin n1) (q : Fin n2) :
    shapeCast ⟨3, ![1, n1, n2]⟩ v h (ix3 z p q) = v (ix2 p q) :=
  shapeCast_apply v h (ix3 z p q) (ix2 p q) (by
    rewrite [Shape.rowMajor_val_three, Shape.rowMajor_val_two]
    show p.val * n2 + q.val = (z.val * n1 + p.val) * n2 + q.val
    have : z.val = 0 := by omega
    rw [this]; simp)

/-! ## The payloads at an index -/

/-- The reset value: zero everywhere. -/
theorem pay1_apply (r : Fin 512) (d : Fin 2048) : k0_pay1 (F := Ideal) (ix2 r d) = 0 := by
  unfold k0_pay1
  rw [shapeCast_self]
  exact Ideal.ofBits_zero_f32

/-- One tile's update: the accumulator plus the tile's product. -/
theorem pay2_apply (x : Vec Ideal S1x512x2048 .bf16) (g u : Vec Ideal S1x2048x128 .f32) (w : Vec Ideal S1x128x2048 .f32)
    (acc : Vec Ideal S512x2048 .f32) (r : Fin 512) (d : Fin 2048) :
    k0_pay2 x g u w acc (ix2 r d)
      = acc (ix2 r d) + ∑ j : Fin 128,
          hidden (fun k : Fin 2048 => x (ix3 (0 : Fin 1) r k)) (fun k => g (ix3 (0 : Fin 1) k j)) (fun k => u (ix3 (0 : Fin 1) k j))
            * w (ix3 (0 : Fin 1) j d) := by
  unfold k0_pay2
  rw [shapeCast_self]
  refine (addf_apply _ _ _).trans ?_
  refine congrArg (acc (ix2 r d) + ·) ?_
  refine (mm_dn_apply _ _ r d).trans ?_
  refine Finset.sum_congr rfl fun j _ => ?_
  rw [truncf_apply, truncf_apply, mulf_apply, mulf_apply, drop1_apply]
  show _ * FloatOps.logistic _ * _ * _ = _
  rw [Ideal.logistic_def, mm_gu_apply, mm_gu_apply]
  unfold hidden gated
  simp only [truncf_apply, drop1_apply]

/-- The stored block: the accumulator times the row's weight. -/
theorem pay3_apply (ws : Vec Ideal S1x512x1 .f32) (acc : Vec Ideal S512x2048 .f32) (z : Fin 1) (r : Fin 512) (d : Fin 2048) :
    k0_pay3 ws acc (ix3 z r d) = acc (ix2 r d) * ws (ix3 (0 : Fin 1) r (0 : Fin 1)) := by
  unfold k0_pay3
  rw [add1_apply, mulf_apply]
  refine congrArg (acc (ix2 r d) * ·) ?_
  refine (broadcastTo_apply _ _ (ix2 r d) (ix2 r (0 : Fin 1)) (fun a => ?_)).trans (drop1_apply _ _ r 0)
  match a with
  | ⟨0, _⟩ => show r.val = if (512 : Nat) = 1 then 0 else r.val; rw [if_neg (by decide)]
  | ⟨1, _⟩ => show (0 : Nat) = if (1 : Nat) = 1 then 0 else d.val; rw [if_pos rfl]

/-! ## Regrouping the inner columns: 1408 = 11 tiles of 128 -/

/-- A sum over `m * n` naturals, tile by tile. -/
theorem sum_range_tiles {M : Type*} [AddCommMonoid M] (m : Nat) (b : Nat → M) :
    ∀ n : Nat, ∑ i ∈ Finset.range n, ∑ j ∈ Finset.range m, b (m * i + j) = ∑ k ∈ Finset.range (m * n), b k
  | 0 => by simp
  | n + 1 => by
    rw [Finset.sum_range_succ, sum_range_tiles m b n, Nat.mul_succ, Finset.sum_range_add]

/-- Tile `i` of a sum over the 1408 inner columns: columns `128 i … 128 i + 127` (nothing past the last column). -/
def tileSum (a : Fin 1408 → EReal) (i : Nat) : EReal :=
  ∑ j : Fin 128, if h : 128 * i + j.val < 1408 then a ⟨128 * i + j.val, h⟩ else 0

/-- The eleven tiles make the whole sum. -/
theorem sum_tiles (a : Fin 1408 → EReal) : ∑ i ∈ Finset.range 11, tileSum a i = ∑ k : Fin 1408, a k := by
  have e1 : ∀ i, tileSum a i = ∑ j ∈ Finset.range 128, (fun n => if h : n < 1408 then a ⟨n, h⟩ else 0) (128 * i + j) := fun i =>
    Fin.sum_univ_eq_sum_range (fun j => (fun n => if h : n < 1408 then a ⟨n, h⟩ else 0) (128 * i + j)) 128
  have e2 : ∑ k : Fin 1408, a k = ∑ k ∈ Finset.range (128 * 11), (fun n => if h : n < 1408 then a ⟨n, h⟩ else 0) k := by
    rw [← Fin.sum_univ_eq_sum_range (fun n => if h : n < 1408 then a ⟨n, h⟩ else 0) 1408]
    exact Finset.sum_congr rfl fun k _ => by rw [dif_pos k.isLt]
  rw [e2, ← sum_range_tiles 128 _ 11]
  exact Finset.sum_congr rfl fun i _ => e1 i

variable (V : (c : Dev nD) → (b : Ref sig .tc) → Buf (Elt Ideal) ((c : Thread nD τ).loc b))

/-! ## The blocks the body reads, where the windows' rectangles say -/

theorem N0 : cfg0.N = 352 := rfl

/-- The windows' block indices at point `t`: the expert `t / 11` on the leading axis; the tile `t % 11` on the inner columns' axis of the three
    weight windows; zero elsewhere. Decided once over the grid. -/
theorem idx_facts0 : ∀ t : Fin cfg0.N,
      win0_0.index t (0 : Fin 3) = t.val / 11 ∧ win0_0.index t (1 : Fin 3) = 0 ∧ win0_0.index t (2 : Fin 3) = 0
    ∧ win0_1.index t (0 : Fin 3) = t.val / 11 ∧ win0_1.index t (1 : Fin 3) = 0 ∧ win0_1.index t (2 : Fin 3) = t.val % 11
    ∧ win0_2.index t (0 : Fin 3) = t.val / 11 ∧ win0_2.index t (1 : Fin 3) = 0 ∧ win0_2.index t (2 : Fin 3) = t.val % 11
    ∧ win0_3.index t (0 : Fin 3) = t.val / 11 ∧ win0_3.index t (1 : Fin 3) = t.val % 11 ∧ win0_3.index t (2 : Fin 3) = 0
    ∧ win0_4.index t (0 : Fin 3) = t.val / 11 ∧ win0_4.index t (1 : Fin 3) = 0 ∧ win0_4.index t (2 : Fin 3) = 0
    ∧ win0_5.index t (0 : Fin 3) = t.val / 11 ∧ win0_5.index t (1 : Fin 3) = 0 ∧ win0_5.index t (2 : Fin 3) = 0 :=
  (by decide +kernel : ∀ t : Fin grid0.N, _)

/-- The activations' block: expert `e`'s 512 rows, whole. -/
theorem blk_x (c : Dev nD) (t : Fin cfg0.N) (e : Fin 32) (he : t.val / 11 = e.val) (z : Fin 1) (r : Fin 512) (k : Fin 2048) :
    iblk0 V c 0 t (ix3 z r k) = (V c main_v12 : A3 32 512 2048) (ix3 e r k) := by
  obtain ⟨e0, e1, e2, -⟩ := idx_facts0 t
  show (V c main_v12 : A3 32 512 2048) (((cfg0.win 0).blk t).view.emb (ix3 z r k)) = _
  refine congrArg (V c main_v12 : A3 32 512 2048) (funext fun a => Fin.ext ?_)
  match a with
  | ⟨0, _⟩ => show win0_0.index t (0 : Fin 3) * 1 + 1 * z.val = e.val; omega
  | ⟨1, _⟩ => show win0_0.index t (1 : Fin 3) * 512 + 1 * r.val = r.val; omega
  | ⟨2, _⟩ => show win0_0.index t (2 : Fin 3) * 2048 + 1 * k.val = k.val; omega

/-- The gate weights' block: expert `e`, all 2048 rows, the tile's 128 columns. -/
theorem blk_g (c : Dev nD) (t : Fin cfg0.N) (e : Fin 32) (he : t.val / 11 = e.val) (f : Nat) (hf : t.val % 11 = f)
    (z : Fin 1) (k : Fin 2048) (j : Fin 128) (h : 128 * f + j.val < 1408) :
    iblk0 V c 1 t (ix3 z k j) = (V c main_arg3 : A3 32 2048 1408) (ix3 e k ⟨128 * f + j.val, h⟩) := by
  obtain ⟨-, -, -, e0, e1, e2, -⟩ := idx_facts0 t
  show (V c main_arg3 : A3 32 2048 1408) (((cfg0.win 1).blk t).view.emb (ix3 z k j)) = _
  refine congrArg (V c main_arg3 : A3 32 2048 1408) (funext fun a => Fin.ext ?_)
  match a with
  | ⟨0, _⟩ => show win0_1.index t (0 : Fin 3) * 1 + 1 * z.val = e.val; omega
  | ⟨1, _⟩ => show win0_1.index t (1 : Fin 3) * 2048 + 1 * k.val = k.val; omega
  | ⟨2, _⟩ => show win0_1.index t (2 : Fin 3) * 128 + 1 * j.val = 128 * f + j.val; omega

/-- The up weights' block: the same rectangle of the up weights. -/
theorem blk_u (c : Dev nD) (t : Fin cfg0.N) (e : Fin 32) (he : t.val / 11 = e.val) (f : Nat) (hf : t.val % 11 = f)
    (z : Fin 1) (k : Fin 2048) (j : Fin 128) (h : 128 * f + j.val < 1408) :
    iblk0 V c 2 t (ix3 z k j) = (V c main_arg4 : A3 32 2048 1408) (ix3 e k ⟨128 * f + j.val, h⟩) := by
  obtain ⟨-, -, -, -, -, -, e0, e1, e2, -⟩ := idx_facts0 t
  show (V c main_arg4 : A3 32 2048 1408) (((cfg0.win 2).blk t).view.emb (ix3 z k j)) = _
  refine congrArg (V c main_arg4 : A3 32 2048 1408) (funext fun a => Fin.ext ?_)
  match a with
  | ⟨0, _⟩ => show win0_2.index t (0 : Fin 3) * 1 + 1 * z.val = e.val; omega
  | ⟨1, _⟩ => show win0_2.index t (1 : Fin 3) * 2048 + 1 * k.val = k.val; omega
  | ⟨2, _⟩ => show win0_2.index t (2 : Fin 3) * 128 + 1 * j.val = 128 * f + j.val; omega

/-- The down weights' block: expert `e`, the tile's 128 rows, all 2048 columns. -/
theorem blk_d (c : Dev nD) (t : Fin cfg0.N) (e : Fin 32) (he : t.val / 11 = e.val) (f : Nat) (hf : t.val % 11 = f)
    (z : Fin 1) (j : Fin 128) (d : Fin 2048) (h : 128 * f + j.val < 1408) :
    iblk0 V c 3 t (ix3 z j d) = (V c main_arg5 : A3 32 1408 2048) (ix3 e ⟨128 * f + j.val, h⟩ d) := by
  obtain ⟨-, -, -, -, -, -, -, -, -, e0, e1, e2, -⟩ := idx_facts0 t
  show (V c main_arg5 : A3 32 1408 2048) (((cfg0.win 3).blk t).view.emb (ix3 z j d)) = _
  refine congrArg (V c main_arg5 : A3 32 1408 2048) (funext fun a => Fin.ext ?_)
  match a with
  | ⟨0, _⟩ => show win0_3.index t (0 : Fin 3) * 1 + 1 * z.val = e.val; omega
  | ⟨1, _⟩ => show win0_3.index t (1 : Fin 3) * 128 + 1 * j.val = 128 * f + j.val; omega
  | ⟨2, _⟩ => show win0_3.index t (2 : Fin 3) * 2048 + 1 * d.val = d.val; omega

/-- The rows' weights' block: expert `e`'s 512 weights. -/
theorem blk_w (c : Dev nD) (t : Fin cfg0.N) (e : Fin 32) (he : t.val / 11 = e.val) (z : Fin 1) (r : Fin 512) (o : Fin 1) :
    iblk0 V c 4 t (ix3 z r o) = (V c main_v21 : A3 32 512 1) (ix3 e r (0 : Fin 1)) := by
  obtain ⟨-, -, -, -, -, -, -, -, -, -, -, -, e0, e1, e2, -⟩ := idx_facts0 t
  show (V c main_v21 : A3 32 512 1) (((cfg0.win 4).blk t).view.emb (ix3 z r o)) = _
  refine congrArg (V c main_v21 : A3 32 512 1) (funext fun a => Fin.ext ?_)
  match a with
  | ⟨0, _⟩ => show win0_4.index t (0 : Fin 3) * 1 + 1 * z.val = e.val; omega
  | ⟨1, _⟩ => show win0_4.index t (1 : Fin 3) * 512 + 1 * r.val = r.val; omega
  | ⟨2, _⟩ => show win0_4.index t (2 : Fin 3) * 1 + 1 * o.val = (0 : Fin 1).val; show _ = 0; omega

/-! ## The accumulator along an expert's eleven points -/

/-- The summand of the routed contraction at inner column `f`. -/
def term (xb : A3 32 512 2048) (G U : A3 32 2048 1408) (D : A3 32 1408 2048) (e : Fin 32) (r : Fin 512) (d : Fin 2048)
    (f : Fin 1408) : EReal :=
  hidden (fun k : Fin 2048 => xb (ix3 e r k)) (fun k => G (ix3 e k f)) (fun k => U (ix3 e k f)) * D (ix3 e f d)

/-- One point's update at an entry: what the accumulator held plus the point's tile of the contraction. -/
theorem step_apply (c : Dev nD) (t : Fin cfg0.N) (e : Fin 32) (he : t.val / 11 = e.val) (f : Nat) (hf : t.val % 11 = f)
    (acc : Vec Ideal S512x2048 .f32) (r : Fin 512) (d : Fin 2048) :
    k0_pay2 (iblk0 V c 0 t) (iblk0 V c 1 t) (iblk0 V c 2 t) (iblk0 V c 3 t) acc (ix2 r d)
      = acc (ix2 r d) + tileSum (term (V c main_v12 : A3 32 512 2048) (V c main_arg3 : A3 32 2048 1408) (V c main_arg4 : A3 32 2048 1408)
          (V c main_arg5 : A3 32 1408 2048) e r d) f := by
  refine (pay2_apply (iblk0 V c 0 t) (iblk0 V c 1 t) (iblk0 V c 2 t) (iblk0 V c 3 t) acc r d).trans ?_
  refine congrArg (acc (ix2 r d) + ·) (Finset.sum_congr rfl fun j _ => ?_)
  have hj : 128 * f + j.val < 1408 := by have := j.isLt; omega
  rw [dif_pos hj]
  unfold term
  refine congrArg₂ (· * ·) ?_ (blk_d V c t e he f hf 0 j d hj)
  exact congr (congr (congrArg hidden (funext fun k => blk_x V c t e he 0 r k)) (funext fun k => blk_g V c t e he f hf 0 k j hj))
    (funext fun k => blk_u V c t e he f hf 0 k j hj)

/-- The accumulator does not depend on how a point's number is written. -/
theorem accAt_congr (c : Dev nD) {n m : Nat} (h : n = m) (hn : n < cfg0.N) (hm : m < cfg0.N) :
    accAt V c n hn = accAt V c m hm := by subst h; rfl

/-- After tile `f` of expert `e` the accumulator holds the sum of the tiles `0 … f` of the contraction, entry by entry. -/
theorem acc_apply (c : Dev nD) (e : Fin 32) (r : Fin 512) (d : Fin 2048) :
    ∀ (f : Nat) (hf : f < 11) (h : 11 * e.val + f < cfg0.N),
      accAt V c (11 * e.val + f) h (ix2 r d)
        = ∑ i ∈ Finset.range (f + 1), tileSum (term (V c main_v12 : A3 32 512 2048) (V c main_arg3 : A3 32 2048 1408)
            (V c main_arg4 : A3 32 2048 1408) (V c main_arg5 : A3 32 1408 2048) e r d) i
  | 0, hf, h => by
    have hr := accAt_reset V c ⟨11 * e.val + 0, h⟩ (show (11 * e.val + 0) % 11 = 0 by omega)
    rw [Finset.sum_range_one]
    refine (congrFun hr (ix2 r d)).trans ?_
    refine (step_apply V c ⟨11 * e.val + 0, h⟩ e (show (11 * e.val + 0) / 11 = e.val by omega) 0
      (show (11 * e.val + 0) % 11 = 0 by omega) (k0_pay1 (F := Ideal)) r d).trans ?_
    rw [pay1_apply, zero_add]
  | f + 1, hf, h => by
    have hs := accAt_step V c ⟨11 * e.val + (f + 1), h⟩ (show (11 * e.val + (f + 1)) % 11 ≠ 0 by omega)
    have hp : 11 * e.val + f < cfg0.N := by rw [N0] at h ⊢; omega
    rw [Finset.sum_range_succ, ← acc_apply c e r d f (by omega) hp]
    refine (congrFun hs (ix2 r d)).trans ?_
    refine (step_apply V c ⟨11 * e.val + (f + 1), h⟩ e (show (11 * e.val + (f + 1)) / 11 = e.val by omega) (f + 1)
      (show (11 * e.val + (f + 1)) % 11 = f + 1 by omega) _ r d).trans ?_
    exact congrArg (· + _) (congrFun (accAt_congr V c (show 11 * e.val + (f + 1) - 1 = 11 * e.val + f by omega) _ hp) (ix2 r d))

/-! ## What a tile-10 point writes back, and the cover -/

theorem hz3 : (![0, 0, 0] : Fin 3 → Nat) = fun _ => 0 := funext fun a => by fin_cases a <;> rfl

/-- The block point `t` writes back (a tile-10 point) is its block of the whole routed result. -/
theorem flushed5_eq (c : Dev nD) (t : Fin cfg0.N) (hfl : (cfg0.win 5).flush t = true) :
    (dat0 V c).flushed 5 t = ((cfg0.win 5).blk t).view.read (Elt Ideal)
      (routedSpec (V c main_v12 : A3 32 512 2048) (V c main_arg3 : A3 32 2048 1408) (V c main_arg4 : A3 32 2048 1408)
        (V c main_arg5 : A3 32 1408 2048) (V c main_v21 : A3 32 512 1)) := by
  have h10 : t.val % 11 = 10 := (flush0_5 t).mp hfl
  have hN : t.val < 352 := t.isLt
  obtain ⟨-, -, -, -, -, -, -, -, -, -, -, -, -, -, -, e0, e1, e2⟩ := idx_facts0 t
  show (cfg0.win 5).cut (grid0.coords t) ((dat0 V c).after 5 t) = _
  rw [after0_5]
  funext j
  obtain ⟨z, r, d, rfl⟩ : ∃ (z : Fin 1) (r : Fin 512) (d : Fin 2048), j = ix3 z r d := ⟨j 0, j 1, j 2, eq_ix3 j⟩
  let e : Fin 32 := ⟨t.val / 11, by omega⟩
  have hemb : ((cfg0.win 5).blk t).view.emb (ix3 z r d) = ix3 e r d := by
    funext a; apply Fin.ext
    match a with
    | ⟨0, _⟩ => show win0_5.index t (0 : Fin 3) * 1 + 1 * z.val = t.val / 11; omega
    | ⟨1, _⟩ => show win0_5.index t (1 : Fin 3) * 512 + 1 * r.val = r.val; omega
    | ⟨2, _⟩ => show win0_5.index t (2 : Fin 3) * 2048 + 1 * d.val = d.val; omega
  show k0_pay3 (iblk0 V c 4 t) (accAt V c t.val t.isLt) (ix3 z r d)
    = routedSpec (V c main_v12 : A3 32 512 2048) (V c main_arg3 : A3 32 2048 1408) (V c main_arg4 : A3 32 2048 1408)
        (V c main_arg5 : A3 32 1408 2048) (V c main_v21 : A3 32 512 1) (((cfg0.win 5).blk t).view.emb (ix3 z r d))
  rw [hemb]
  refine (pay3_apply (iblk0 V c 4 t) (accAt V c t.val t.isLt) z r d).trans ?_
  have ht : t.val = 11 * e.val + 10 := by show t.val = 11 * (t.val / 11) + 10; omega
  have hb : 11 * e.val + 10 < cfg0.N := by rw [N0]; omega
  rw [blk_w V c t e rfl 0 r 0, congrFun (accAt_congr V c ht t.isLt hb) (ix2 r d), acc_apply V c e r d 10 (by omega) hb, sum_tiles]
  rfl

/-- An index of the result array is in point `t`'s block iff each coordinate is in the block's range on its axis. -/
theorem mem_blk5 (t : Fin cfg0.N) (i : S32x512x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v22).slice (win0_5.rect t)).set ↔ _
  rw [View.set_slice_whole, Rect.mem_set_unit]
  exact Iff.rfl

/-- Every index of the result array is in the block some tile-10 point writes back: expert `e`'s at point `11 e + 10`. -/
theorem cover5 (i : S32x512x2048.Idx) :
    ∃ t : Fin cfg0.N, (cfg0.win 5).flush t = true ∧ i ∈ ((cfg0.win 5).blk t).view.set := by
  have h0 : (i 0).val < 32 := (i 0).isLt
  have h1 : (i 1).val < 512 := (i 1).isLt
  have h2 : (i 2).val < 2048 := (i 2).isLt
  have hb : 11 * (i 0).val + 10 < cfg0.N := by rw [N0]; omega
  refine ⟨⟨11 * (i 0).val + 10, hb⟩, (flush0_5 _).mpr (show (11 * (i 0).val + 10) % 11 = 10 by omega), ?_⟩
  obtain ⟨-, -, -, -, -, -, -, -, -, -, -, -, -, -, -, e0, e1, e2⟩ := idx_facts0 ⟨11 * (i 0).val + 10, hb⟩
  have e0' : win0_5.index ⟨11 * (i 0).val + 10, hb⟩ (0 : Fin 3) = (11 * (i 0).val + 10) / 11 := e0
  rw [mem_blk5]
  intro a
  match a with
  | ⟨0, _⟩ => show win0_5.index ⟨11 * (i 0).val + 10, hb⟩ (0 : Fin 3) * 1 ≤ (i 0).val ∧ (i 0).val < win0_5.index ⟨11 * (i 0).val + 10, hb⟩ (0 : Fin 3) * 1 + 1; omega
  | ⟨1, _⟩ => show win0_5.index ⟨11 * (i 0).val + 10, hb⟩ (1 : Fin 3) * 512 ≤ (i 1).val ∧ (i 1).val < win0_5.index ⟨11 * (i 0).val + 10, hb⟩ (1 : Fin 3) * 512 + 512; omega
  | ⟨2, _⟩ => show win0_5.index ⟨11 * (i 0).val + 10, hb⟩ (2 : Fin 3) * 2048 ≤ (i 2).val ∧ (i 2).val < win0_5.index ⟨11 * (i 0).val + 10, hb⟩ (2 : Fin 3) * 2048 + 2048; omega

end Arr0

variable (V : (c : Dev nD) → (b : Ref sig .tc) → Buf (Elt Ideal) ((c : Thread nD τ).loc b))

/-- The call's result array after its last point, as one function of its operand arrays at entry. -/
theorem arr0_final (c : Dev nD) :
    ((dat0 (F := Ideal) V c).arrAt 5 cfg0.N : A3 32 512 2048)
      = routedSpec (V c main_v12 : A3 32 512 2048) (V c main_arg3 : A3 32 2048 1408) (V c main_arg4 : A3 32 2048 1408)
          (V c main_arg5 : A3 32 1408 2048) (V c main_v21 : A3 32 512 1) :=
  (dat0 (F := Ideal) V c).arrAt_eq_of_cover 5
    (routedSpec (V c main_v12 : A3 32 512 2048) (V c main_arg3 : A3 32 2048 1408) (V c main_arg4 : A3 32 2048 1408)
      (V c main_arg5 : A3 32 1408 2048) (V c main_v21 : A3 32 512 1))
    (fun t hfl => Arr0.flushed5_eq V c t hfl) Arr0.cover5

end Cert.KernelIdeal.HandV

end
-- ==== Proof.KIV.Arr1.lean ====
/-
  What the shared feed-forward call leaves in its result array, over the extended reals: tile t writes rows
  64 t … 64 t + 63, the 64 tiles cover the 4096 rows, and an entry of a written row is the row's feed-forward through the
  three weight matrices plus the routed sum's entry (sharedSpec).
-/
import proofs.«402449_j23871428231438_3_alg».proof.Proof.KI.Region1
import proofs.«402449_j23871428231438_3_alg».proof.Proof.KIV.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

namespace SharedCall

/-! ## The two matrix products of the body, at an entry

Both contract the left operand's columns against the right operand's rows; into a zero accumulator the product's
entry (p, q) is the sum over the contracted index k of left (p, k) times right (k, q). -/

theorem up_lhs_0 (i : S64x2816.Idx) (κ : dot_S64x2048_S2048x2816_S64x2816_1_0_0_1_n_n.contr.Idx) :
    (dot_S64x2048_S2048x2816_S64x2816_1_0_0_1_n_n.lhsIdx i κ 0).val = (i 0).val := by
  unfold DotDims.lhsIdx
  rw [dif_neg (show ¬(0 : Fin S64x2048.rank) ∈ dot_S64x2048_S2048x2816_S64x2816_1_0_0_1_n_n.lhsBatch by decide),
    dif_pos (show (0 : Fin S64x2048.rank) ∈ dot_S64x2048_S2048x2816_S64x2816_1_0_0_1_n_n.lhsNonContracting by decide)]
  rfl
theorem up_lhs_1 (i : S64x2816.Idx) (κ : dot_S64x2048_S2048x2816_S64x2816_1_0_0_1_n_n.contr.Idx) :
    (dot_S64x2048_S2048x2816_S64x2816_1_0_0_1_n_n.lhsIdx i κ 1).val = (κ ⟨0, by decide⟩).val :=
  dot_S64x2048_S2048x2816_S64x2816_1_0_0_1_n_n.lhsIdx_val_of_single rfl i κ
theorem up_rhs_0 (i : S64x2816.Idx) (κ : dot_S64x2048_S2048x2816_S64x2816_1_0_0_1_n_n.contr.Idx) :
    (dot_S64x2048_S2048x2816_S64x2816_1_0_0_1_n_n.rhsIdx i κ 0).val = (κ ⟨0, by decide⟩).val :=
  dot_S64x2048_S2048x2816_S64x2816_1_0_0_1_n_n.rhsIdx_val_of_single rfl i κ
theorem up_rhs_1 (i : S64x2816.Idx) (κ : dot_S64x2048_S2048x2816_S64x2816_1_0_0_1_n_n.contr.Idx) :
    (dot_S64x2048_S2048x2816_S64x2816_1_0_0_1_n_n.rhsIdx i κ 1).val = (i 1).val := by
  unfold DotDims.rhsIdx
  rw [dif_neg (show ¬(1 : Fin S2048x2816.rank) ∈ dot_S64x2048_S2048x2816_S64x2816_1_0_0_1_n_n.rhsBatch by decide),
    dif_pos (show (1 : Fin S2048x2816.rank) ∈ dot_S64x2048_S2048x2816_S64x2816_1_0_0_1_n_n.rhsNonContracting by decide)]
  rfl

/-- The activations' tile times a 2048 × 2816 weight matrix, at (p, f). -/
theorem up_product_at (a : FVec Ideal S64x2048 .bf16) (b : FVec Ideal S2048x2816 .bf16) (p : Fin 64) (f : Fin 2816) :
    matmul dot_S64x2048_S2048x2816_S64x2816_1_0_0_1_n_n none a b (constant (F := Ideal) S64x2816 .f32 0x00000000#32) (ix2 p f)
      = ∑ k : Fin 2048, a (ix2 p k) * b (ix2 k f) := by
  simp only [matmul]
  rw [Ideal.matmul_constant_zero_apply,
    ← Equiv.sum_comp (contrEquiv1 dot_S64x2048_S2048x2816_S64x2816_1_0_0_1_n_n 2048 rfl rfl).symm]
  refine Finset.sum_congr rfl fun k _ => ?_
  have hk := contrEquiv1_symm_val dot_S64x2048_S2048x2816_S64x2816_1_0_0_1_n_n 2048 rfl rfl k
  have el : dot_S64x2048_S2048x2816_S64x2816_1_0_0_1_n_n.lhsIdx (ix2 p f)
      ((contrEquiv1 dot_S64x2048_S2048x2816_S64x2816_1_0_0_1_n_n 2048 rfl rfl).symm k) = ix2 p k :=
    funext fun d => Fin.ext (by
      match d with
      | ⟨0, _⟩ => exact up_lhs_0 _ _
      | ⟨1, _⟩ => exact (up_lhs_1 _ _).trans hk)
  have er : dot_S64x2048_S2048x2816_S64x2816_1_0_0_1_n_n.rhsIdx (ix2 p f)
      ((contrEquiv1 dot_S64x2048_S2048x2816_S64x2816_1_0_0_1_n_n 2048 rfl rfl).symm k) = ix2 k f :=
    funext fun d => Fin.ext (by
      match d with
      | ⟨0, _⟩ => exact (up_rhs_0 _ _).trans hk
      | ⟨1, _⟩ => exact up_rhs_1 _ _)
  rw [el, er]

theorem down_lhs_0 (i : S64x2048.Idx) (κ : dot_S64x2816_S2816x2048_S64x2048_1_0_0_1_n_n.contr.Idx) :
    (dot_S64x2816_S2816x2048_S64x2048_1_0_0_1_n_n.lhsIdx i κ 0).val = (i 0).val := by
  unfold DotDims.lhsIdx
  rw [dif_neg (show ¬(0 : Fin S64x2816.rank) ∈ dot_S64x2816_S2816x2048_S64x2048_1_0_0_1_n_n.lhsBatch by decide),
    dif_pos (show (0 : Fin S64x2816.rank) ∈ dot_S64x2816_S2816x2048_S64x2048_1_0_0_1_n_n.lhsNonContracting by decide)]
  rfl
theorem down_lhs_1 (i : S64x2048.Idx) (κ : dot_S64x2816_S2816x2048_S64x2048_1_0_0_1_n_n.contr.Idx) :
    (dot_S64x2816_S2816x2048_S64x2048_1_0_0_1_n_n.lhsIdx i κ 1).val = (κ ⟨0, by decide⟩).val :=
  dot_S64x2816_S2816x2048_S64x2048_1_0_0_1_n_n.lhsIdx_val_of_single rfl i κ
theorem down_rhs_0 (i : S64x2048.Idx) (κ : dot_S64x2816_S2816x2048_S64x2048_1_0_0_1_n_n.contr.Idx) :
    (dot_S64x2816_S2816x2048_S64x2048_1_0_0_1_n_n.rhsIdx i κ 0).val = (κ ⟨0, by decide⟩).val :=
  dot_S64x2816_S2816x2048_S64x2048_1_0_0_1_n_n.rhsIdx_val_of_single rfl i κ
theorem down_rhs_1 (i : S64x2048.Idx) (κ : dot_S64x2816_S2816x2048_S64x2048_1_0_0_1_n_n.contr.Idx) :
    (dot_S64x2816_S2816x2048_S64x2048_1_0_0_1_n_n.rhsIdx i κ 1).val = (i 1).val := by
  unfold DotDims.rhsIdx
  rw [dif_neg (show ¬(1 : Fin S2816x2048.rank) ∈ dot_S64x2816_S2816x2048_S64x2048_1_0_0_1_n_n.rhsBatch by decide),
    dif_pos (show (1 : Fin S2816x2048.rank) ∈ dot_S64x2816_S2816x2048_S64x2048_1_0_0_1_n_n.rhsNonContracting by decide)]
  rfl

/-- The gated tile times the 2816 × 2048 down matrix, at (p, q). -/
theorem down_product_at (a : FVec Ideal S64x2816 .bf16) (b : FVec Ideal S2816x2048 .bf16) (p : Fin 64) (q : Fin 2048) :
    matmul dot_S64x2816_S2816x2048_S64x2048_1_0_0_1_n_n none a b (constant (F := Ideal) S64x2048 .f32 0x00000000#32) (ix2 p q)
      = ∑ f : Fin 2816, a (ix2 p f) * b (ix2 f q) := by
  simp only [matmul]
  rw [Ideal.matmul_constant_zero_apply,
    ← Equiv.sum_comp (contrEquiv1 dot_S64x2816_S2816x2048_S64x2048_1_0_0_1_n_n 2816 rfl rfl).symm]
  refine Finset.sum_congr rfl fun f _ => ?_
  have hf := contrEquiv1_symm_val dot_S64x2816_S2816x2048_S64x2048_1_0_0_1_n_n 2816 rfl rfl f
  have el : dot_S64x2816_S2816x2048_S64x2048_1_0_0_1_n_n.lhsIdx (ix2 p q)
      ((contrEquiv1 dot_S64x2816_S2816x2048_S64x2048_1_0_0_1_n_n 2816 rfl rfl).symm f) = ix2 p f :=
    funext fun d => Fin.ext (by
      match d with
      | ⟨0, _⟩ => exact down_lhs_0 _ _
      | ⟨1, _⟩ => exact (down_lhs_1 _ _).trans hf)
  have er : dot_S64x2816_S2816x2048_S64x2048_1_0_0_1_n_n.rhsIdx (ix2 p q)
      ((contrEquiv1 dot_S64x2816_S2816x2048_S64x2048_1_0_0_1_n_n 2816 rfl rfl).symm f) = ix2 f q :=
    funext fun d => Fin.ext (by
      match d with
      | ⟨0, _⟩ => exact (down_rhs_0 _ _).trans hf
      | ⟨1, _⟩ => exact down_rhs_1 _ _)
  rw [el, er]

/-! ## The body's payload at an entry -/

/-- The logistic of a tile is taken entry by entry. -/
theorem logistic_at {s : Shape} {φ : FTy} (a : FVec Ideal s φ) (i : s.Idx) : logistic a i = Ideal.logistic (a i) := rfl

/-- Entry (p, q) of the stored tile: the tile's row p through the gate and up matrices, gated, through the down
    matrix's column q, plus the routed sum's entry. -/
theorem shared_payload_at (x0 : Vec Ideal S64x2048 .bf16) (x1 x2 : Vec Ideal S2048x2816 .bf16) (x3 : Vec Ideal S2816x2048 .bf16)
    (x4 : Vec Ideal S64x2048 .f32) (p : Fin 64) (q : Fin 2048) :
    k1_pay1 x0 x1 x2 x3 x4 (ix2 p q)
      = (∑ f : Fin 2816, hidden (fun k : Fin 2048 => x0 (ix2 p k)) (fun k => x1 (ix2 k f)) (fun k => x2 (ix2 k f)) * x3 (ix2 f q))
          + x4 (ix2 p q) := by
  unfold k1_pay1
  simp only [shapeCast_self]
  rw [addf_apply, down_product_at]
  refine congrArg (· + x4 (ix2 p q)) (Finset.sum_congr rfl fun f _ => ?_)
  rw [truncf_apply, mulf_apply, mulf_apply, logistic_at, up_product_at, up_product_at]
  rfl

/-! ## The tiles' blocks, as rows of the operand arrays -/

variable (V : (c : Dev nD) → (b : Ref sig .tc) → Buf (Elt Ideal) ((c : Thread nD τ).loc b))

/-- The index maps over the grid: the activations, the routed sum and the result move one 64-row block per tile and stay in
    the one column block; the three weight matrices stay at their one block. -/
theorem tile_blocks : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row p of tile t of the activations is row 64 t + p of the array. -/
theorem acts_tile_at (c : Dev nD) (t : Fin cfg1.N) (p : Fin 64) (k : Fin 2048) (r : Fin 4096) (hr : r.val = 64 * t.val + p.val) :
    (iblk1 V c 0 t : Vec Ideal S64x2048 .bf16) (ix2 p k) = (V c main_v34 : A2 4096 2048) (ix2 r k) := by
  obtain ⟨e0, e1, -⟩ := tile_blocks t
  unfold iblk1
  rw [View.read_apply]
  show (V c main_v34 : A2 4096 2048) _ = (V c main_v34 : A2 4096 2048) _
  congr 1
  funext a
  apply Fin.ext
  match a with
  | ⟨0, _⟩ => show win1_0.index t (0 : Fin 2) * 64 + 1 * p.val = r.val; rw [e0, hr]; omega
  | ⟨1, _⟩ => show win1_0.index t (1 : Fin 2) * 2048 + 1 * k.val = k.val; rw [e1]; omega

/-- The gate matrix's one block is the matrix. -/
theorem gate_block_at (c : Dev nD) (t : Fin cfg1.N) (k : Fin 2048) (f : Fin 2816) :
    (iblk1 V c 1 t : Vec Ideal S2048x2816 .bf16) (ix2 k f) = (V c main_v35 : A2 2048 2816) (ix2 k f) := by
  obtain ⟨-, -, e0, e1, -⟩ := tile_blocks t
  unfold iblk1
  rw [View.read_apply]
  show (V c main_v35 : A2 2048 2816) _ = (V c main_v35 : A2 2048 2816) _
  congr 1
  funext a
  apply Fin.ext
  match a with
  | ⟨0, _⟩ => show win1_1.index t (0 : Fin 2) * 2048 + 1 * k.val = k.val; rw [e0]; omega
  | ⟨1, _⟩ => show win1_1.index t (1 : Fin 2) * 2816 + 1 * f.val = f.val; rw [e1]; omega

/-- The up matrix's one block is the matrix. -/
theorem up_block_at (c : Dev nD) (t : Fin cfg1.N) (k : Fin 2048) (f : Fin 2816) :
    (iblk1 V c 2 t : Vec Ideal S2048x2816 .bf16) (ix2 k f) = (V c main_v36 : A2 2048 2816) (ix2 k f) := by
  obtain ⟨-, -, -, -, e0, e1, -⟩ := tile_blocks t
  unfold iblk1
  rw [View.read_apply]
  show (V c main_v36 : A2 2048 2816) _ = (V c main_v36 : A2 2048 2816) _
  congr 1
  funext a
  apply Fin.ext
  match a with
  | ⟨0, _⟩ => show win1_2.index t (0 : Fin 2) * 2048 + 1 * k.val = k.val; rw [e0]; omega
  | ⟨1, _⟩ => show win1_2.index t (1 : Fin 2) * 2816 + 1 * f.val = f.val; rw [e1]; omega

/-- The down matrix's one block is the matrix. -/
theorem down_block_at (c : Dev nD) (t : Fin cfg1.N) (f : Fin 2816) (q : Fin 2048) :
    (iblk1 V c 3 t : Vec Ideal S2816x2048 .bf16) (ix2 f q) = (V c main_v37 : A2 2816 2048) (ix2 f q) := by
  obtain ⟨-, -, -, -, -, -, e0, e1, -⟩ := tile_blocks t
  unfold iblk1
  rw [View.read_apply]
  show (V c main_v37 : A2 2816 2048) _ = (V c main_v37 : A2 2816 2048) _
  congr 1
  funext a
  apply Fin.ext
  match a with
  | ⟨0, _⟩ => show win1_3.index t (0 : Fin 2) * 2816 + 1 * f.val = f.val; rw [e0]; omega
  | ⟨1, _⟩ => show win1_3.index t (1 : Fin 2) * 2048 + 1 * q.val = q.val; rw [e1]; omega

/-- Row p of tile t of the routed sum is row 64 t + p of the array. -/
theorem routed_tile_at (c : Dev nD) (t : Fin cfg1.N) (p : Fin 64) (q : Fin 2048) (r : Fin 4096) (hr : r.val = 64 * t.val + p.val) :
    (iblk1 V c 4 t : Vec Ideal S64x2048 .f32) (ix2 p q) = (V c main_v33 : A2 4096 2048) (ix2 r q) := by
  obtain ⟨-, -, -, -, -, -, -, -, e0, e1, -⟩ := tile_blocks t
  unfold iblk1
  rw [View.read_apply]
  show (V c main_v33 : A2 4096 2048) _ = (V c main_v33 : A2 4096 2048) _
  congr 1
  funext a
  apply Fin.ext
  match a with
  | ⟨0, _⟩ => show win1_4.index t (0 : Fin 2) * 64 + 1 * p.val = r.val; rw [e0, hr]; omega
  | ⟨1, _⟩ => show win1_4.index t (1 : Fin 2) * 2048 + 1 * q.val = q.val; rw [e1]; omega

/-! ## What a tile writes back -/

/-- Entry (p, q) of tile t's stored block is the layer's shared part at token row 64 t + p, column q. -/
theorem tile_entry (c : Dev nD) (t : Fin cfg1.N) (p : Fin 64) (q : Fin 2048) (r : Fin 4096) (hr : r.val = 64 * t.val + p.val) :
    k1_pay1 (iblk1 V c 0 t) (iblk1 V c 1 t) (iblk1 V c 2 t) (iblk1 V c 3 t) (iblk1 V c 4 t) (ix2 p q)
      = sharedAt (V c main_v34 : A2 4096 2048) (V c main_v35 : A2 2048 2816) (V c main_v36 : A2 2048 2816)
          (V c main_v37 : A2 2816 2048) (V c main_v33 : A2 4096 2048) r q := by
  refine (shared_payload_at _ _ _ _ _ p q).trans ?_
  unfold sharedAt
  rw [routed_tile_at V c t p q r hr]
  refine congrArg (· + _) (Finset.sum_congr rfl fun f _ => ?_)
  rw [down_block_at V c t f q]
  refine congrArg (· * _) ?_
  exact congr (congr (congrArg (hidden (K := 2048)) (funext fun k => acts_tile_at V c t p k r hr))
    (funext fun k => gate_block_at V c t k f)) (funext fun k => up_block_at V c t k f)

/-- Tile t writes back the block of sharedSpec its rectangle names. -/
theorem tile_writes (c : Dev nD) (t : Fin cfg1.N) :
    (dat1 (F := Ideal) V c).flushed 5 t = ((cfg1.win 5).blk t).view.read (Elt Ideal)
      (sharedSpec (V c main_v34 : A2 4096 2048) (V c main_v35 : A2 2048 2816) (V c main_v36 : A2 2048 2816)
        (V c main_v37 : A2 2816 2048) (V c main_v33 : A2 4096 2048)) := by
  obtain ⟨-, -, -, -, -, -, -, -, -, -, e0, e1⟩ := tile_blocks t
  have ht : t.val < 64 := Nat.lt_of_lt_of_eq t.isLt (show cfg1.N = 64 from N_1)
  show (cfg1.win 5).cut (grid1.coords t) ((dat1 V c).after 5 t) = _
  rw [after1_5, out1_5_eq]
  funext j
  obtain ⟨p, q, rfl⟩ : ∃ (p : Fin 64) (q : Fin 2048), j = ix2 p q := ⟨j 0, j 1, eq_ix2 j⟩
  refine (tile_entry V c t p q ⟨64 * t.val + p.val, by omega⟩ rfl).trans ?_
  rw [View.read_apply]
  show _ = sharedSpec _ _ _ _ _ (((cfg1.win 5).blk t).view.emb (ix2 p q))
  unfold sharedSpec
  congr 1 <;> apply Fin.ext
  · show 64 * t.val + p.val = win1_5.index t (0 : Fin 2) * 64 + 1 * p.val; rw [e0]; omega
  · show q.val = win1_5.index t (1 : Fin 2) * 2048 + 1 * q.val; rw [e1]; omega

/-! ## The tiles cover the rows -/

/-- An entry of the result array lies in tile t's block exactly when its row is one of the tile's 64 and its column any. -/
theorem mem_tile (t : Fin cfg1.N) (i : S4096x2048.Idx) :
    i ∈ ((cfg1.win 5).blk t).view.set ↔ ∀ a : Fin 2, win1_5.index t a * S64x2048.size a ≤ (i a).val
      ∧ (i a).val < win1_5.index t a * S64x2048.size a + S64x2048.size a := by
  show i ∈ ((View.whole main_v38).slice (win1_5.rect t)).set ↔ _
  rw [View.set_slice_whole, Rect.mem_set_unit]
  exact Iff.rfl

/-- Row r is written by tile r / 64. -/
theorem row_in_tile (i : S4096x2048.Idx) :
    ∃ t : Fin cfg1.N, (cfg1.win 5).flush t = true ∧ i ∈ ((cfg1.win 5).blk t).view.set := by
  have h0 : (i 0).val < 4096 := (i 0).isLt
  have h1 : (i 1).val < 2048 := (i 1).isLt
  have hN : (i 0).val / 64 < cfg1.N := by rw [show cfg1.N = 64 from N_1]; omega
  refine ⟨⟨(i 0).val / 64, hN⟩, flush1_5 _, ?_⟩
  obtain ⟨-, -, -, -, -, -, -, -, -, -, e0, e1⟩ := tile_blocks ⟨(i 0).val / 64, hN⟩
  rw [mem_tile]
  intro a
  match a with
  | ⟨0, _⟩ =>
    show win1_5.index ⟨(i 0).val / 64, hN⟩ (0 : Fin 2) * 64 ≤ (i 0).val ∧ (i 0).val < win1_5.index ⟨(i 0).val / 64, hN⟩ (0 : Fin 2) * 64 + 64
    rw [e0]; show (i 0).val / 64 * 64 ≤ (i 0).val ∧ (i 0).val < (i 0).val / 64 * 64 + 64; omega
  | ⟨1, _⟩ =>
    show win1_5.index ⟨(i 0).val / 64, hN⟩ (1 : Fin 2) * 2048 ≤ (i 1).val ∧ (i 1).val < win1_5.index ⟨(i 0).val / 64, hN⟩ (1 : Fin 2) * 2048 + 2048
    rw [e1]; omega

end SharedCall

open SharedCall

variable (V : (c : Dev nD) → (b : Ref sig .tc) → Buf (Elt Ideal) ((c : Thread nD τ).loc b))

/-! ## The array -/

/-- The call's result array after its last tile, as one function of its operand arrays at entry. -/
theorem arr1_final (c : Dev nD) :
    ((dat1 (F := Ideal) V c).arrAt 5 cfg1.N : A2 4096 2048)
      = sharedSpec (V c main_v34 : A2 4096 2048) (V c main_v35 : A2 2048 2816) (V c main_v36 : A2 2048 2816)
          (V c main_v37 : A2 2816 2048) (V c main_v33 : A2 4096 2048) :=
  (dat1 (F := Ideal) V c).arrAt_eq_of_cover 5 _ (fun t _ => tile_writes V c t) row_in_tile

end Cert.KernelIdeal.HandV

end
-- ==== Proof.KIV.GatherRead.lean ====
/-
  A gather whose start indices are one scalar per result row, read at an index: result row `j` of a row gather is the
  operand's row at the start index `idx[j, 0]`, read as a signed integer and clamped into the operand's rows; a scalar
  gather of a flat operand reads the one element there.
-/
import Idealize.ShloMosaic.PureOps
import Idealize.ShloMosaic.Lib.ValueIdx

noncomputable section

namespace Cert.KernelIdeal.HandV

open Idealize.ShloMosaic Idealize.ShloMosaic.ValueIdx

namespace GatherRead
variable {α : Type}

/-- Dimension numbers of a row gather: operand `[N, C]`, start indices `[R, 1]`, result `[R, C]`; the row axis is
    collapsed and indexed, the column axis is the one offset axis. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(j, d)`: the operand at row `idx[j, 0]` (signed, clamped into `[0, N − 1]`), column `d`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : Fin R) (d : Fin C) :
    Host.gather (rowDims N C R wf) x idx (ix2 j d)
      = x (ix2 (⟨min (idx (ix2 j (0 : Fin 1))).toInt.toNat (N - 1), by omega⟩ : Fin N) d) := by
  unfold Host.gather
  congr 1
  funext a
  refine Fin.ext ?_
  match a with
  | ⟨0, _⟩ =>
    show (rowDims N C R wf).start (ix2 j d) idx 0 + (rowDims N C R wf).batchCoord (ix2 j d) 0
      + (rowDims N C R wf).offCoord (ix2 j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 j d) ⟨List.idxOf (0 : Fin 2) (rowDims N C R wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    show (rowDims N C R wf).start (ix2 j d) idx 1 + (rowDims N C R wf).batchCoord (ix2 j d) 1
      + (rowDims N C R wf).offCoord (ix2 j d) 1 = d.val
    rw [GatherDims.batchCoord_eq_zero _ _ _ List.not_mem_nil]
    unfold GatherDims.start
    rw [dif_neg (show (1 : Fin 2) ∉ (rowDims N C R wf).startIndexMap from
      fun h => absurd (show (1 : Nat) = 0 from congrArg Fin.val (List.mem_singleton.mp h)) Nat.one_ne_zero)]
    simp only [Nat.add_zero, Nat.zero_add]
    rfl

/-- Dimension numbers of a scalar gather: operand `[N]`, start indices `[R, 1]`, result `[R]`. -/
abbrev scalarDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The scalar gather at `j`: the operand at `idx[j, 0]` (signed, clamped into `[0, N − 1]`). -/
theorem gather_scalars_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : Fin R) :
    Host.gather (scalarDims N R wf) x idx (ix1 j)
      = x (ix1 (⟨min (idx (ix2 j (0 : Fin 1))).toInt.toNat (N - 1), by omega⟩ : Fin N)) := by
  unfold Host.gather
  congr 1
  funext a
  obtain rfl : a = 0 := Subsingleton.elim _ _
  refine Fin.ext ?_
  show (scalarDims N R wf).start (ix1 j) idx 0 + (scalarDims N R wf).batchCoord (ix1 j) 0
    + (scalarDims N R wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (scalarDims N R wf).startIndexMap from List.mem_singleton.mpr rfl)]
  have hsi : (scalarDims N R wf).siIdx (ix1 j) ⟨List.idxOf (0 : Fin 1) (scalarDims N R wf).startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

end GatherRead

end Cert.KernelIdeal.HandV

end
-- ==== Proof.KIV.KernelOperands.lean ====
/-
  What the routed-experts call is entered from, over the extended reals: its row operand is the flattened activations
  gathered by the sorted ids floor-divided by 4 (position `(e, r)` takes token row `grOf I (slot e r)`), its weight operand
  the flattened combine weights gathered by the sorted ids (position `(e, r)` takes slot `gsOf I (slot e r)`'s weight), and
  its three weight operands are the arguments themselves.
-/
import proofs.«402449_j23871428231438_3_alg».proof.Proof.KI.Run
import proofs.«402449_j23871428231438_3_alg».proof.Proof.KIV.Spec
import proofs.«402449_j23871428231438_3_alg».proof.Proof.KIV.Index
import proofs.«402449_j23871428231438_3_alg».proof.Proof.KIV.GatherRead
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

namespace RoutedOperands

/-! ### References no earlier stretch writes -/

/-- A reference none of the first five stretches writes holds its launch contents at the first region's entry. -/
theorem Ve0_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : Ve0 m c r = m ((c.tc : Thread nD τ).loc r) :=
  (V5_of m c r h4).trans <| (V4_of m c r h3).trans <| (V3_of m c r h2).trans <| (V2_of m c r h1).trans <| (V1_of m c r h0)

/-! ### The host stretches before the first region, one at a time, from any contents `W` -/

section Stretches
variable (W : Valuation τ sig (Elt Ideal))

/-- The first stretch flattens the activations and the expert ids. -/
theorem stretch0_v0 : (StableHlo.after hostOps0 W (Proc.devRef .tc main_v0) : A2 4096 2048)
    = shapeCast S4096x2048 (W (Proc.devRef .tc main_arg0) : A3 2 2048 2048) shapeCasts_S2x2048x2048_S4096x2048 := by
  after_results
  rfl
theorem stretch0_v1 : (StableHlo.after hostOps0 W (Proc.devRef .tc main_v1) : IVec S16384 32)
    = shapeCast S16384 (W (Proc.devRef .tc main_arg1) : IVec S4096x4 32) shapeCasts_S4096x4_S16384 := by
  after_results
  rfl

/-- A sort beside the positions leaves the positions in sorted order of the keys it is given. -/
theorem stretch1_v2 : (StableHlo.after hostOps0_1 W (Proc.devRef .tc main_v2) : IVec S16384 32)
    = (Host.sort2 S16384 0 comparator_i32_i32_d0 (W (Proc.devRef .tc main_v1) : IVec S16384 32) (iotaInDim S16384 32 0)).2 := by
  after_results
  rfl
theorem stretch7_v24 : (StableHlo.after hostOps1_1 W (Proc.devRef .tc main_v24) : IVec S16384 32)
    = (Host.sort2 S16384 0 comparator_i32_i32_d0 (W (Proc.devRef .tc main_v2) : IVec S16384 32) (iotaInDim S16384 32 0)).2 := by
  after_results
  rfl

/-- The divisor is the constant 4. -/
theorem stretch2_c : (StableHlo.after hostOps0_2 W (Proc.devRef .tc main_c) : IVec S_ 32) = constantI S_ 32 4#32 := by
  after_results

set_option maxHeartbeats 2000000 in
/-- The seventeen operations of the floor division by the constant, word by word. -/
theorem stretch3_v3 (hc : (W (Proc.devRef .tc main_c) : IVec S_ 32) = constantI S_ 32 4#32) :
    (StableHlo.after hostOps0_3 W (Proc.devRef .tc main_v3) : IVec S16384 32)
      = fun i => floorDiv4 ((W (Proc.devRef .tc main_v2) : IVec S16384 32) i) := by
  after_results_simp
  simp only [StableHlo.TRef.ofBuf, StableHlo.TRef.toBuf, cast_eq]
  rw [hc]
  rfl

end Stretches

section Stretches2
variable (W : Valuation τ sig (Elt Ideal))

/-- The last stretch before the call, at the row operand: the gather of the flattened activations by the wrapped row ids,
    regrouped by expert; the change of float format is the identity. -/
theorem stretch4_v12 : (StableHlo.after hostOps0_4 W (Proc.devRef .tc main_v12) : A3 32 512 2048)
    = shapeCast S32x512x2048 (Host.gather gather_S4096x2048_S16384x1_S16384x2048_1_0_n_n_0_1_12048
        (W (Proc.devRef .tc main_v0) : A2 4096 2048)
        (broadcastInDim S16384x1 ![0] bcast_S16384_S16384x1_0
          (select (cmpi .slt (W (Proc.devRef .tc main_v3) : IVec S16384 32) (broadcastInDim S16384 ![] bcast_S_S16384 (constantI S_ 32 0#32)))
            (addi (W (Proc.devRef .tc main_v3) : IVec S16384 32) (broadcastInDim S16384 ![] bcast_S_S16384 (constantI S_ 32 4096#32)))
            (W (Proc.devRef .tc main_v3) : IVec S16384 32))))
        shapeCasts_S16384x2048_S32x512x2048 := by
  after_results
  rfl

set_option maxHeartbeats 2000000 in
/-- … and at the weight operand: the gather of the flattened combine weights by the wrapped sorted ids, regrouped. -/
theorem stretch4_v21 : (StableHlo.after hostOps0_4 W (Proc.devRef .tc main_v21) : A3 32 512 1)
    = shapeCast S32x512x1 (Host.gather gather_S16384_S16384x1_S16384_n_0_n_n_0_1_1
        (shapeCast S16384 (W (Proc.devRef .tc main_arg2) : A2 4096 4) shapeCasts_S4096x4_S16384)
        (broadcastInDim S16384x1 ![0] bcast_S16384_S16384x1_0
          (select (cmpi .slt (W (Proc.devRef .tc main_v2) : IVec S16384 32) (broadcastInDim S16384 ![] bcast_S_S16384 (constantI S_ 32 0#32)))
            (addi (W (Proc.devRef .tc main_v2) : IVec S16384 32) (broadcastInDim S16384 ![] bcast_S_S16384 (constantI S_ 32 16384#32)))
            (W (Proc.devRef .tc main_v2) : IVec S16384 32))))
        shapeCasts_S16384_S32x512x1 := by
  after_results_simp
  rfl

end Stretches2

/-! ### The gathered operands read at an index, over variable arrays -/

/-- The flattened activations at `(t, k)`. -/
theorem flat_read (X : A3 2 2048 2048) (t : Fin 4096) (k : Fin 2048) :
    shapeCast S4096x2048 X shapeCasts_S2x2048x2048_S4096x2048 (ix2 t k) = xflatAt X t k := by
  unfold xflatAt
  refine shapeCast_apply X shapeCasts_S2x2048x2048_S4096x2048 (ix2 t k) _ ?_
  rw [Shape.rowMajor_val_three, Shape.rowMajor_val_two]
  show (t.val / 2048 * 2048 + t.val % 2048) * 2048 + k.val = t.val * 2048 + k.val
  omega

/-- The flattened combine weights at slot `p`. -/
theorem flatw_read (Wt : A2 4096 4) (p : Fin 16384) :
    shapeCast S16384 Wt shapeCasts_S4096x4_S16384 (ix1 p) = Wt (ix2 (tokOf p) (kOf p)) := by
  refine shapeCast_apply Wt shapeCasts_S4096x4_S16384 (ix1 p) _ ?_
  rw [Shape.rowMajor_val_two, Shape.rowMajor_val_one]
  show p.val / 4 * 4 + p.val % 4 = p.val
  omega

/-- A wrapped index column at `(j, 0)`: the wrap, word by word, of the ids at `j`. -/
theorem wrapcol_read (n : BitVec 32) (v : IVec S16384 32) (j : Fin 16384) :
    broadcastInDim S16384x1 ![0] bcast_S16384_S16384x1_0
        (select (cmpi .slt v (broadcastInDim S16384 ![] bcast_S_S16384 (constantI S_ 32 0#32)))
          (addi v (broadcastInDim S16384 ![] bcast_S_S16384 (constantI S_ 32 n))) v) (ix2 j (0 : Fin 1))
      = wrapW n (v (ix1 j)) := by
  refine (broadcastInDim_apply _ bcast_S16384_S16384x1_0 _ (ix2 j (0 : Fin 1)) (ix1 j) (fun a => match a with
    | ⟨0, _⟩ => by show j.val = if (16384 : Nat) = 1 then 0 else j.val; rw [if_neg (by decide)])).trans ?_
  rfl

/-- The routed call's row operand at `(e, r, k)`: the flattened activations at the row the wrapped, clamped id names. -/
theorem xb_read (x0 : A2 4096 2048) (v3 : IVec S16384 32) (e : Fin 32) (r : Fin 512) (k : Fin 2048) :
    (shapeCast S32x512x2048 (Host.gather gather_S4096x2048_S16384x1_S16384x2048_1_0_n_n_0_1_12048 x0
        (broadcastInDim S16384x1 ![0] bcast_S16384_S16384x1_0
          (select (cmpi .slt v3 (broadcastInDim S16384 ![] bcast_S_S16384 (constantI S_ 32 0#32)))
            (addi v3 (broadcastInDim S16384 ![] bcast_S_S16384 (constantI S_ 32 4096#32))) v3)))
        shapeCasts_S16384x2048_S32x512x2048 : A3 32 512 2048) (ix3 e r k)
      = x0 (ix2 (clampIdx 4096 (by decide) (wrapW 4096#32 (v3 (ix1 (slot e r))))) k) := by
  refine (shapeCast_apply _ shapeCasts_S16384x2048_S32x512x2048 (ix3 e r k) (ix2 (slot e r) k) ?_).trans ?_
  · rw [Shape.rowMajor_val_two, Shape.rowMajor_val_three]
    show (512 * e.val + r.val) * 2048 + k.val = (e.val * 512 + r.val) * 2048 + k.val
    omega
  refine (GatherRead.gather_rows_apply (N := 4096) (C := 2048) (R := 16384) (by decide)
    gather_S4096x2048_S16384x1_S16384x2048_1_0_n_n_0_1_12048_wf x0 _ (slot e r) k).trans ?_
  exact congrArg (fun v => x0 (ix2 (clampIdx 4096 (by decide) v) k)) (wrapcol_read 4096#32 v3 (slot e r))

/-- The routed call's weight operand at `(e, r, 0)`: the flattened combine weights at the slot the wrapped, clamped id names. -/
theorem ws_read (w0 : A2 4096 4) (v2 : IVec S16384 32) (e : Fin 32) (r : Fin 512) :
    (shapeCast S32x512x1 (Host.gather gather_S16384_S16384x1_S16384_n_0_n_n_0_1_1
        (shapeCast S16384 w0 shapeCasts_S4096x4_S16384)
        (broadcastInDim S16384x1 ![0] bcast_S16384_S16384x1_0
          (select (cmpi .slt v2 (broadcastInDim S16384 ![] bcast_S_S16384 (constantI S_ 32 0#32)))
            (addi v2 (broadcastInDim S16384 ![] bcast_S_S16384 (constantI S_ 32 16384#32))) v2)))
        shapeCasts_S16384_S32x512x1 : A3 32 512 1) (ix3 e r (0 : Fin 1))
      = w0 (ix2 (tokOf (clampIdx 16384 (by decide) (wrapW 16384#32 (v2 (ix1 (slot e r))))))
          (kOf (clampIdx 16384 (by decide) (wrapW 16384#32 (v2 (ix1 (slot e r))))))) := by
  refine (shapeCast_apply _ shapeCasts_S16384_S32x512x1 (ix3 e r (0 : Fin 1)) (ix1 (slot e r)) ?_).trans ?_
  · rw [Shape.rowMajor_val_one, Shape.rowMajor_val_three]
    show 512 * e.val + r.val = (e.val * 512 + r.val) * 1 + 0
    omega
  refine (GatherRead.gather_scalars_apply (N := 16384) (R := 16384) (by decide)
    gather_S16384_S16384x1_S16384_n_0_n_n_0_1_1_wf _ _ (slot e r)).trans ?_
  refine (flatw_read w0 _).trans ?_
  exact congrArg (fun v => w0 (ix2 (tokOf (clampIdx 16384 (by decide) v)) (kOf (clampIdx 16384 (by decide) v))))
    (wrapcol_read 16384#32 v2 (slot e r))

/-! ### The sorted ids, carried to where they are read -/

/-- The expert ids as launched. -/
abbrev idsOf (c : Dev nD) : IVec S4096x4 32 := m ((c.tc : Thread nD τ).loc main_arg1)

/-- After the first sort the sorted ids' buffer holds the sorting permutation of the expert ids. -/
theorem V2_sorted (c : Dev nD) : (V2 m c (Proc.devRef .tc main_v2) : IVec S16384 32) = sortedIds (idsOf m c) := by
  refine (stretch1_v2 (V1 m c)).trans ?_
  have h1 : (V1 m c (Proc.devRef .tc main_v1) : IVec S16384 32)
      = shapeCast S16384 (idsOf m c) shapeCasts_S4096x4_S16384 := stretch0_v1 (V0 m c)
  rw [h1]
  rfl

/-- No later stretch before the second sort writes them. -/
theorem V3_sorted (c : Dev nD) : (V3 m c (Proc.devRef .tc main_v2) : IVec S16384 32) = sortedIds (idsOf m c) :=
  (V3_of m c main_v2 (by decide)).trans (V2_sorted m c)
theorem V4_sorted (c : Dev nD) : (V4 m c (Proc.devRef .tc main_v2) : IVec S16384 32) = sortedIds (idsOf m c) :=
  (V4_of m c main_v2 (by decide)).trans (V3_sorted m c)
theorem V7_sorted (c : Dev nD) : (V7 m (outs6 m) c (Proc.devRef .tc main_v2) : IVec S16384 32) = sortedIds (idsOf m c) :=
  (V7_of m (outs6 m) c main_v2 (by decide)).trans <| (V6_of m (outs6 m) c main_v2 (by decide)).trans <|
    (V5_of m c main_v2 (by decide)).trans (V4_sorted m c)

/-- The second sort's result, carried over the last stretch before the second region. -/
theorem V9_inverse (c : Dev nD) : (V9 m (outs6 m) c (Proc.devRef .tc main_v24) : IVec S16384 32) = invIds (idsOf m c) := by
  refine (V9_of m (outs6 m) c main_v24 (by decide)).trans ?_
  refine (stretch7_v24 (V7 m (outs6 m) c)).trans ?_
  rw [V7_sorted m c]
  rfl

/-- The flattened activations, carried to the last stretch. -/
theorem V4_flat (c : Dev nD) : (V4 m c (Proc.devRef .tc main_v0) : A2 4096 2048)
    = shapeCast S4096x2048 (m ((c.tc : Thread nD τ).loc main_arg0) : A3 2 2048 2048) shapeCasts_S2x2048x2048_S4096x2048 :=
  (V4_of m c main_v0 (by decide)).trans <| (V3_of m c main_v0 (by decide)).trans <| (V2_of m c main_v0 (by decide)).trans
    (stretch0_v0 (V0 m c))

/-- The combine weights as launched, at the last stretch. -/
theorem V4_weights (c : Dev nD) : (V4 m c (Proc.devRef .tc main_arg2) : A2 4096 4) = m ((c.tc : Thread nD τ).loc main_arg2) :=
  (V4_of m c main_arg2 (by decide)).trans <| (V3_of m c main_arg2 (by decide)).trans <| (V2_of m c main_arg2 (by decide)).trans
    (V1_of m c main_arg2 (by decide))

/-- The row ids: the sorted ids floor-divided by 4, word by word. -/
theorem V4_rows (c : Dev nD) : (V4 m c (Proc.devRef .tc main_v3) : IVec S16384 32)
    = fun i => floorDiv4 (sortedIds (idsOf m c) i) := by
  refine (stretch3_v3 (V3 m c) (stretch2_c (V2 m c))).trans ?_
  rw [V3_sorted m c]
  rfl

end RoutedOperands

open RoutedOperands

/-- The rows the routed-experts call is fed. -/
theorem operand_xb (c : Dev nD) :
    (Ve0 m c main_v12 : A3 32 512 2048)
      = xbK (grOf (m ((c.tc : Thread nD τ).loc main_arg1) : IVec S4096x4 32)) (m ((c.tc : Thread nD τ).loc main_arg0) : A3 2 2048 2048) := by
  funext i
  obtain ⟨e, r, k, rfl⟩ : ∃ (e : Fin 32) (r : Fin 512) (k : Fin 2048), i = ix3 e r k := ⟨i 0, i 1, i 2, eq_ix3 i⟩
  refine (congrFun (stretch4_v12 (V4 m c)) (ix3 e r k)).trans ?_
  refine (xb_read _ _ e r k).trans ?_
  rw [V4_flat m c, V4_rows m c]
  exact flat_read _ _ k

/-- The combine weights in sorted order. -/
theorem operand_ws (c : Dev nD) :
    (Ve0 m c main_v21 : A3 32 512 1)
      = wsK (gsOf (m ((c.tc : Thread nD τ).loc main_arg1) : IVec S4096x4 32)) (m ((c.tc : Thread nD τ).loc main_arg2) : A2 4096 4) := by
  funext i
  obtain ⟨e, r, z, rfl⟩ : ∃ (e : Fin 32) (r : Fin 512) (z : Fin 1), i = ix3 e r z := ⟨i 0, i 1, i 2, eq_ix3 i⟩
  obtain rfl : z = 0 := Subsingleton.elim _ _
  refine (congrFun (stretch4_v21 (V4 m c)) (ix3 e r (0 : Fin 1))).trans ?_
  refine (ws_read _ _ e r).trans ?_
  rw [V4_weights m c, V4_sorted m c]
  rfl

/-- The experts' weight arrays reach the call as launched. -/
theorem operand_arg3 (c : Dev nD) : Ve0 m c main_arg3 = m ((c.tc : Thread nD τ).loc main_arg3) :=
  Ve0_launch m c main_arg3 (by decide) (by decide) (by decide) (by decide) (by decide)
theorem operand_arg4 (c : Dev nD) : Ve0 m c main_arg4 = m ((c.tc : Thread nD τ).loc main_arg4) :=
  Ve0_launch m c main_arg4 (by decide) (by decide) (by decide) (by decide) (by decide)
theorem operand_arg5 (c : Dev nD) : Ve0 m c main_arg5 = m ((c.tc : Thread nD τ).loc main_arg5) :=
  Ve0_launch m c main_arg5 (by decide) (by decide) (by decide) (by decide) (by decide)

/-- The sorted ids reach the second sort unchanged: the inverse ids' buffer after the three stretches that follow the call
    holds Index.lean's `invIds` of the expert ids, word for word. -/
theorem inverse_ids (c : Dev nD) :
    (Ve1 m c main_v24 : IVec S16384 32) = invIds (m ((c.tc : Thread nD τ).loc main_arg1) : IVec S4096x4 32) :=
  V9_inverse m c

end Cert.KernelIdeal.HandV

end
-- ==== Proof.KIV.KernelOperands1.lean ====
/-
  What the shared feed-forward call is entered from, over the extended reals: the flattened activations and the three
  shared weight matrices (a change of float format is the identity).
-/
import proofs.«402449_j23871428231438_3_alg».proof.Proof.KI.Run
import proofs.«402449_j23871428231438_3_alg».proof.Proof.KIV.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-! ## One stretch of host operations at a time, from any contents before it -/

/-- The closing stretch before the shared call narrows the flattened activations and the three shared weights to the
    matmul's float format, and over the extended reals narrowing changes nothing. -/
theorem stretch8_v34 (W : Valuation τ sig (Elt Ideal)) :
    (StableHlo.after hostOps1_2 W (Proc.devRef .tc main_v34) : A2 4096 2048) = (W (Proc.devRef .tc main_v0) : A2 4096 2048) := by
  after_results
  rfl
theorem stretch8_v35 (W : Valuation τ sig (Elt Ideal)) :
    (StableHlo.after hostOps1_2 W (Proc.devRef .tc main_v35) : A2 2048 2816) = (W (Proc.devRef .tc main_arg6) : A2 2048 2816) := by
  after_results
  rfl
theorem stretch8_v36 (W : Valuation τ sig (Elt Ideal)) :
    (StableHlo.after hostOps1_2 W (Proc.devRef .tc main_v36) : A2 2048 2816) = (W (Proc.devRef .tc main_arg7) : A2 2048 2816) := by
  after_results
  rfl
theorem stretch8_v37 (W : Valuation τ sig (Elt Ideal)) :
    (StableHlo.after hostOps1_2 W (Proc.devRef .tc main_v37) : A2 2816 2048) = (W (Proc.devRef .tc main_arg8) : A2 2816 2048) := by
  after_results
  rfl

/-- The opening stretch reshapes the activations from (batch, sequence, feature) to (token, feature). -/
theorem stretch0_v0 (W : Valuation τ sig (Elt Ideal)) :
    StableHlo.after hostOps0 W (Proc.devRef .tc main_v0)
      = shapeCast S4096x2048 (W (Proc.devRef .tc main_arg0)) shapeCasts_S2x2048x2048_S4096x2048 := by
  after_results
  rfl

/-- That reshape at (token, feature): flat position `2048 t + k` of a `2 × 2048 × 2048` array is `(t / 2048, t % 2048, k)`. -/
theorem flatten_apply (X : A3 2 2048 2048) (t : Fin 4096) (k : Fin 2048) :
    shapeCast S4096x2048 X shapeCasts_S2x2048x2048_S4096x2048 (ix2 t k) = xflatAt X t k := by
  have ht : t.val < 4096 := t.isLt
  have hk : k.val < 2048 := k.isLt
  unfold xflatAt
  exact shapeCast_apply X shapeCasts_S2x2048x2048_S4096x2048 (ix2 t k) _
    (by rewrite [Shape.rowMajor_val_three, Shape.rowMajor_val_two]
        show (t.val / 2048 * 2048 + t.val % 2048) * 2048 + k.val = t.val * 2048 + k.val
        omega)

/-! ## Carried to the shared call's entry -/

/-- The flattened activations, written by the opening stretch, are touched by nothing up to the closing stretch. -/
theorem carried_v0 (c : Dev nD) : V8 m (outs6 m) c main_v0 = V1 m c main_v0 :=
  (V8_of m (outs6 m) c main_v0 (by decide)).trans <| (V7_of m (outs6 m) c main_v0 (by decide)).trans <|
  (V6_of m (outs6 m) c main_v0 (by decide)).trans <| (V5_of m c main_v0 (by decide)).trans <| (V4_of m c main_v0 (by decide)).trans <|
  (V3_of m c main_v0 (by decide)).trans <| (V2_of m c main_v0 (by decide))

/-- An argument no item writes is, before the closing stretch, as launched. -/
theorem carried_arg0 (c : Dev nD) : V0 m c main_arg0 = m ((c.tc : Thread nD τ).loc main_arg0) := rfl
theorem carried_arg6 (c : Dev nD) : V8 m (outs6 m) c main_arg6 = m ((c.tc : Thread nD τ).loc main_arg6) :=
  (V8_of m (outs6 m) c main_arg6 (by decide)).trans <| (V7_of m (outs6 m) c main_arg6 (by decide)).trans <|
  (V6_of m (outs6 m) c main_arg6 (by decide)).trans <| (V5_of m c main_arg6 (by decide)).trans <| (V4_of m c main_arg6 (by decide)).trans <|
  (V3_of m c main_arg6 (by decide)).trans <| (V2_of m c main_arg6 (by decide)).trans <| (V1_of m c main_arg6 (by decide)).trans rfl
theorem carried_arg7 (c : Dev nD) : V8 m (outs6 m) c main_arg7 = m ((c.tc : Thread nD τ).loc main_arg7) :=
  (V8_of m (outs6 m) c main_arg7 (by decide)).trans <| (V7_of m (outs6 m) c main_arg7 (by decide)).trans <|
  (V6_of m (outs6 m) c main_arg7 (by decide)).trans <| (V5_of m c main_arg7 (by decide)).trans <| (V4_of m c main_arg7 (by decide)).trans <|
  (V3_of m c main_arg7 (by decide)).trans <| (V2_of m c main_arg7 (by decide)).trans <| (V1_of m c main_arg7 (by decide)).trans rfl
theorem carried_arg8 (c : Dev nD) : V8 m (outs6 m) c main_arg8 = m ((c.tc : Thread nD τ).loc main_arg8) :=
  (V8_of m (outs6 m) c main_arg8 (by decide)).trans <| (V7_of m (outs6 m) c main_arg8 (by decide)).trans <|
  (V6_of m (outs6 m) c main_arg8 (by decide)).trans <| (V5_of m c main_arg8 (by decide)).trans <| (V4_of m c main_arg8 (by decide)).trans <|
  (V3_of m c main_arg8 (by decide)).trans <| (V2_of m c main_arg8 (by decide)).trans <| (V1_of m c main_arg8 (by decide)).trans rfl

/-- The shared call's row operand is the activations with batch and sequence flattened. -/
theorem operand1_x (c : Dev nD) :
    (Ve1 m c main_v34 : A2 4096 2048) = xflat (m ((c.tc : Thread nD τ).loc main_arg0) : A3 2 2048 2048) := by
  refine (stretch8_v34 (V8 m (outs6 m) c)).trans ?_
  rw [carried_v0 m c]
  refine (stretch0_v0 (V0 m c)).trans ?_
  rw [carried_arg0 m c]
  funext i
  obtain ⟨t, k, rfl⟩ : ∃ (t : Fin 4096) (k : Fin 2048), i = ix2 t k := ⟨i 0, i 1, eq_ix2 i⟩
  exact flatten_apply _ t k

/-- Its three weight operands are the shared weight arguments. -/
theorem operand1_sg (c : Dev nD) : (Ve1 m c main_v35 : A2 2048 2816) = (m ((c.tc : Thread nD τ).loc main_arg6) : A2 2048 2816) :=
  (stretch8_v35 (V8 m (outs6 m) c)).trans (carried_arg6 m c)
theorem operand1_su (c : Dev nD) : (Ve1 m c main_v36 : A2 2048 2816) = (m ((c.tc : Thread nD τ).loc main_arg7) : A2 2048 2816) :=
  (stretch8_v36 (V8 m (outs6 m) c)).trans (carried_arg7 m c)
theorem operand1_sd (c : Dev nD) : (Ve1 m c main_v37 : A2 2816 2048) = (m ((c.tc : Thread nD τ).loc main_arg8) : A2 2816 2048) :=
  (stretch8_v37 (V8 m (outs6 m) c)).trans (carried_arg8 m c)

end Cert.KernelIdeal.HandV

end
-- ==== Proof.KIV.KernelValue.lean ====
/-
  The kernel program's result as one function of its arguments, over the extended reals: the host operations before,
  between and after the two kernel regions read index by index (reshapes, the gathers through the sorted ids and their
  inverse, the sum over a token's four slots; a change of float format is the identity), and each region's result array
  by its whole-array function (`routedSpec`, `sharedSpec`). The operands the two regions are entered from are read in the
  two operand modules; here are the row gather at an index, the routed sum read off the first region's result, the last
  reshape, and the whole chain.
-/
import proofs.«402449_j23871428231438_3_alg».proof.Proof.KI.Run
import proofs.«402449_j23871428231438_3_alg».proof.Proof.KIV.Spec
import proofs.«402449_j23871428231438_3_alg».proof.Proof.KIV.Index
import proofs.«402449_j23871428231438_3_alg».proof.Proof.KIV.Arr0
import proofs.«402449_j23871428231438_3_alg».proof.Proof.KIV.Arr1
import proofs.«402449_j23871428231438_3_alg».proof.Proof.KIV.KernelOperands
import proofs.«402449_j23871428231438_3_alg».proof.Proof.KIV.KernelOperands1
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-! ## Two gathers read at an index -/

section Gathers
variable {α : Type}

/-- The dimension numbers of a row gather: operand `[N, C]`, start indices `[R, 1]`, result `[R, C]`; result row `j` is the
    operand's row at the clamped start index `idx[j, 0]`. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, d)`: the operand at row `idx[j, 0]` (read signed, clamped into `[0, N − 1]`), column `d`. -/
theorem gather_row_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (j : Fin R) (d : Fin C) :
    Host.gather (rowDims N R C wf) x idx (ix2 j d) = x (ix2 (clampIdx N hN (idx (ix2 j (0 : Fin 1)))) d) := by
  unfold Host.gather
  congr 1
  funext a
  refine Fin.ext ?_
  match a with
  | ⟨0, _⟩ =>
    show (rowDims N R C wf).start (ix2 j d) idx (0 : Fin 2) + (rowDims N R C wf).batchCoord (ix2 j d) (0 : Fin 2) + (rowDims N R C wf).offCoord (ix2 j d) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 j d) ⟨List.idxOf (0 : Fin 2) (rowDims N R C wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    show (rowDims N R C wf).start (ix2 j d) idx (1 : Fin 2) + (rowDims N R C wf).batchCoord (ix2 j d) (1 : Fin 2) + (rowDims N R C wf).offCoord (ix2 j d) (1 : Fin 2) = d.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

end Gathers

/-! ## The routed sum read off the routed-experts call's result array

The host operations between the two calls, over a VARIABLE result array `R` and a variable vector of inverse ids `inv`:
the ids are wrapped where negative, the flattened result's rows are gathered by them, the rows are regrouped four to a
token and summed from zero. -/

section RoutedSum

/-- The position a gather by the wrapped ids `inv` reads for slot `p`. -/
def posOf (inv : IVec S16384 32) (p : Fin 16384) : Fin 16384 :=
  clampIdx 16384 (by decide) (wrapW 16384#32 (inv (ix1 p)))

/-- The ids wrapped where negative (jnp's indexing), as the one-column array the gather reads. -/
def wrapIds (inv : IVec S16384 32) : IVec S16384x1 32 :=
  broadcastInDim S16384x1 ![0] bcast_S16384_S16384x1_0
    (select (cmpi .slt inv (broadcastInDim S16384 ![] bcast_S_S16384 (constantI S_ 32 0#32)))
      (addi inv (broadcastInDim S16384 ![] bcast_S_S16384 (constantI S_ 32 16384#32))) inv)

/-- Row `p` of the one-column array is the wrapped id of slot `p`. -/
theorem wrapIds_apply (inv : IVec S16384 32) (p : Fin 16384) :
    wrapIds inv (ix2 p (0 : Fin 1)) = wrapW 16384#32 (inv (ix1 p)) := by
  unfold wrapIds
  rw [broadcastInDim_apply _ bcast_S16384_S16384x1_0 _ (ix2 p (0 : Fin 1)) (ix1 p) (fun a => match a with
    | ⟨0, _⟩ => by show p.val = if (16384 : Nat) = 1 then 0 else p.val; rw [if_neg (by decide)])]
  rfl

/-- The result array with expert and row flattened: row `j` is row `j % 512` of expert `j / 512`. -/
theorem flat_apply {α : Type} (R : S32x512x2048.Idx → α) (j : Fin 16384) (d : Fin 2048) :
    shapeCast S16384x2048 R shapeCasts_S32x512x2048_S16384x2048 (ix2 j d) = R (ix3 (expOf j) (rowOf j) d) := by
  refine shapeCast_apply R shapeCasts_S32x512x2048_S16384x2048 (ix2 j d) (ix3 (expOf j) (rowOf j) d) ?_
  rewrite [Shape.rowMajor_val_three, Shape.rowMajor_val_two]
  have hj : j.val < 16384 := j.isLt
  show (j.val / 512 * 512 + j.val % 512) * 2048 + d.val = j.val * 2048 + d.val
  omega

/-- The gathered rows regrouped four to a token: entry `(t, k)` is row `4 t + k`. -/
theorem regroup_apply {α : Type} (G : S16384x2048.Idx → α) (t : Fin 4096) (k : Fin 4) (d : Fin 2048) :
    shapeCast S4096x4x2048 G shapeCasts_S16384x2048_S4096x4x2048 (ix3 t k d) = G (ix2 (slotOf t k) d) := by
  refine shapeCast_apply G shapeCasts_S16384x2048_S4096x4x2048 (ix3 t k d) (ix2 (slotOf t k) d) ?_
  rewrite [Shape.rowMajor_val_three, Shape.rowMajor_val_two]
  show (4 * t.val + k.val) * 2048 + d.val = (t.val * 4 + k.val) * 2048 + d.val
  omega

/-- The gather by the wrapped ids at `(p, d)`: row `posOf inv p` of the operand. -/
theorem gatherIds_apply {α : Type} (Rf : S16384x2048.Idx → α) (inv : IVec S16384 32) (p : Fin 16384) (d : Fin 2048) :
    Host.gather gather_S16384x2048_S16384x1_S16384x2048_1_0_n_n_0_1_12048 Rf (wrapIds inv) (ix2 p d)
      = Rf (ix2 (posOf inv p) d) := by
  show Host.gather (rowDims 16384 16384 2048 gather_S16384x2048_S16384x1_S16384x2048_1_0_n_n_0_1_12048_wf) Rf (wrapIds inv) (ix2 p d) = _
  rw [gather_row_apply (by decide), wrapIds_apply]
  rfl

/-- The sum over a token's four slots, from the constant zero. -/
theorem sum4_apply (Y : FVec Ideal S4096x4x2048 .f32) (t : Fin 4096) (d : Fin 2048) :
    (Host.reduceAdd (F := Ideal) Y (constant (F := Ideal) S_ .f32 0x00000000#32) reducesTo_S4096x4x2048_S4096x2048_d1 h_S_ : FVec Ideal S4096x2048 .f32) (ix2 t d)
      = (0 : EReal) + ∑ k : Fin 4, (Y (ix3 t k d) : EReal) := by
  simp only [Host.reduceAdd, Ideal.hostReduceAdd_def]
  rw [Ideal.hostReduceAdd_single reducesTo_S4096x4x2048_S4096x2048_d1 (by decide)]
  refine congrArg₂ (· + ·) ?_ (Finset.sum_congr rfl fun k _ => ?_)
  · exact Ideal.ofBits_zero_f32
  · exact congrArg Y (funext fun a => Fin.ext (by match a with | ⟨0, _⟩ => rfl | ⟨1, _⟩ => rfl | ⟨2, _⟩ => rfl))

end RoutedSum

/-! ## The host stretches after the routed-experts call, over any contents before them -/

section Stretches

/-- The stretch right after the routed-experts call flattens its result's expert and row axes. -/
theorem after_flat (W : Valuation τ sig (Elt Ideal)) :
    (StableHlo.after (hostOps1 (F := Ideal)) W (Proc.devRef .tc main_v23) : FVec Ideal S16384x2048 .f32)
      = shapeCast S16384x2048 (W (Proc.devRef .tc main_v22) : FVec Ideal S32x512x2048 .f32) shapeCasts_S32x512x2048_S16384x2048 := by
  after_results
  rfl

/-- The stretch before the shared call leaves in the routed-sum buffer: the flattened result's rows gathered by the wrapped
    inverse ids, regrouped four to a token, summed from zero. -/
theorem after_sum (W : Valuation τ sig (Elt Ideal)) :
    (StableHlo.after (hostOps1_2 (F := Ideal)) W (Proc.devRef .tc main_v33) : FVec Ideal S4096x2048 .f32)
      = Host.reduceAdd (F := Ideal)
          (shapeCast S4096x4x2048
            (Host.gather gather_S16384x2048_S16384x1_S16384x2048_1_0_n_n_0_1_12048
              (W (Proc.devRef .tc main_v23) : FVec Ideal S16384x2048 .f32) (wrapIds (W (Proc.devRef .tc main_v24) : IVec S16384 32)))
            shapeCasts_S16384x2048_S4096x4x2048 : FVec Ideal S4096x4x2048 .f32)
          (constant (F := Ideal) S_ .f32 0x00000000#32) reducesTo_S4096x4x2048_S4096x2048_d1 h_S_ := by
  after_results
  rfl

/-- The last stretch reshapes the shared call's result to batch × sequence. -/
theorem after_unflat (W : Valuation τ sig (Elt Ideal)) :
    (StableHlo.after (hostOps2 (F := Ideal)) W (Proc.devRef .tc main_v39) : FVec Ideal S2x2048x2048 .f32)
      = shapeCast S2x2048x2048 (W (Proc.devRef .tc main_v38) : FVec Ideal S4096x2048 .f32) shapeCasts_S4096x2048_S2x2048x2048 := by
  after_results
  rfl

/-- Entry `(b, l)` of the reshaped result is token `2048 b + l`'s row. -/
theorem unflat_apply {α : Type} (Y : S4096x2048.Idx → α) (b : Fin 2) (l : Fin 2048) (d : Fin 2048) :
    shapeCast S2x2048x2048 Y shapeCasts_S4096x2048_S2x2048x2048 (ix3 b l d) = Y (ix2 (tokenOf b l) d) := by
  refine shapeCast_apply Y shapeCasts_S4096x2048_S2x2048x2048 (ix3 b l d) (ix2 (tokenOf b l) d) ?_
  rewrite [Shape.rowMajor_val_three, Shape.rowMajor_val_two]
  show (2048 * b.val + l.val) * 2048 + d.val = (b.val * 2048 + l.val) * 2048 + d.val
  omega

end Stretches

/-! ## The run's buffers -/

section Run

variable (m : (ℓ : Loc nD τ sig) → Buf (Elt Ideal) ℓ)

/-- The routed-experts call's result buffer after the call: `routedSpec` of the call's operands at entry. -/
theorem routed_result (c : Dev nD) :
    (V6 m (outs6 m) c main_v22 : A3 32 512 2048)
      = routedSpec (Ve0 m c main_v12 : A3 32 512 2048) (Ve0 m c main_arg3 : A3 32 2048 1408) (Ve0 m c main_arg4 : A3 32 2048 1408)
          (Ve0 m c main_arg5 : A3 32 1408 2048) (Ve0 m c main_v21 : A3 32 512 1) := by
  have h : V6 m (outs6 m) c main_v22 = (dat0 (Ve0 m) c).arrAt 5 cfg0.N := by
    show Function.update (V5 m c) (Proc.devRef .tc main_v22) (outs6 m 6 main_v22 c) (Proc.devRef .tc main_v22) = _
    rw [Function.update_self]
    exact (outs_at_6 m c).symm.trans (outs_6 m c)
  rw [h]
  exact arr0_final (Ve0 m) c

end Run

section Run2

variable (m : (ℓ : Loc nD τ sig) → Buf (Elt Ideal) ℓ)

/-- The routed-sum operand of the shared call: `routedSumK` of the arguments and the index maps. -/
theorem routed_sum (c : Dev nD) :
    (Ve1 m c main_v33 : A2 4096 2048)
      = routedSumK (gsOf (m ((c.tc : Thread nD τ).loc main_arg1) : IVec S4096x4 32)) (giOf (m ((c.tc : Thread nD τ).loc main_arg1) : IVec S4096x4 32)) (grOf (m ((c.tc : Thread nD τ).loc main_arg1) : IVec S4096x4 32))
          (m ((c.tc : Thread nD τ).loc main_arg0) : A3 2 2048 2048) (m ((c.tc : Thread nD τ).loc main_arg2) : A2 4096 4)
          (m ((c.tc : Thread nD τ).loc main_arg3) : A3 32 2048 1408) (m ((c.tc : Thread nD τ).loc main_arg4) : A3 32 2048 1408) (m ((c.tc : Thread nD τ).loc main_arg5) : A3 32 1408 2048) := by
  -- the inverse ids and the flattened result, as the last stretch before the shared call finds them
  have hinv : (V8 m (outs6 m) c main_v24 : IVec S16384 32) = invIds (m ((c.tc : Thread nD τ).loc main_arg1) : IVec S4096x4 32) :=
    (V9_of m (outs6 m) c main_v24 (by decide)).symm.trans (inverse_ids m c)
  have hflat : (V8 m (outs6 m) c main_v23 : FVec Ideal S16384x2048 .f32)
      = shapeCast S16384x2048 (V6 m (outs6 m) c main_v22 : FVec Ideal S32x512x2048 .f32) shapeCasts_S32x512x2048_S16384x2048 :=
    (V8_of m (outs6 m) c main_v23 (by decide)).trans (after_flat (V6 m (outs6 m) c))
  have hsum := after_sum (V8 m (outs6 m) c)
  rw [hinv, hflat] at hsum
  funext i
  obtain ⟨t, d, rfl⟩ : ∃ (t : Fin 4096) (d : Fin 2048), i = ix2 t d := ⟨i 0, i 1, eq_ix2 i⟩
  refine (congrFun hsum (ix2 t d)).trans ?_
  rw [sum4_apply]
  show _ = (0 : EReal) + ∑ k : Fin 4, _
  refine congrArg ((0 : EReal) + ·) (Finset.sum_congr rfl fun k _ => ?_)
  rw [regroup_apply, gatherIds_apply, flat_apply, routed_result, operand_xb, operand_ws, operand_arg3, operand_arg4, operand_arg5]
  rfl

end Run2

section Result

variable (m : (ℓ : Loc nD τ sig) → Buf (Elt Ideal) ℓ)

/-- The shared call's result buffer after the call: `sharedSpec` of the call's operands at entry. -/
theorem shared_result (c : Dev nD) :
    (V10 m (outs m) c main_v38 : A2 4096 2048)
      = sharedSpec (Ve1 m c main_v34 : A2 4096 2048) (Ve1 m c main_v35 : A2 2048 2816) (Ve1 m c main_v36 : A2 2048 2816)
          (Ve1 m c main_v37 : A2 2816 2048) (Ve1 m c main_v33 : A2 4096 2048) := by
  have h : V10 m (outs m) c main_v38 = (dat1 (Ve1 m) c).arrAt 5 cfg1.N := by
    show Function.update (V9 m (outs m) c) (Proc.devRef .tc main_v38) (outs m 10 main_v38 c) (Proc.devRef .tc main_v38) = _
    rw [Function.update_self]
    exact outs_10 m c
  rw [h]
  exact arr1_final (Ve1 m) c

/-- The kernel program's result array after the run, as `Kspec` of the argument arrays and the three index maps. -/
theorem kernel_value (c : Dev nD) :
    (V11 m (outs m) c main_v39 : A3 2 2048 2048)
      = Kspec (gsOf (m ((c.tc : Thread nD τ).loc main_arg1) : IVec S4096x4 32)) (giOf (m ((c.tc : Thread nD τ).loc main_arg1) : IVec S4096x4 32)) (grOf (m ((c.tc : Thread nD τ).loc main_arg1) : IVec S4096x4 32))
          (m ((c.tc : Thread nD τ).loc main_arg0) : A3 2 2048 2048) (m ((c.tc : Thread nD τ).loc main_arg2) : A2 4096 4)
          (m ((c.tc : Thread nD τ).loc main_arg3) : A3 32 2048 1408) (m ((c.tc : Thread nD τ).loc main_arg4) : A3 32 2048 1408) (m ((c.tc : Thread nD τ).loc main_arg5) : A3 32 1408 2048)
          (m ((c.tc : Thread nD τ).loc main_arg6) : A2 2048 2816) (m ((c.tc : Thread nD τ).loc main_arg7) : A2 2048 2816) (m ((c.tc : Thread nD τ).loc main_arg8) : A2 2816 2048) := by
  funext i
  obtain ⟨b, l, d, rfl⟩ : ∃ (b : Fin 2) (l : Fin 2048) (d : Fin 2048), i = ix3 b l d := ⟨i 0, i 1, i 2, eq_ix3 i⟩
  refine (congrFun (after_unflat (V10 m (outs m) c)) (ix3 b l d)).trans ?_
  rw [unflat_apply, shared_result, operand1_x, operand1_sg, operand1_su, operand1_sd, routed_sum]
  rfl

end Result

end Cert.KernelIdeal.HandV

end
-- ==== Proof.KIV.RefShared.lean ====
/-
  The reference's shared feed-forward part at (token, column), over the extended reals: the token's row against the
  gate and up matrices, jax's host expansion of silu being `g · logistic g`, then against the down matrix.
-/
import proofs.«402449_j23871428231438_3_alg».proof.Proof.Gen.ReferenceIdeal.Read
import proofs.«402449_j23871428231438_3_alg».proof.Proof.KIV.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandV

open Idealize.ShloMosaic Idealize.ShloMosaic.TcCoe Idealize.ShloMosaic.ValueIdx
open Idealize.SL Idealize.SL.Sem
open Idealize.ShloMosaic.Pipeline (Dat)

open Cert.ReferenceIdeal.Read

/-- The single-precision pattern `0x3F800000` denotes the number one. -/
theorem shared_one : Ideal.ofBits .f32 0x3F800000#32 = 1 := by
  simp [Ideal.ofBits, Ideal.ieee, -EReal.coe_mul]; norm_num

/-- The reshape of the activations at (token, feature): row `t` of the flattened activations. Flat position
    `2048 t + k` of a `2 × 2048 × 2048` array is `(t / 2048, t % 2048, k)`. -/
theorem shared_row (x0 : A3 2 2048 2048) (t : Fin 4096) (k : Fin 2048) :
    val_main_v0 (F := Ideal) x0 (ix2 t k) = xflatAt x0 t k := by
  have ht : t.val < 4096 := t.isLt
  have hk : k.val < 2048 := k.isLt
  rw [val_main_v0_apply]
  unfold xflatAt
  congr 1
  funext a
  match a with
  | ⟨0, _⟩ => exact Fin.ext (by show (t.val * 2048 + k.val) / 4194304 = t.val / 2048; omega)
  | ⟨1, _⟩ => exact Fin.ext (by show (t.val * 2048 + k.val) / 2048 % 2048 = t.val % 2048; omega)
  | ⟨2, _⟩ => exact Fin.ext (by show (t.val * 2048 + k.val) % 2048 = k.val; omega)

/-- The product with the gate matrix (`%32`) at (token, hidden column): the token's row against the column. -/
theorem shared_gate (x0 : A3 2 2048 2048) (x6 : A2 2048 2816) (t : Fin 4096) (f : Fin 2816) :
    val_main_v32 (F := Ideal) x0 x6 (ix2 t f) = ∑ k : Fin 2048, xflatAt x0 t k * x6 (ix2 k f) := by
  rw [val_main_v32_apply]
  refine Finset.sum_congr rfl fun k _ => ?_
  rw [show lidx_main_v32 (ix2 t f) k = ix2 t k from funext fun a => by match a with | ⟨0, _⟩ => rfl | ⟨1, _⟩ => rfl,
    show ridx_main_v32 (ix2 t f) k = ix2 k f from funext fun a => by match a with | ⟨0, _⟩ => rfl | ⟨1, _⟩ => rfl,
    shared_row]

/-- The product with the up matrix (`%34`) is the same operation on the other matrix. -/
theorem shared_up (x0 : A3 2 2048 2048) (x7 : A2 2048 2816) (t : Fin 4096) (f : Fin 2816) :
    val_main_v34 (F := Ideal) x0 x7 (ix2 t f) = ∑ k : Fin 2048, xflatAt x0 t k * x7 (ix2 k f) :=
  shared_gate x0 x7 t f

/-- The outlined silu (`%33`): `g · (1 / (1 + exp (−g)))`, and `1 / (1 + exp (−g))` is the logistic function of `g`. -/
theorem shared_silu (x0 : A3 2 2048 2048) (x6 : A2 2048 2816) (t : Fin 4096) (f : Fin 2816) :
    val_main_v33 (F := Ideal) x0 x6 (ix2 t f)
      = (∑ k : Fin 2048, xflatAt x0 t k * x6 (ix2 k f)) * Ideal.logistic (∑ k : Fin 2048, xflatAt x0 t k * x6 (ix2 k f)) := by
  rw [val_main_v33_apply, val_main_call3_v5_apply, val_main_call3_v4_apply, val_main_call3_cst_0_apply,
    val_main_call3_v3_apply, val_main_call3_v2_apply, val_main_call3_cst_apply, val_main_call3_v1_apply,
    val_main_call3_v0_apply, shared_gate]
  rw [Ideal.mulf_def, Ideal.hostDivf_def, Ideal.addf_def, Ideal.hostUnary_exp_def, Ideal.hostNegf_def, Ideal.negf_def,
    Ideal.ofBits_def, shared_one]
  rfl

/-- The reference's shared part (its value `%36`) at token `t`, column `d`. -/
theorem ref_shared (x0 : A3 2 2048 2048) (x6 x7 : A2 2048 2816) (x8 : A2 2816 2048) (t : Fin 4096) (d : Fin 2048) :
    Cert.ReferenceIdeal.Read.val_main_v36 (F := Ideal) x0 x6 x7 x8 (ix2 t d)
      = ∑ f : Fin 2816, hidden (fun k : Fin 2048 => xflatAt x0 t k) (fun k => x6 (ix2 k f)) (fun k => x7 (ix2 k f)) * x8 (ix2 f d) := by
  rw [val_main_v36_apply]
  refine Finset.sum_congr rfl fun f _ => ?_
  rw [show lidx_main_v36 (ix2 t d) f = ix2 t f from funext fun a => by match a with | ⟨0, _⟩ => rfl | ⟨1, _⟩ => rfl,
    show ridx_main_v36 (ix2 t d) f = ix2 f d from funext fun a => by match a with | ⟨0, _⟩ => rfl | ⟨1, _⟩ => rfl,
    val_main_v35_apply, shared_silu, shared_up, Ideal.mulf_def]
  rfl

end Cert.KernelIdeal.HandV

end
-- ==== Proof.KIV.RefValue.lean ====
/-
  The reference program's result as one function of its arguments, over the extended reals: its host operations read
  index by index (the generated read-at-an-index lemmas; by hand the two gathers and the sorts, which are the kernel
  program's own terms), jax's expansion of the logistic function being the logistic function.
  In layers, each over explicit coordinates: the row gather read at (row, column); the sorted ids and their inverse as the
  kernel program's terms, a start index being one of them wrapped; the activations repeated over the four choices (row `q`
  is token `q / 4`) and gathered by the sorted ids; the experts' three products at (expert, row, column), position
  `512 e + r` flattened back to `j`; the second gather, the weights and the sum over a token's four choices; the sum with
  the shared part and the last reshape.
-/
import proofs.«402449_j23871428231438_3_alg».proof.Proof.Gen.ReferenceIdeal.Read
import proofs.«402449_j23871428231438_3_alg».proof.Proof.KIV.Spec
import proofs.«402449_j23871428231438_3_alg».proof.Proof.KIV.Index
import proofs.«402449_j23871428231438_3_alg».proof.Proof.KIV.RefShared
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandV

open Cert.KernelIdeal
open Idealize.ShloMosaic Idealize.ShloMosaic.TcCoe Idealize.ShloMosaic.ValueIdx
open Idealize.SL Idealize.SL.Sem
open Idealize.ShloMosaic.Pipeline (Dat)

/-! ## Scalars -/

/-- The word `0x3F800000` is the real number one. -/
theorem refR_one : Ideal.ofBits .f32 0x3F800000#32 = 1 := by
  simp [Ideal.ofBits, Ideal.ieee, -EReal.coe_mul]; norm_num

/-- The host's spelling of `g · logistic g`: `g · (1 / (1 + exp (-g)))`. -/
theorem refR_silu (g : Ideal .f32) :
    FloatOps.mulf g (FloatOps.hostDivf (FloatOps.ofBits (F := Ideal) .f32 0x3F800000#32)
      (FloatOps.addf (FloatOps.ofBits (F := Ideal) .f32 0x3F800000#32) (FloatOps.hostUnary .exp (FloatOps.hostNegf g))))
      = g * Ideal.logistic g := by
  show g * Ideal.div (Ideal.ofBits .f32 0x3F800000#32) (Ideal.ofBits .f32 0x3F800000#32 + Ideal.exp (-g)) = g * Ideal.logistic g
  rw [refR_one]; rfl

/-! ## The row gather -/

/-- The reference's gather record: rows of a [16384, 2048] operand by a [16384, 1] column of start indices. -/
abbrev rowGather : GatherDims Cert.ReferenceIdeal.S16384x2048 Cert.ReferenceIdeal.S16384x1 Cert.ReferenceIdeal.S16384x2048 :=
  Cert.ReferenceIdeal.gather_S16384x2048_S16384x1_S16384x2048_1_0_n_n_0_1_12048

/-- On the row axis the operand index is the start index of the row, read signed and clamped. -/
theorem rowGather_axis0 (idx : IVec Cert.ReferenceIdeal.S16384x1 32) (j : Fin 16384) (d : Fin 2048) :
    (rowGather.operandIdx (ix2 j d) idx 0).val = min (idx (ix2 j (0 : Fin 1))).toInt.toNat (16384 - 1) := by
  show rowGather.start (ix2 j d) idx 0 + rowGather.batchCoord (ix2 j d) 0 + rowGather.offCoord (ix2 j d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin Cert.ReferenceIdeal.S16384x2048.rank) ∈ rowGather.startIndexMap from List.mem_singleton.mpr rfl)]
  have hsi : rowGather.siIdx (ix2 j d) ⟨List.idxOf (0 : Fin Cert.ReferenceIdeal.S16384x2048.rank) rowGather.startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

/-- On the column axis the operand index is the result's column. -/
theorem rowGather_axis1 (idx : IVec Cert.ReferenceIdeal.S16384x1 32) (j : Fin 16384) (d : Fin 2048) :
    (rowGather.operandIdx (ix2 j d) idx 1).val = d.val := by
  show rowGather.start (ix2 j d) idx 1 + rowGather.batchCoord (ix2 j d) 1 + rowGather.offCoord (ix2 j d) 1 = _
  rw [GatherDims.batchCoord_eq_zero _ _ _ List.not_mem_nil]
  unfold GatherDims.start
  rw [dif_neg (show ¬ (1 : Fin Cert.ReferenceIdeal.S16384x2048.rank) ∈ rowGather.startIndexMap by decide)]
  unfold GatherDims.offCoord
  rw [dif_pos (show (1 : Fin Cert.ReferenceIdeal.S16384x2048.rank) ∈ rowGather.sKept by decide)]
  simp only [Nat.add_zero, Nat.zero_add]
  rfl

/-- THE ROW GATHER READ AT (j, d): the operand's row at the start index of row `j` (read signed, clamped), column `d`. -/
theorem rowGather_apply {α : Type} (x : Cert.ReferenceIdeal.S16384x2048.Idx → α) (idx : IVec Cert.ReferenceIdeal.S16384x1 32)
    (j : Fin 16384) (d : Fin 2048) :
    Host.gather rowGather x idx (ix2 j d) = x (ix2 (clampIdx 16384 (by decide) (idx (ix2 j (0 : Fin 1)))) d) := by
  unfold Host.gather
  refine congrArg x ?_
  funext a
  refine Fin.ext ?_
  match a with
  | ⟨0, _⟩ => exact rowGather_axis0 idx j d
  | ⟨1, _⟩ => exact rowGather_axis1 idx j d

/-! ## The sorts -/

/-- The two programs' comparators are one function. -/
theorem refR_comparator : Cert.ReferenceIdeal.comparator_i32_i32_d0 = Cert.KernelIdeal.comparator_i32_i32_d0 := rfl

/-- The reference's sorted ids are the kernel program's. -/
theorem refR_sorted (x1 : IVec S4096x4 32) : Cert.ReferenceIdeal.Read.val_main_v2 (F := Ideal) x1 = sortedIds x1 := by
  unfold Cert.ReferenceIdeal.Read.val_main_v2 Cert.ReferenceIdeal.Read.val_main_v1 Cert.ReferenceIdeal.Read.val_main_call0_v0 sortedIds
  rw [refR_comparator]

/-- … and so is their inverse. -/
theorem refR_inv (x1 : IVec S4096x4 32) : Cert.ReferenceIdeal.Read.val_main_v19 (F := Ideal) x1 = invIds x1 := by
  unfold Cert.ReferenceIdeal.Read.val_main_v19 Cert.ReferenceIdeal.Read.val_main_call2_v0 invIds
  rw [refR_comparator, refR_sorted]

open Cert.ReferenceIdeal.Read

/-! ## The index words: a sorted id, wrapped -/

theorem refR_idx_v10 (j : Fin 16384) : idx_main_v10 (ix2 j (0 : Fin 1)) = ix1 j :=
  funext fun a => Fin.ext (by match a with | ⟨0, _⟩ => rfl)

theorem refR_idx_v25 (j : Fin 16384) : idx_main_v25 (ix2 j (0 : Fin 1)) = ix1 j :=
  funext fun a => Fin.ext (by match a with | ⟨0, _⟩ => rfl)

/-- The first gather's start index for row `j`: the sorted id at `j`, wrapped by 16384. -/
theorem refR_start1 (x1 : IVec S4096x4 32) (j : Fin 16384) :
    val_main_v10 (F := Ideal) x1 (ix2 j (0 : Fin 1)) = wrapW 16384#32 (sortedIds x1 (ix1 j)) := by
  rw [val_main_v10_apply, refR_idx_v10, val_main_v9_apply, val_main_v6_apply, val_main_v8_apply, val_main_v5_apply, val_main_c_apply,
    val_main_v7_apply, val_main_c_0_apply, refR_sorted]
  rfl

/-- The second gather's start index for row `p`: the inverse permutation at `p`, wrapped by 16384. -/
theorem refR_start2 (x1 : IVec S4096x4 32) (p : Fin 16384) :
    val_main_v25 (F := Ideal) x1 (ix2 p (0 : Fin 1)) = wrapW 16384#32 (invIds x1 (ix1 p)) := by
  rw [val_main_v25_apply, refR_idx_v25, val_main_v24_apply, val_main_v21_apply, val_main_v23_apply, val_main_v20_apply, val_main_c_1_apply,
    val_main_v22_apply, val_main_c_2_apply, refR_inv]
  rfl

/-! ## The activations repeated over the four choices -/

theorem refR_idx_v0 (t : Fin 4096) (k : Fin 2048) :
    idx_main_v0 (ix2 t k) = ix3 (⟨t.val / 2048, by omega⟩ : Fin 2) (⟨t.val % 2048, by omega⟩ : Fin 2048) k :=
  funext fun a => Fin.ext (by
    have ht := t.isLt; have hk := k.isLt
    match a with
    | ⟨0, _⟩ => show (t.val * 2048 + k.val) / 4194304 = t.val / 2048; omega
    | ⟨1, _⟩ => show (t.val * 2048 + k.val) / 2048 % 2048 = t.val % 2048; omega
    | ⟨2, _⟩ => show (t.val * 2048 + k.val) % 2048 = k.val; omega)

theorem refR_idx_v34 (q : Fin 16384) (k : Fin 2048) : idx_main_v3 (idx_main_v4 (ix2 q k)) = ix2 (tokOf q) k :=
  funext fun a => Fin.ext (by
    have hq := q.isLt; have hk := k.isLt
    match a with
    | ⟨0, _⟩ => show (q.val * 2048 + k.val) / 8192 = q.val / 4; omega
    | ⟨1, _⟩ => show (q.val * 2048 + k.val) % 2048 = k.val; omega)

/-- Row `q` of the repeated activations is token `q / 4`. -/
theorem refR_v4 (x0 : A3 2 2048 2048) (q : Fin 16384) (k : Fin 2048) :
    val_main_v4 (F := Ideal) x0 (ix2 q k) = xflatAt x0 (tokOf q) k := by
  rw [val_main_v4_apply, val_main_v3_apply, refR_idx_v34, val_main_v0_apply, refR_idx_v0]
  rfl

/-- The first gather: row `p` is the token of the slot sorted to position `p`. -/
theorem refR_v11 (x0 : A3 2 2048 2048) (x1 : IVec S4096x4 32) (p : Fin 16384) (k : Fin 2048) :
    val_main_v11 (F := Ideal) x0 x1 (ix2 p k) = xflatAt x0 (tokOf (gsOf x1 p)) k := by
  unfold val_main_v11
  refine (rowGather_apply (val_main_v4 (F := Ideal) x0) (val_main_v10 (F := Ideal) x1) p k).trans ?_
  rw [refR_start1, refR_v4]
  rfl

theorem refR_idx_v12 (e : Fin 32) (r : Fin 512) (k : Fin 2048) : idx_main_v12 (ix3 e r k) = ix2 (slot e r) k :=
  funext fun a => Fin.ext (by
    have he := e.isLt; have hr := r.isLt; have hk := k.isLt
    match a with
    | ⟨0, _⟩ => show ((e.val * 512 + r.val) * 2048 + k.val) / 2048 = 512 * e.val + r.val; omega
    | ⟨1, _⟩ => show ((e.val * 512 + r.val) * 2048 + k.val) % 2048 = k.val; omega)

/-- The rows grouped by expert. -/
theorem refR_v12 (x0 : A3 2 2048 2048) (x1 : IVec S4096x4 32) (e : Fin 32) (r : Fin 512) (k : Fin 2048) :
    val_main_v12 (F := Ideal) x0 x1 (ix3 e r k) = xflatAt x0 (tokOf (gsOf x1 (slot e r))) k := by
  rw [val_main_v12_apply, refR_idx_v12, refR_v11]

/-! ## The experts -/

theorem refR_lidx_v13 (e : Fin 32) (r : Fin 512) (f : Fin 1408) (k : Fin 2048) : lidx_main_v13 (ix3 e r f) k = ix3 e r k :=
  funext fun a => Fin.ext (by match a with | ⟨0, _⟩ => rfl | ⟨1, _⟩ => rfl | ⟨2, _⟩ => rfl)
theorem refR_ridx_v13 (e : Fin 32) (r : Fin 512) (f : Fin 1408) (k : Fin 2048) : ridx_main_v13 (ix3 e r f) k = ix3 e k f :=
  funext fun a => Fin.ext (by match a with | ⟨0, _⟩ => rfl | ⟨1, _⟩ => rfl | ⟨2, _⟩ => rfl)
theorem refR_lidx_v14 (e : Fin 32) (r : Fin 512) (f : Fin 1408) (k : Fin 2048) : lidx_main_v14 (ix3 e r f) k = ix3 e r k :=
  funext fun a => Fin.ext (by match a with | ⟨0, _⟩ => rfl | ⟨1, _⟩ => rfl | ⟨2, _⟩ => rfl)
theorem refR_ridx_v14 (e : Fin 32) (r : Fin 512) (f : Fin 1408) (k : Fin 2048) : ridx_main_v14 (ix3 e r f) k = ix3 e k f :=
  funext fun a => Fin.ext (by match a with | ⟨0, _⟩ => rfl | ⟨1, _⟩ => rfl | ⟨2, _⟩ => rfl)
theorem refR_lidx_v17 (e : Fin 32) (r : Fin 512) (d : Fin 2048) (f : Fin 1408) : lidx_main_v17 (ix3 e r d) f = ix3 e r f :=
  funext fun a => Fin.ext (by match a with | ⟨0, _⟩ => rfl | ⟨1, _⟩ => rfl | ⟨2, _⟩ => rfl)
theorem refR_ridx_v17 (e : Fin 32) (r : Fin 512) (d : Fin 2048) (f : Fin 1408) : ridx_main_v17 (ix3 e r d) f = ix3 e f d :=
  funext fun a => Fin.ext (by match a with | ⟨0, _⟩ => rfl | ⟨1, _⟩ => rfl | ⟨2, _⟩ => rfl)

/-- The gate product at (expert, row, hidden column). -/
theorem refR_v13 (x0 : A3 2 2048 2048) (x1 : IVec S4096x4 32) (x3 : A3 32 2048 1408) (e : Fin 32) (r : Fin 512) (f : Fin 1408) :
    val_main_v13 (F := Ideal) x0 x1 x3 (ix3 e r f)
      = ∑ k : Fin 2048, xflatAt x0 (tokOf (gsOf x1 (slot e r))) k * x3 (ix3 e k f) := by
  rw [val_main_v13_apply]
  refine Finset.sum_congr rfl fun k _ => ?_
  rw [refR_lidx_v13, refR_ridx_v13, refR_v12]

/-- The up product at (expert, row, hidden column). -/
theorem refR_v14 (x0 : A3 2 2048 2048) (x1 : IVec S4096x4 32) (x4 : A3 32 2048 1408) (e : Fin 32) (r : Fin 512) (f : Fin 1408) :
    val_main_v14 (F := Ideal) x0 x1 x4 (ix3 e r f)
      = ∑ k : Fin 2048, xflatAt x0 (tokOf (gsOf x1 (slot e r))) k * x4 (ix3 e k f) := by
  rw [val_main_v14_apply]
  refine Finset.sum_congr rfl fun k _ => ?_
  rw [refR_lidx_v14, refR_ridx_v14, refR_v12]

/-- jax's host expansion of `silu` on the gate product is `g · logistic g`. -/
theorem refR_v15 (x0 : A3 2 2048 2048) (x1 : IVec S4096x4 32) (x3 : A3 32 2048 1408) (i : Cert.ReferenceIdeal.S32x512x1408.Idx) :
    val_main_v15 (F := Ideal) x0 x1 x3 i
      = val_main_v13 (F := Ideal) x0 x1 x3 i * Ideal.logistic (val_main_v13 (F := Ideal) x0 x1 x3 i) := by
  rw [val_main_v15_apply, val_main_call1_v5_apply, val_main_call1_v4_apply, val_main_call1_cst_0_apply, val_main_call1_v3_apply,
    val_main_call1_v2_apply, val_main_call1_cst_apply, val_main_call1_v1_apply, val_main_call1_v0_apply]
  exact refR_silu _

/-- The gated hidden activation at (expert, row, hidden column). -/
theorem refR_v16 (x0 : A3 2 2048 2048) (x1 : IVec S4096x4 32) (x3 x4 : A3 32 2048 1408) (e : Fin 32) (r : Fin 512) (f : Fin 1408) :
    val_main_v16 (F := Ideal) x0 x1 x3 x4 (ix3 e r f)
      = hidden (fun k : Fin 2048 => xflatAt x0 (tokOf (gsOf x1 (slot e r))) k) (fun k => x3 (ix3 e k f)) (fun k => x4 (ix3 e k f)) := by
  rw [val_main_v16_apply, refR_v15, refR_v13, refR_v14]
  rfl

/-- The expert's output at (expert, row, column). -/
theorem refR_v17 (x0 : A3 2 2048 2048) (x1 : IVec S4096x4 32) (x3 x4 : A3 32 2048 1408) (x5 : A3 32 1408 2048)
    (e : Fin 32) (r : Fin 512) (d : Fin 2048) :
    val_main_v17 (F := Ideal) x0 x1 x3 x4 x5 (ix3 e r d)
      = ∑ f : Fin 1408, hidden (fun k : Fin 2048 => xflatAt x0 (tokOf (gsOf x1 (slot e r))) k) (fun k => x3 (ix3 e k f)) (fun k => x4 (ix3 e k f))
          * x5 (ix3 e f d) := by
  rw [val_main_v17_apply]
  refine Finset.sum_congr rfl fun f _ => ?_
  rw [refR_lidx_v17, refR_ridx_v17, refR_v16]

theorem refR_idx_v18 (j : Fin 16384) (d : Fin 2048) : idx_main_v18 (ix2 j d) = ix3 (expOf j) (rowOf j) d :=
  funext fun a => Fin.ext (by
    have hj := j.isLt; have hd := d.isLt
    match a with
    | ⟨0, _⟩ => show (j.val * 2048 + d.val) / 1048576 = j.val / 512; omega
    | ⟨1, _⟩ => show (j.val * 2048 + d.val) / 2048 % 512 = j.val % 512; omega
    | ⟨2, _⟩ => show (j.val * 2048 + d.val) % 2048 = d.val; omega)

theorem refR_slot (j : Fin 16384) : slot (expOf j) (rowOf j) = j :=
  Fin.ext (by show 512 * (j.val / 512) + j.val % 512 = j.val; omega)

/-- The experts' outputs flattened: position `j` is `expertAtR`. -/
theorem refR_v18 (x0 : A3 2 2048 2048) (x1 : IVec S4096x4 32) (x3 x4 : A3 32 2048 1408) (x5 : A3 32 1408 2048)
    (j : Fin 16384) (d : Fin 2048) :
    val_main_v18 (F := Ideal) x0 x1 x3 x4 x5 (ix2 j d) = expertAtR (gsOf x1) x0 x3 x4 x5 j d := by
  rw [val_main_v18_apply, refR_idx_v18, refR_v17, refR_slot]
  rfl

/-! ## The routed sum -/

/-- The second gather: row `p` is the expert output at the position slot `p` sorted to. -/
theorem refR_v26 (x0 : A3 2 2048 2048) (x1 : IVec S4096x4 32) (x3 x4 : A3 32 2048 1408) (x5 : A3 32 1408 2048)
    (p : Fin 16384) (d : Fin 2048) :
    val_main_v26 (F := Ideal) x0 x1 x3 x4 x5 (ix2 p d) = expertAtR (gsOf x1) x0 x3 x4 x5 (giOf x1 p) d := by
  unfold val_main_v26
  refine (rowGather_apply (val_main_v18 (F := Ideal) x0 x1 x3 x4 x5) (val_main_v25 (F := Ideal) x1) p d).trans ?_
  rw [refR_start2]
  exact refR_v18 x0 x1 x3 x4 x5 (giOf x1 p) d

theorem refR_idx_v27 (t : Fin 4096) (k : Fin 4) (d : Fin 2048) : idx_main_v27 (ix3 t k d) = ix2 (slotOf t k) d :=
  funext fun a => Fin.ext (by
    have ht := t.isLt; have hk := k.isLt; have hd := d.isLt
    match a with
    | ⟨0, _⟩ => show ((t.val * 4 + k.val) * 2048 + d.val) / 2048 = 4 * t.val + k.val; omega
    | ⟨1, _⟩ => show ((t.val * 4 + k.val) * 2048 + d.val) % 2048 = d.val; omega)

theorem refR_idx_v289 (t : Fin 4096) (k : Fin 4) (d : Fin 2048) : idx_main_v28 (idx_main_v29 (ix3 t k d)) = ix2 t k :=
  funext fun a => Fin.ext (by match a with | ⟨0, _⟩ => rfl | ⟨1, _⟩ => rfl)

theorem refR_idx_v31 (t : Fin 4096) (d : Fin 2048) (k : Fin 4) : idx_main_v31 (ix2 t d) k = ix3 t k d :=
  funext fun a => Fin.ext (by match a with | ⟨0, _⟩ => rfl | ⟨1, _⟩ => rfl | ⟨2, _⟩ => rfl)

/-- A token's choice `k`, weighted. -/
theorem refR_v30 (x0 : A3 2 2048 2048) (x1 : IVec S4096x4 32) (x2 : A2 4096 4) (x3 x4 : A3 32 2048 1408) (x5 : A3 32 1408 2048)
    (t : Fin 4096) (k : Fin 4) (d : Fin 2048) :
    val_main_v30 (F := Ideal) x0 x1 x2 x3 x4 x5 (ix3 t k d)
      = expertAtR (gsOf x1) x0 x3 x4 x5 (giOf x1 (slotOf t k)) d * x2 (ix2 t k) := by
  rw [val_main_v30_apply, val_main_v27_apply, refR_idx_v27, refR_v26, val_main_v29_apply, val_main_v28_apply, refR_idx_v289]
  rfl

/-- The routed sum at (token, column). -/
theorem refR_v31 (x0 : A3 2 2048 2048) (x1 : IVec S4096x4 32) (x2 : A2 4096 4) (x3 x4 : A3 32 2048 1408) (x5 : A3 32 1408 2048)
    (t : Fin 4096) (d : Fin 2048) :
    val_main_v31 (F := Ideal) x0 x1 x2 x3 x4 x5 (ix2 t d) = routedSumAtR (gsOf x1) (giOf x1) x0 x2 x3 x4 x5 t d := by
  rw [val_main_v31_apply, val_main_cst_apply, Ideal.ofBits_def, Ideal.ofBits_zero_f32]
  unfold routedSumAtR
  refine congrArg (0 + ·) (Finset.sum_congr rfl fun k _ => ?_)
  rw [refR_idx_v31, refR_v30]

/-! ## The whole -/

theorem refR_idx_v38 (b : Fin 2) (l : Fin 2048) (d : Fin 2048) : idx_main_v38 (ix3 b l d) = ix2 (tokenOf b l) d :=
  funext fun a => Fin.ext (by
    have hb := b.isLt; have hl := l.isLt; have hd := d.isLt
    match a with
    | ⟨0, _⟩ => show ((b.val * 2048 + l.val) * 2048 + d.val) / 2048 = 2048 * b.val + l.val; omega
    | ⟨1, _⟩ => show ((b.val * 2048 + l.val) * 2048 + d.val) % 2048 = d.val; omega)

/-- The reference's result at (batch, position, column): the routed sum plus the shared part, in that order. -/
theorem refR_v38 (x0 : A3 2 2048 2048) (x1 : IVec S4096x4 32) (x2 : A2 4096 4) (x3 x4 : A3 32 2048 1408) (x5 : A3 32 1408 2048)
    (x6 x7 : A2 2048 2816) (x8 : A2 2816 2048) (b : Fin 2) (l : Fin 2048) (d : Fin 2048) :
    val_main_v38 (F := Ideal) x0 x1 x2 x3 x4 x5 x6 x7 x8 (ix3 b l d)
      = routedSumAtR (gsOf x1) (giOf x1) x0 x2 x3 x4 x5 (tokenOf b l) d
        + ∑ f : Fin 2816, hidden (fun k : Fin 2048 => xflatAt x0 (tokenOf b l) k) (fun k => x6 (ix2 k f)) (fun k => x7 (ix2 k f)) * x8 (ix2 f d) := by
  rw [val_main_v38_apply, refR_idx_v38, val_main_v37_apply, refR_v31, ref_shared]
  rfl

/-- The reference program's result term, as `Rspec` of the argument arrays and the two index maps. -/
theorem ref_value (x0 : A3 2 2048 2048) (x1 : IVec S4096x4 32) (x2 : A2 4096 4) (x3 x4 : A3 32 2048 1408) (x5 : A3 32 1408 2048)
    (x6 x7 : A2 2048 2816) (x8 : A2 2816 2048) :
    (Cert.ReferenceIdeal.Read.val_main_v38 (F := Ideal) x0 x1 x2 x3 x4 x5 x6 x7 x8 : A3 2 2048 2048)
      = Rspec (gsOf x1) (giOf x1) x0 x2 x3 x4 x5 x6 x7 x8 := by
  funext i
  obtain ⟨b, l, d, rfl⟩ : ∃ (b : Fin 2) (l : Fin 2048) (d : Fin 2048), i = ix3 b l d := ⟨i 0, i 1, i 2, eq_ix3 i⟩
  exact refR_v38 x0 x1 x2 x3 x4 x5 x6 x7 x8 b l d

end Cert.KernelIdeal.HandV

end
-- ==== Proof.lean ====
/-
  The certificate of a Mixture-of-Experts layer: a routed part (the 16384 (token, choice) slots sorted by expert, each group
  of 512 run through its expert's gated feed-forward in one Pallas call that accumulates over 11 tiles of the inner width
  and weights the rows at the last tile, then scattered back and summed over a token's four choices) and a shared gated
  feed-forward in a second Pallas call that adds the routed sum, against the same layer written with einsums.
  FRAMES. Neither kernel program has a generated frame (two kernel regions, the first carrying a scratch accumulator
  between grid points), so the frame is proved once, generic in the float instance, over the library's several-regions
  launch: each region's proof data and body obligation (Proof/KI/Region0.lean, Region1.lean), the regions as segments of
  @main between the generated host segments and the launch (Proof/KI/Run.lean); the word-level program's modules
  (Proof/K/) are those with the namespace substituted. The reference's frame is its generated run.
  VALUE. Over the extended reals each region's result array is one function of its operand arrays (Proof/KIV/Arr0.lean:
  the eleven tiles' sums regroup into the contraction over 1408 columns; Arr1.lean), the host operations around them are
  read index by index (KIV/KernelValue.lean; for the reference KIV/RefValue.lean over its generated read lemmas), the
  sorting enters through three index maps whose two facts — the kernel's row map is the slot map divided by 4, and the
  second sort inverts the first — are pure integer mathematics (KIV/Index.lean), and under them the two programs are one
  function (KIV/Spec.lean, KIV/Bridge.lean): the combine weight applied before or after the scatter is the same weight,
  and the last sum commutes. No finiteness of the inputs is used. The idealization rewrote nothing, so `preserves` is `True`.
-/
import proofs.«402449_j23871428231438_3_alg».proof.Defs
import proofs.«402449_j23871428231438_3_alg».proof.Proof.Gen.Kernel
import proofs.«402449_j23871428231438_3_alg».proof.Proof.Gen.KernelIdeal
import proofs.«402449_j23871428231438_3_alg».proof.Proof.Gen.ReferenceIdeal
import proofs.«402449_j23871428231438_3_alg».proof.Proof.Gen.ReferenceIdeal.Run
import proofs.«402449_j23871428231438_3_alg».proof.Proof.Gen.ReferenceIdeal.Read
import proofs.«402449_j23871428231438_3_alg».proof.Proof.Gen.Pre_finite_inputs
import proofs.«402449_j23871428231438_3_alg».proof.Proof.K.Run
import proofs.«402449_j23871428231438_3_alg».proof.Proof.KI.Run
import proofs.«402449_j23871428231438_3_alg».proof.Proof.KIV.Index
import proofs.«402449_j23871428231438_3_alg».proof.Proof.KIV.Bridge
import proofs.«402449_j23871428231438_3_alg».proof.Proof.KIV.KernelValue
import proofs.«402449_j23871428231438_3_alg».proof.Proof.KIV.RefValue

noncomputable section

namespace Cert.Proof

open Idealize.ShloMosaic Idealize.ShloMosaic.TcCoe Idealize.SL.Sem
open Cert.KernelIdeal.HandV

/-- The word-level kernel program runs to the end and leaves its arguments as launched. -/
theorem frame_k : @Cert.frame_Kernel Cert.Kernel.Gen.facts Cert.Pre_finite_inputs.Gen.facts :=
  fun m ρ _ => Cert.Kernel.Hand.frame m ρ

/-- So does the idealized kernel program. -/
theorem frame_ki : @Cert.frame_KernelIdeal Cert.KernelIdeal.Gen.facts Cert.Pre_finite_inputs.Gen.facts :=
  fun m ρ _ => Cert.KernelIdeal.Hand.frame m ρ

/-- The reference's frame is its generated run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Over the extended reals the kernel program ends at `Kspec` of the arguments and the reference at `Rspec` of the same
    arguments and index maps: one function. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.V11 m (Cert.KernelIdeal.Hand.outs m) c Cert.KernelIdeal.main_v39,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact (ref_value _ _ _ _ _ _ _ _ _).trans
    ((spec_eq _ _ _ (grOf_eq _) (gs_gi _) _ _ _ _ _ _ _ _).symm.trans (kernel_value m c).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
